-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x32 : Shape := ⟨2, ![4096, 32]⟩
abbrev S4x32x32 : Shape := ⟨3, ![4, 32, 32]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4x32x32 : S_.BroadcastsInDim S4x32x32 (![] : Fin 0 → Fin S4x32x32.rank)
  reducesTo_S4x32x32_S_d0_1_2 : S4x32x32.ReducesTo [0, 1, 2] S_

variable [Facts]

def fn {F : FTy → Type} [FloatOps F] (main_arg0 : FVec F S4x4096x4096 .f32) (main_arg1 : FVec F S4096x32 .f32) (main_arg2 : FVec F S4x32x32 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x32 .f32 := Host.absf main_arg1
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4x32x32 .f32 := Host.absf main_arg2
  let main_cst_2 : FVec F S_ .f32 := constant S_ .f32 0x7F800000#32
  let main_v10 : FVec F S4x32x32 .f32 := broadcastInDim S4x32x32 ![] bcast_S_S4x32x32 main_cst_2
  let main_v11 : IVec S4x32x32 1 := cmpf .olt main_v9 main_v10
  let main_c_3 : IVec S_ 1 := constantI S_ 1 1#1
  let main_v12 : IVec S_ 1 := (fun x v => Host.reduce IntOp.andi x v reducesTo_S4x32x32_S_d0_1_2 h_S_) main_v11 main_c_3
  let main_v13 : IVec S_ 1 := andi main_v8 main_v12
  main_v13
-- ==== Kernel.lean ====
abbrev S4x4096x4096 : Shape := ⟨3, ![4, 4096, 4096]⟩
abbrev S4096x32 : Shape := ⟨2, ![4096, 32]⟩
abbrev S4x32x32 : Shape := ⟨3, ![4, 32, 32]⟩
abbrev S4x512x512 : Shape := ⟨3, ![4, 512, 512]⟩
abbrev S512x32 : Shape := ⟨2, ![512, 32]⟩
abbrev S4x4096x32 : Shape := ⟨3, ![4, 4096, 32]⟩
abbrev S1x32x32 : Shape := ⟨3, ![1, 32, 32]⟩
abbrev S32x32 : Shape := ⟨2, ![32, 32]⟩
abbrev S1x4096x32 : Shape := ⟨3, ![1, 4096, 32]⟩
abbrev S1x512x512 : Shape := ⟨3, ![1, 512, 512]⟩
abbrev S512x512 : Shape := ⟨2, ![512, 512]⟩
abbrev S1x512x32 : Shape := ⟨3, ![1, 512, 32]⟩
abbrev S512 : Shape := ⟨1, ![512]⟩
abbrev S512x1 : Shape := ⟨2, ![512, 1]⟩

abbrev nBuf : Space → Nat
  | .hbm => 5
  | .vmem => 16
  | .smem => 0
  | _ => 0

abbrev bufTy : (tb : Table) → Fin (tcTables nBuf tb) → BufTy
  | .hbm, ⟨0, _⟩ => ⟨S4x4096x4096, .f32⟩
  | .hbm, ⟨1, _⟩ => ⟨S4096x32, .f32⟩
  | .hbm, ⟨2, _⟩ => ⟨S4x32x32, .f32⟩
  | .hbm, ⟨3, _⟩ => ⟨S4096x32, .f32⟩
  | .hbm, ⟨4, _⟩ => ⟨S4096x32, .f32⟩
  | .local _ .vmem, ⟨0, _⟩ => ⟨S4x512x512, .f32⟩
  | .local _ .vmem, ⟨1, _⟩ => ⟨S4x512x512, .f32⟩
  | .local _ .vmem, ⟨2, _⟩ => ⟨S4096x32, .f32⟩
  | .local _ .vmem, ⟨3, _⟩ => ⟨S4x32x32, .f32⟩
  | .local _ .vmem, ⟨4, _⟩ => ⟨S512x32, .f32⟩
  | .local _ .vmem, ⟨5, _⟩ => ⟨S512x32, .f32⟩
  | .local _ .vmem, ⟨6, _⟩ => ⟨S4x4096x32, .bf16⟩
  | .local _ .vmem, ⟨7, _⟩ => ⟨S512x32, .f32⟩
  | .local _ .vmem, ⟨8, _⟩ => ⟨S4x512x512, .f32⟩
  | .local _ .vmem, ⟨9, _⟩ => ⟨S4x512x512, .f32⟩
  | .local _ .vmem, ⟨10, _⟩ => ⟨S4096x32, .f32⟩
  | .local _ .vmem, ⟨11, _⟩ => ⟨S4x32x32, .f32⟩
  | .local _ .vmem, ⟨12, _⟩ => ⟨S512x32, .f32⟩
  | .local _ .vmem, ⟨13, _⟩ => ⟨S512x32, .f32⟩
  | .local _ .vmem, ⟨14, _⟩ => ⟨S4x4096x32, .bf16⟩
  | .local _ .vmem, ⟨15, _⟩ => ⟨S512x32, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![8, 8], ![false, false]⟩

def k0_off1 (i : grid0.Coords) : Fin 3 → Nat :=
  let c0_4 : Index := 0#32
  let arg1 : BitVec 32 := BitVec.ofNat 32 (i 1).val
  let c512_i32 : BitVec 32 := 512#32
  let v8 : BitVec 32 := Scalar.muli arg1 c512_i32
  let v9 : Index := Scalar.indexCast v8
  let c0_5 : Index := 0#32
  ![0, v9.toNat, 0]
def k0_off2 (i : grid0.Coords) : Fin 3 → Nat :=
  let c1_9 : Index := 1#32
  let arg1 : BitVec 32 := BitVec.ofNat 32 (i 1).val
  let c512_i32_8 : BitVec 32 := 512#32
  let v16 : BitVec 32 := Scalar.muli arg1 c512_i32_8
  let v17 : Index := Scalar.indexCast v16
  let c0_10 : Index := 0#32
  ![1, v17.toNat, 0]
def k0_off3 (i : grid0.Coords) : Fin 3 → Nat :=
  let c2_15 : Index := 2#32
  let arg1 : BitVec 32 := BitVec.ofNat 32 (i 1).val
  let c512_i32_14 : BitVec 32 := 512#32
  let v25 : BitVec 32 := Scalar.muli arg1 c512_i32_14
  let v26 : Index := Scalar.indexCast v25
  let c0_16 : Index := 0#32
  ![2, v26.toNat, 0]
def k0_off4 (i : grid0.Coords) : Fin 3 → Nat :=
  let c3_21 : Index := 3#32
  let arg1 : BitVec 32 := BitVec.ofNat 32 (i 1).val
  let c512_i32_20 : BitVec 32 := 512#32
  let v34 : BitVec 32 := Scalar.muli arg1 c512_i32_20
  let v35 : Index := Scalar.indexCast v34
  let c0_22 : Index := 0#32
  ![3, v35.toNat, 0]
def k0_cond4 (i : grid0.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_28 : BitVec 32 := 0#32
  let v48 : BitVec 1 := Scalar.cmpi .ne v47 c0_i32_28
  v48

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def k1_off1 (i : grid1.Coords) : Fin 3 → Nat :=
  let c0_4 : Index := 0#32
  let arg1 : BitVec 32 := BitVec.ofNat 32 (i 1).val
  let c512_i32 : BitVec 32 := 512#32
  let v8 : BitVec 32 := Scalar.muli arg1 c512_i32
  let v9 : Index := Scalar.indexCast v8
  let c0_5 : Index := 0#32
  ![0, v9.toNat, 0]
def k1_off2 (i : grid1.Coords) : Fin 3 → Nat :=
  let c1_9 : Index := 1#32
  let arg1 : BitVec 32 := BitVec.ofNat 32 (i 1).val
  let c512_i32_8 : BitVec 32 := 512#32
  let v16 : BitVec 32 := Scalar.muli arg1 c512_i32_8
  let v17 : Index := Scalar.indexCast v16
  let c0_10 : Index := 0#32
  ![1, v17.toNat, 0]
def k1_off3 (i : grid1.Coords) : Fin 3 → Nat :=
  let c2_15 : Index := 2#32
  let arg1 : BitVec 32 := BitVec.ofNat 32 (i 1).val
  let c512_i32_14 : BitVec 32 := 512#32
  let v25 : BitVec 32 := Scalar.muli arg1 c512_i32_14
  let v26 : Index := Scalar.indexCast v25
  let c0_16 : Index := 0#32
  ![2, v26.toNat, 0]
def k1_off4 (i : grid1.Coords) : Fin 3 → Nat :=
  let c3_21 : Index := 3#32
  let arg1 : BitVec 32 := BitVec.ofNat 32 (i 1).val
  let c512_i32_20 : BitVec 32 := 512#32
  let v34 : BitVec 32 := Scalar.muli arg1 c512_i32_20
  let v35 : Index := Scalar.indexCast v34
  let c0_22 : Index := 0#32
  ![3, v35.toNat, 0]
def k1_cond4 (i : grid1.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_28 : BitVec 32 := 0#32
  let v48 : BitVec 1 := Scalar.cmpi .ne v47 c0_i32_28
  v48

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4096x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S4x32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S4096x32_S4096x32_0_0 : ∀ a, (![0, 0] : Fin 2 → Nat) a + S4096x32.size a ≤ S4096x32.size a
  h_S4096x32 : 0 < S4096x32.numel
  inb_S4x32x32_S1x32x32_0_0_0 : ∀ a, (![0, 0, 0] : Fin 3 → Nat) a + S1x32x32.size a ≤ S4x32x32.size a
  h_S1x32x32 : 0 < S1x32x32.numel
  shapeCasts_S1x32x32_S32x32 : S1x32x32.ShapeCasts S32x32
  bitsLt_bf16_f32 : FTy.bits .bf16 < FTy.bits .f32
  inb_S4x4096x32_S1x4096x32_0_0_0 : ∀ a, (![0, 0, 0] : Fin 3 → Nat) a + S1x4096x32.size a ≤ S4x4096x32.size a
  h_S1x4096x32 : 0 < S1x4096x32.numel
  shapeCasts_S1x4096x32_S4096x32 : S1x4096x32.ShapeCasts S4096x32
  shapeCasts_S4096x32_S1x4096x32 : S4096x32.ShapeCasts S1x4096x32
  packedbf16_S4x4096x32_S1x4096x32_0_0_0 : (Rect.unit (s := S4x4096x32) ![0, 0, 0] S1x4096x32.size inb_S4x4096x32_S1x4096x32_0_0_0).PackedRows (EltTy.packing .bf16)
  inb_S4x32x32_S1x32x32_1_0_0 : ∀ a, (![1, 0, 0] : Fin 3 → Nat) a + S1x32x32.size a ≤ S4x32x32.size a
  inb_S4x4096x32_S1x4096x32_1_0_0 : ∀ a, (![1, 0, 0] : Fin 3 → Nat) a + S1x4096x32.size a ≤ S4x4096x32.size a
  packedbf16_S4x4096x32_S1x4096x32_1_0_0 : (Rect.unit (s := S4x4096x32) ![1, 0, 0] S1x4096x32.size inb_S4x4096x32_S1x4096x32_1_0_0).PackedRows (EltTy.packing .bf16)
  inb_S4x32x32_S1x32x32_2_0_0 : ∀ a, (![2, 0, 0] : Fin 3 → Nat) a + S1x32x32.size a ≤ S4x32x32.size a
  inb_S4x4096x32_S1x4096x32_2_0_0 : ∀ a, (![2, 0, 0] : Fin 3 → Nat) a + S1x4096x32.size a ≤ S4x4096x32.size a
  packedbf16_S4x4096x32_S1x4096x32_2_0_0 : (Rect.unit (s := S4x4096x32) ![2, 0, 0] S1x4096x32.size inb_S4x4096x32_S1x4096x32_2_0_0).PackedRows (EltTy.packing .bf16)
  inb_S4x32x32_S1x32x32_3_0_0 : ∀ a, (![3, 0, 0] : Fin 3 → Nat) a + S1x32x32.size a ≤ S4x32x32.size a
  inb_S4x4096x32_S1x4096x32_3_0_0 : ∀ a, (![3, 0, 0] : Fin 3 → Nat) a + S1x4096x32.size a ≤ S4x4096x32.size a
  packedbf16_S4x4096x32_S1x4096x32_3_0_0 : (Rect.unit (s := S4x4096x32) ![3, 0, 0] S1x4096x32.size inb_S4x4096x32_S1x4096x32_3_0_0).PackedRows (EltTy.packing .bf16)
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  h_S1x512x32 : 0 < S1x512x32.numel
  shapeCasts_S1x512x32_S512x32 : S1x512x32.ShapeCasts S512x32
  inb_S4x512x512_S1x512x512_1_0_0 : ∀ a, (![1, 0, 0] : Fin 3 → Nat) a + S1x512x512.size a ≤ S4x512x512.size a
  inb_S4x512x512_S1x512x512_2_0_0 : ∀ a, (![2, 0, 0] : Fin 3 → Nat) a + S1x512x512.size a ≤ S4x512x512.size a
  inb_S4x512x512_S1x512x512_3_0_0 : ∀ a, (![3, 0, 0] : Fin 3 → Nat) a + S1x512x512.size a ≤ S4x512x512.size a
  inb_S512x32_S512x32_0_0 : ∀ a, (![0, 0] : Fin 2 → Nat) a + S512x32.size a ≤ S512x32.size a
  h_S512x32 : 0 < S512x32.numel
  shapeCasts_S512x32_S512x32 : S512x32.ShapeCasts S512x32
  shapeCasts_S4096x32_S4096x32 : S4096x32.ShapeCasts S4096x32
  reduces_S512x32_S512 : S512x32.Reduces [1] S512
  shapeCasts_S512_S512x1 : S512.ShapeCasts S512x1
  broadcasts_S512x1_S512x32 : S512x1.Broadcasts S512x32
  dot_S4096x32_S32x32_S4096x32_1_1_0_0_n_n_wf : DotDims.WF S4096x32 S32x32 S4096x32 [1] [1] [0] [0] [] []
  dot_S512x512_S512x32_S512x32_1_0_0_1_n_n_wf : DotDims.WF S512x512 S512x32 S512x32 [1] [0] [0] [1] [] []
  hrank0 : 0 < grid0.rank
  k0_off1_inb : ∀ i : grid0.Coords, ∀ a, (k0_off1 i) a + S1x512x32.size a ≤ S4x4096x32.size a
  k0_off2_inb : ∀ i : grid0.Coords, ∀ a, (k0_off2 i) a + S1x512x32.size a ≤ S4x4096x32.size a
  k0_off3_inb : ∀ i : grid0.Coords, ∀ a, (k0_off3 i) a + S1x512x32.size a ≤ S4x4096x32.size a
  k0_off4_inb : ∀ i : grid0.Coords, ∀ a, (k0_off4 i) a + S1x512x32.size a ≤ S4x4096x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S4x4096x4096.size a
  hwx0_0 : ∀ i : grid0.Coords, EltTy.bits .f32 = 32 ∨ (Rect.block (s := S4x4096x4096) S4x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S4096x32.size a
  hwx0_1 : ∀ i : grid0.Coords, EltTy.bits .f32 = 32 ∨ (Rect.block (s := S4096x32) S4096x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x32x32.size a ≤ S4x32x32.size a
  hwx0_2 : ∀ i : grid0.Coords, EltTy.bits .f32 = 32 ∨ (Rect.block (s := S4x32x32) S4x32x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S4096x32.size a
  hwx0_3 : ∀ i : grid0.Coords, EltTy.bits .f32 = 32 ∨ (Rect.block (s := S4096x32) S512x32.size (cc0_transform_3 i) (hinb0_3 i)).WholeWords (EltTy.packing .f32)
  hrank1 : 0 < grid1.rank
  k1_off1_inb : ∀ i : grid1.Coords, ∀ a, (k1_off1 i) a + S1x512x32.size a ≤ S4x4096x32.size a
  k1_off2_inb : ∀ i : grid1.Coords, ∀ a, (k1_off2 i) a + S1x512x32.size a ≤ S4x4096x32.size a
  k1_off3_inb : ∀ i : grid1.Coords, ∀ a, (k1_off3 i) a + S1x512x32.size a ≤ S4x4096x32.size a
  k1_off4_inb : ∀ i : grid1.Coords, ∀ a, (k1_off4 i) a + S1x512x32.size a ≤ S4x4096x32.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x512.size a ≤ S4x4096x4096.size a
  hwx1_0 : ∀ i : grid1.Coords, EltTy.bits .f32 = 32 ∨ (Rect.block (s := S4x4096x4096) S4x512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x32.size a ≤ S4096x32.size a
  hwx1_1 : ∀ i : grid1.Coords, EltTy.bits .f32 = 32 ∨ (Rect.block (s := S4096x32) S4096x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x32x32.size a ≤ S4x32x32.size a
  hwx1_2 : ∀ i : grid1.Coords, EltTy.bits .f32 = 32 ∨ (Rect.block (s := S4x32x32) S4x32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x32.size a ≤ S4096x32.size a
  hwx1_3 : ∀ i : grid1.Coords, EltTy.bits .f32 = 32 ∨ (Rect.block (s := S4096x32) S512x32.size (cc1_transform_3 i) (hinb1_3 i)).WholeWords (EltTy.packing .f32)

variable [Facts₀]

def dot_S4096x32_S32x32_S4096x32_1_1_0_0_n_n : DotDims S4096x32 S32x32 S4096x32 where
  lhsContracting := [1]
  rhsContracting := [1]
  lhsNonContracting := [0]
  rhsNonContracting := [0]
  lhsBatch := []
  rhsBatch := []
  wf := dot_S4096x32_S32x32_S4096x32_1_1_0_0_n_n_wf
def dot_S512x512_S512x32_S512x32_1_0_0_1_n_n : DotDims S512x512 S512x32 S512x32 where
  lhsContracting := [1]
  rhsContracting := [0]
  lhsNonContracting := [0]
  rhsNonContracting := [1]
  lhsBatch := []
  rhsBatch := []
  wf := dot_S512x512_S512x32_S512x32_1_0_0_1_n_n_wf

abbrev win0_0 : Pipeline.Window sig grid0 :=
  Pipeline.Window.ofSpec (Memref.whole main_arg0) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

abbrev win1_0 : Pipeline.Window sig grid1 :=
  Pipeline.Window.ofSpec (Memref.whole main_arg0) S4x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S4x32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond4 i == 1#1) | ⟨_ + 4, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x32 : Shape := ⟨2, ![4096, 32]⟩
abbrev S4x32x32 : Shape := ⟨3, ![4, 32, 32]⟩
abbrev S4x4096x32 : Shape := ⟨3, ![4, 4096, 32]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x32, .f32⟩
  | .hbm, ⟨2, _⟩ => ⟨S4x32x32, .f32⟩
  | .hbm, ⟨3, _⟩ => ⟨S4x4096x32, .f32⟩
  | .hbm, ⟨4, _⟩ => ⟨S4x4096x32, .f32⟩
  | .hbm, ⟨5, _⟩ => ⟨S_, .f32⟩
  | .hbm, ⟨6, _⟩ => ⟨S4096x32, .f32⟩
  | .hbm, ⟨7, _⟩ => ⟨S_, .f32⟩
  | .hbm, ⟨8, _⟩ => ⟨S4096x32, .f32⟩
  | .hbm, ⟨9, _⟩ => ⟨S4096x32, .f32⟩
  | .hbm, ⟨10, _⟩ => ⟨S4x4096x32, .f32⟩
  | .hbm, ⟨11, _⟩ => ⟨S4x4096x32, .f32⟩
  | .hbm, ⟨12, _⟩ => ⟨S_, .f32⟩
  | .hbm, ⟨13, _⟩ => ⟨S4096x32, .f32⟩
  | .hbm, ⟨14, _⟩ => ⟨S_, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x32, .f32⟩
  | .hbm, ⟨26, _⟩ => ⟨S4096x32, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_call1_cst : Ref sig .tc := ⟨.hbm, 14, rfl⟩
abbrev main_call1_v0 : Ref sig .tc := ⟨.hbm, 15, rfl⟩
abbrev main_v7 : Ref sig .tc := ⟨.hbm, 16, rfl⟩
abbrev main_call2_v0 : Ref sig .tc := ⟨.hbm, 17, rfl⟩
abbrev main_call2_cst : Ref sig .tc := ⟨.hbm, 18, rfl⟩
abbrev main_call2_v1 : Ref sig .tc := ⟨.hbm, 19, rfl⟩
abbrev main_call2_v2 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩

abbrev nD : Nat := 1
abbrev τ : Topo := Topo.v7x

variable {F : FTy → Type} [FloatOps F]

class Facts₀ : Prop where
  reducesTo_S4x4096x32_S4096x32_d0 : S4x4096x32.ReducesTo [0] S4096x32
  h_S_ : 0 < S_.numel
  bcast_S_S4096x32 : S_.BroadcastsInDim S4096x32 (![] : Fin 0 → Fin S4096x32.rank)
  reducesTo_S4096x32_S4096_d1 : S4096x32.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x32_0_1 : S4096x1.BroadcastsInDim S4096x32 (![0, 1] : Fin 2 → Fin S4096x32.rank)
  dot_S4x4096x4096_S4096x32_S4x4096x32_2_0_01_1_n_n_wf : DotDims.WF S4x4096x4096 S4096x32 S4x4096x32 [2] [0] [0, 1] [1] [] []
  dot_S4x4096x32_S4x32x32_S4x4096x32_2_2_1_1_0_0_wf : DotDims.WF S4x4096x32 S4x32x32 S4x4096x32 [2] [2] [1] [1] [0] [0]

variable [Facts₀]

def dot_S4x4096x4096_S4096x32_S4x4096x32_2_0_01_1_n_n : DotDims S4x4096x4096 S4096x32 S4x4096x32 where
  lhsContracting := [2]
  rhsContracting := [0]
  lhsNonContracting := [0, 1]
  rhsNonContracting := [1]
  lhsBatch := []
  rhsBatch := []
  wf := dot_S4x4096x4096_S4096x32_S4x4096x32_2_0_01_1_n_n_wf
def dot_S4x4096x32_S4x32x32_S4x4096x32_2_2_1_1_0_0 : DotDims S4x4096x32 S4x32x32 S4x4096x32 where
  lhsContracting := [2]
  rhsContracting := [2]
  lhsNonContracting := [1]
  rhsNonContracting := [1]
  lhsBatch := [0]
  rhsBatch := [0]
  wf := dot_S4x4096x32_S4x32x32_S4x4096x32_2_2_1_1_0_0_wf

class Facts : Prop extends Facts₀ where

variable [Facts]
-- ==== Proof.KR0Base.lean ====
/-
  Region 0 (one layer's pallas_call): what its four control cases are stated over.
  The grid is 8 × 8, point t = 8·n + e (n the row tile, e the column tile of the adjacency).
  The body's four conditionals read the coordinates only:
    a : n = 0 ∧ e = 0   (the projected embeddings emb · Wᵣᵀ are computed into the first scratch),
    b : e = 0           (the accumulator scratch is set to the tile's partial product),
    c : e ≠ 0           (the partial product is added to the accumulator),
    d : e = 7           (the accumulator, clamped at zero, is stored into the output block).
-/
import proofs.«147766_g40561671143680_cont_8to1_b_159_3_alg».proof.Proof.Gen.Kernel.Launch
import proofs.«147766_g40561671143680_cont_8to1_b_159_3_alg».proof.Proof.Gen.Kernel.Skeleton
import proofs.«147766_g40561671143680_cont_8to1_b_159_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, from the grid coordinates -/

abbrev cond0_a (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
abbrev cond0_b (i : grid0.Coords) : Prop :=
  (Scalar.cmpi .ne (Scalar.extui (Scalar.cmpi .eq (BitVec.ofNat 32 (i 1).val) 0#32)) 0#32) = 1#1
abbrev cond0_c (i : grid0.Coords) : Prop :=
  (Scalar.cmpi .ne (Scalar.extui (Scalar.cmpi .ne (BitVec.ofNat 32 (i 1).val) 0#32)) 0#32) = 1#1
abbrev cond0_d (i : grid0.Coords) : Prop := k0_cond4 i = 1#1

/-- Condition a holds at the first point only. -/
theorem hcond0_a : ∀ t : Fin cfg0.N, cond0_a (grid0.coords t) ↔ t.val = 0 :=
  (by decide +kernel : ∀ t : Fin grid0.N, cond0_a (grid0.coords t) ↔ t.val = 0)
/-- Condition b holds where the column tile is the first. -/
theorem hcond0_b : ∀ t : Fin cfg0.N, cond0_b (grid0.coords t) ↔ t.val % 8 = 0 :=
  (by decide +kernel : ∀ t : Fin grid0.N, cond0_b (grid0.coords t) ↔ t.val % 8 = 0)
/-- Condition c holds where it is not. -/
theorem hcond0_c : ∀ t : Fin cfg0.N, cond0_c (grid0.coords t) ↔ ¬ t.val % 8 = 0 :=
  (by decide +kernel : ∀ t : Fin grid0.N, cond0_c (grid0.coords t) ↔ ¬ t.val % 8 = 0)
/-- Condition d holds where the column tile is the last. -/
theorem hcond0_d : ∀ t : Fin cfg0.N, cond0_d (grid0.coords t) ↔ t.val % 8 = 7 :=
  (by decide +kernel : ∀ t : Fin grid0.N, cond0_d (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last column tile the output block is idle and not written back. -/
theorem idleAt0_3 : ∀ t : Fin cfg0.N, ¬cond0_d (grid0.coords t) → cfg0.idle 3 (grid0.coords t) = true := by decide +kernel
theorem noFlush0_3 : ∀ t : Fin cfg0.N, ¬cond0_d (grid0.coords t) → (cfg0.win 3).flush t = false := by decide +kernel
theorem liveAt0_3 : ∀ t : Fin cfg0.N, cond0_d (grid0.coords t) → cfg0.idle 3 (grid0.coords t) = false := by decide +kernel

/-! ## The staging and scratch memrefs -/

abbrev ms0_0 (t : Fin cfg0.N) : Memref sig .tc .vmem S4x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x32x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x32 .f32 := win0_3.stage (cfg0.slots t 3)
abbrev hs0_3 (t : Fin cfg0.N) : (ms0_3 t).IsWhole := hstage0_3 ((cfg0.slots t 3).cast nbuf0_3)
/-- The two scratch operands: the projected embeddings (bf16) and the accumulator. -/
abbrev scM0_0 : Memref sig .tc .vmem S4x4096x32 .bf16 := Memref.whole cc0_scratch0
abbrev scM0_1 : Memref sig .tc .vmem S512x32 .f32 := Memref.whole cc0_scratch1
abbrev VS0_0 : View sig .tc .vmem S4x4096x32 .bf16 := scM0_0.view
abbrev VS0_1 : View sig .tc .vmem S512x32 .f32 := scM0_1.view
abbrev VO0_3 : View sig .tc .vmem S512x32 .f32 := (Memref.whole cc0_stg3_0 : Memref sig .tc .vmem S512x32 .f32).view

end Cert.Kernel.Hand

end
-- ==== Proof.KR0RunA.lean ====
/-
  Region 0, the first point (n = 0, e = 0): the projected embeddings emb · w_rᵀ are stored, relation by relation, into the first scratch, and the accumulator scratch is set to the tile's partial product.
-/
import proofs.«147766_g40561671143680_cont_8to1_b_159_3_alg».proof.Proof.KR0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 8000000 in
/-- The body there, on whole memrefs: the adjacency block at `x0`, the embedding table at `x1`, the relation matrices at
    `x2`, both scratch buffers at anything; the output block handed back as found. The two scratch buffers end with the
    pieces the run finds. -/
noncomputable def kernelRun0_A (c : Dev nD) (i : grid0.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : cond0_a i) (hb : cond0_b i) (hc : ¬cond0_c i) (hd : ¬cond0_d i)
    (x0 : Vec F S4x512x512 .f32) (x1 : Vec F S4096x32 .f32) (x2 : Vec F S4x32x32 .f32) :
    Σ' (LS0 : List (View.Piece (Elt F) S4x4096x32 .bf16)), { LS1 : List (View.Piece (Elt F) S512x32 .f32) //
      ∀ (xi3 : Vec F S512x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__layer_kernel i arg2 harg2 arg3 harg3 arg4 harg4 arg5 harg5 arg6 harg6 arg7 harg7) K } := by
  refine ⟨?_, ?_, fun xi3 E K => ?run⟩
  case run =>
    simp only [cc0__layer_kernel_eq_skeleton]; unfold cc0__layer_kernel_skel
    unfold owns
    iintro ⟨⟨%f0, %hf0, H0⟩, ⟨%f1, %hf1, H1⟩, ⟨%f2, %hf2, H2⟩, ⟨%f3, %hf3, H3⟩, ⟨%dB, %fB, -, HB⟩, ⟨%dA, %fA, -, HA⟩, Hk⟩
    obtain rfl := harg2.eq_unread hf0; obtain rfl := harg3.eq_unread hf1; obtain rfl := harg4.eq_unread hf2
    obtain rfl := harg5.eq_unread hf3
    sl_exec_parts! (disch := first | exact ha | exact hb | exact hc | exact hd)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HB]; · iexists _; iexact HB
    iexists _; iexact HA

end Cert.Kernel.Hand

end
-- ==== Proof.KR0RunB.lean ====
/-
  Region 0, the middle column tiles (0 < e < 7): the tile's partial product is added to the accumulator
  scratch; nothing else is stored.
-/
import proofs.«147766_g40561671143680_cont_8to1_b_159_3_alg».proof.Proof.KR0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle column tile, on whole memrefs: the adjacency block at `x0`, the projected embeddings at `xB`,
    the accumulator at `xA`; the other windows are handed back as found. The accumulator ends with the pieces the run finds. -/
noncomputable def kernelRun0_B (c : Dev nD) (i : grid0.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : ¬cond0_a i) (hb : ¬cond0_b i) (hc : cond0_c i) (hd : ¬cond0_d i)
    (x0 : Vec F S4x512x512 .f32) (xB : Vec F S4x4096x32 .bf16) (xA : Vec F S512x32 .f32) :
    { LS1 : List (View.Piece (Elt F) S512x32 .f32) //
      ∀ (xi1 : Vec F S4096x32 .f32) (xi2 : Vec F S4x32x32 .f32) (xi3 : Vec F S512x32 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xi3
            ∗ owns (c : Thread nD τ) arg6 fullShare xB ∗ owns (c : Thread nD τ) arg7 fullShare xA
            ∗ (iprop(owns (c : Thread nD τ) arg2 fullShare x0 ∗ owns (c : Thread nD τ) arg3 fullShare xi1 ∗ owns (c : Thread nD τ) arg4 fullShare xi2 ∗ owns (c : Thread nD τ) arg5 fullShare xi3
                ∗ owns (c : Thread nD τ) arg6 fullShare xB ∗ (∃ f, arg7.view.loc (c : Thread nD τ) ↦[arg7.view.set]{fullShare} arg7.view.writes (Elt F) f LS1)) -∗ K ⟨⟩))
          ⊢ wp frame (wpE (defs₀ (F := F)) Variants.none c none) E (cc0__layer_kernel i arg2 harg2 arg3 harg3 arg4 harg4 arg5 harg5 arg6 harg6 arg7 harg7) K } := by
  refine ⟨?_, fun xi1 xi2 xi3 E K => ?run⟩
  case run =>
    simp only [cc0__layer_kernel_eq_skeleton]; unfold cc0__layer_kernel_skel
    simp only [k0_part2_eq_skeleton]; unfold k0_part2_skel
    unfold owns
    iintro ⟨⟨%f0, %hf0, H0⟩, ⟨%f1, %hf1, H1⟩, ⟨%f2, %hf2, H2⟩, ⟨%f3, %hf3, H3⟩, ⟨%fB, %hfB, HB⟩, ⟨%fA, %hfA, HA⟩, Hk⟩
    obtain rfl := harg2.eq_unread hf0; obtain rfl := harg3.eq_unread hf1; obtain rfl := harg4.eq_unread hf2
    obtain rfl := harg5.eq_unread hf3; obtain rfl := harg6.eq_unread hfB; obtain rfl := harg7.eq_unread hfA
    sl_exec (disch := first | exact ha | exact hb | exact hc | exact hd)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HB]
    · iexists _; isplitr; · ipureintro; exact harg6.read_unread _
      iexact HB
    iexists _; iexact HA

end Cert.Kernel.Hand

end
-- ==== Proof.KR0RunC.lean ====
/-
  Region 0, the last column tile (e = 7): the partial product is added to the accumulator scratch, and the accumulator clamped at zero is stored into the output block.
-/
import proofs.«147766_g40561671143680_cont_8to1_b_159_3_alg».proof.Proof.KR0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- The body there, on whole memrefs: the adjacency block at `x0`, the projected embeddings at `xB`, the accumulator at
    `xA`, the output block at anything; the other windows handed back as found. The accumulator and the output block end
    with the pieces the run finds. -/
noncomputable def kernelRun0_C (c : Dev nD) (i : grid0.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : ¬cond0_a i) (hb : ¬cond0_b i) (hc : cond0_c i) (hd : cond0_d i)
    (x0 : Vec F S4x512x512 .f32) (xB : Vec F S4x4096x32 .bf16) (xA : Vec F S512x32 .f32) :
    Σ' (L3 : List (View.Piece (Elt F) S512x32 .f32)), { LS1 : List (View.Piece (Elt F) S512x32 .f32) //
      ∀ (xi1 : Vec F S4096x32 .f32) (xi2 : Vec F S4x32x32 .f32) (E : Set ℕ) (K : PUnit → sProp 𝕄),
        iprop(owns (c : Thread nD τ) arg2 fullShare x0 ∗ owns (c : Thread nD τ) arg3 fullShare xi1 ∗ owns (c : Thread nD τ) arg4 fullShare xi2 ∗ (∃ d, owns (c : Thread nD τ) arg5 fullShare d)
            ∗ owns (c : Thread nD τ) arg6 fullShare xB ∗ owns (c : Thread nD τ) arg7 fullShare xA
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f L3)
                ∗ owns (c : Thread nD τ) arg6 fullShare xB ∗ (∃ f, arg7.view.loc (c : Thread nD τ) ↦[arg7.view.set]{fullShare} arg7.view.writes (Elt F) f LS1)) -∗ K ⟨⟩))
          ⊢ wp frame (wpE (defs₀ (F := F)) Variants.none c none) E (cc0__layer_kernel i arg2 harg2 arg3 harg3 arg4 harg4 arg5 harg5 arg6 harg6 arg7 harg7) K } := by
  refine ⟨?_, ?_, fun xi1 xi2 E K => ?run⟩
  case run =>
    simp only [cc0__layer_kernel_eq_skeleton]; unfold cc0__layer_kernel_skel
    simp only [k0_part2_eq_skeleton]; unfold k0_part2_skel
    unfold owns
    iintro ⟨⟨%f0, %hf0, H0⟩, ⟨%f1, %hf1, H1⟩, ⟨%f2, %hf2, H2⟩, ⟨%d3, %f3, -, H3⟩, ⟨%fB, %hfB, HB⟩, ⟨%fA, %hfA, HA⟩, Hk⟩
    obtain rfl := harg2.eq_unread hf0; obtain rfl := harg3.eq_unread hf1; obtain rfl := harg4.eq_unread hf2
    obtain rfl := harg6.eq_unread hfB; obtain rfl := harg7.eq_unread hfA
    sl_exec (disch := first | exact ha | exact hb | exact hc | exact hd)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HB]
    · iexists _; isplitr; · ipureintro; exact harg6.read_unread _
      iexact HB
    iexists _; iexact HA

end Cert.Kernel.Hand

end
-- ==== Proof.KR0RunD.lean ====
/-
  Region 0, the first column tile of a later row tile (n ≠ 0, e = 0): the accumulator scratch is set to the tile's partial product.
-/
import proofs.«147766_g40561671143680_cont_8to1_b_159_3_alg».proof.Proof.KR0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- The body there, on whole memrefs: the adjacency block at `x0`, the projected embeddings at `xB`, the accumulator at
    anything; the other windows handed back as found. The accumulator ends with the pieces the run finds. -/
noncomputable def kernelRun0_D (c : Dev nD) (i : grid0.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : ¬cond0_a i) (hb : cond0_b i) (hc : ¬cond0_c i) (hd : ¬cond0_d i)
    (x0 : Vec F S4x512x512 .f32) (xB : Vec F S4x4096x32 .bf16) :
    { LS1 : List (View.Piece (Elt F) S512x32 .f32) //
      ∀ (xi1 : Vec F S4096x32 .f32) (xi2 : Vec F S4x32x32 .f32) (xi3 : Vec F S512x32 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xi3
            ∗ owns (c : Thread nD τ) arg6 fullShare xB ∗ (∃ d, owns (c : Thread nD τ) arg7 fullShare d)
            ∗ (iprop(owns (c : Thread nD τ) arg2 fullShare x0 ∗ owns (c : Thread nD τ) arg3 fullShare xi1 ∗ owns (c : Thread nD τ) arg4 fullShare xi2 ∗ owns (c : Thread nD τ) arg5 fullShare xi3
                ∗ owns (c : Thread nD τ) arg6 fullShare xB ∗ (∃ f, arg7.view.loc (c : Thread nD τ) ↦[arg7.view.set]{fullShare} arg7.view.writes (Elt F) f LS1)) -∗ K ⟨⟩))
          ⊢ wp frame (wpE (defs₀ (F := F)) Variants.none c none) E (cc0__layer_kernel i arg2 harg2 arg3 harg3 arg4 harg4 arg5 harg5 arg6 harg6 arg7 harg7) K } := by
  refine ⟨?_, fun xi1 xi2 xi3 E K => ?run⟩
  case run =>
    simp only [cc0__layer_kernel_eq_skeleton]; unfold cc0__layer_kernel_skel
    simp only [k0_part2_eq_skeleton]; unfold k0_part2_skel
    unfold owns
    iintro ⟨⟨%f0, %hf0, H0⟩, ⟨%f1, %hf1, H1⟩, ⟨%f2, %hf2, H2⟩, ⟨%f3, %hf3, H3⟩, ⟨%fB, %hfB, HB⟩, ⟨%dA, %fA, -, HA⟩, Hk⟩
    obtain rfl := harg2.eq_unread hf0; obtain rfl := harg3.eq_unread hf1; obtain rfl := harg4.eq_unread hf2
    obtain rfl := harg5.eq_unread hf3; obtain rfl := harg6.eq_unread hfB
    sl_exec (disch := first | exact ha | exact hb | exact hc | exact hd)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HB]
    · iexists _; isplitr; · ipureintro; exact harg6.read_unread _
      iexact HB
    iexists _; iexact HA

end Cert.Kernel.Hand

end
-- ==== Proof.KR0Frame.lean ====
/-
  Region 0 (layer 1): what the two scratch buffers and the output block hold after each grid point, the
  pipeline's proof data, and the body obligation.

  After point t = 8·n + e the first scratch holds the projected embeddings (stored at the first point, read ever
  after), the second the sum of the partial products of row tile n over the column tiles 0 … e; at e = 7 the output
  block is what the epilogue makes of that sum. Each is stated as the case's stores read back, over what the point
  before left.
-/
import proofs.«147766_g40561671143680_cont_8to1_b_159_3_alg».proof.Proof.KR0RunA
import proofs.«147766_g40561671143680_cont_8to1_b_159_3_alg».proof.Proof.KR0RunB
import proofs.«147766_g40561671143680_cont_8to1_b_159_3_alg».proof.Proof.KR0RunC
import proofs.«147766_g40561671143680_cont_8to1_b_159_3_alg».proof.Proof.KR0RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The four cases at a grid point -/

abbrev run0A (c : Dev nD) (t : Fin cfg0.N) (h : t.val = 0) (x0 : Vec F S4x512x512 .f32) (x1 : Vec F S4096x32 .f32) (x2 : Vec F S4x32x32 .f32) :=
  kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _)
    ((hcond0_a t).mpr h) ((hcond0_b t).mpr (by omega)) (fun hc => (hcond0_c t).mp hc (by omega)) (fun hd => by have := (hcond0_d t).mp hd; omega) x0 x1 x2
abbrev run0D (c : Dev nD) (t : Fin cfg0.N) (h0 : t.val ≠ 0) (hb : t.val % 8 = 0) (x0 : Vec F S4x512x512 .f32) (xB : Vec F S4x4096x32 .bf16) :=
  kernelRun0_D c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (fun ha => h0 ((hcond0_a t).mp ha)) ((hcond0_b t).mpr hb) (fun hc => (hcond0_c t).mp hc hb) (fun hd => by have := (hcond0_d t).mp hd; omega) x0 xB
abbrev run0B (c : Dev nD) (t : Fin cfg0.N) (hb : ¬ t.val % 8 = 0) (hd : ¬ t.val % 8 = 7) (x0 : Vec F S4x512x512 .f32) (xB : Vec F S4x4096x32 .bf16) (xA : Vec F S512x32 .f32) :=
  kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (fun ha => by have := (hcond0_a t).mp ha; omega) (fun h => hb ((hcond0_b t).mp h)) ((hcond0_c t).mpr hb) (fun h => hd ((hcond0_d t).mp h)) x0 xB xA
abbrev run0C (c : Dev nD) (t : Fin cfg0.N) (hd : t.val % 8 = 7) (x0 : Vec F S4x512x512 .f32) (xB : Vec F S4x4096x32 .bf16) (xA : Vec F S512x32 .f32) :=
  kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (fun ha => by have := (hcond0_a t).mp ha; omega) (fun h => by have := (hcond0_b t).mp h; omega) ((hcond0_c t).mpr (by omega)) ((hcond0_d t).mpr hd) x0 xB xA

/-! ## What each case leaves: its stores read back -/

/-- The first point: the projected embeddings, and the accumulator. -/
def sB0_A (c : Dev nD) (t : Fin cfg0.N) (h : t.val = 0) (x0 : Vec F S4x512x512 .f32) (x1 : Vec F S4096x32 .f32) (x2 : Vec F S4x32x32 .f32) : Vec F S4x4096x32 .bf16 :=
  VS0_0.read (Elt F) (VS0_0.writes (Elt F) VS0_0.junk (run0A c t h x0 x1 x2).1)
def sA0_A (c : Dev nD) (t : Fin cfg0.N) (h : t.val = 0) (x0 : Vec F S4x512x512 .f32) (x1 : Vec F S4096x32 .f32) (x2 : Vec F S4x32x32 .f32) : Vec F S512x32 .f32 :=
  VS0_1.read (Elt F) (VS0_1.writes (Elt F) VS0_1.junk (run0A c t h x0 x1 x2).2.1)
theorem scovB0_A (c : Dev nD) (t : Fin cfg0.N) (h : t.val = 0) (x0 : Vec F S4x512x512 .f32) (x1 : Vec F S4096x32 .f32) (x2 : Vec F S4x32x32 .f32) (y : S4x4096x32.Idx) :
    ∃ pc ∈ (run0A c t h x0 x1 x2).1, y ∈ pc.1.set :=
  View.cover_of_tiledL (run0A c t h x0 x1 x2).1 S1x4096x32.size (by sl_kernel_rfl) y
theorem scovA0_A (c : Dev nD) (t : Fin cfg0.N) (h : t.val = 0) (x0 : Vec F S4x512x512 .f32) (x1 : Vec F S4096x32 .f32) (x2 : Vec F S4x32x32 .f32) (y : S512x32.Idx) :
    ∃ pc ∈ (run0A c t h x0 x1 x2).2.1, y ∈ pc.1.set :=
  View.cover_of_tiledL (run0A c t h x0 x1 x2).2.1 S512x32.size (by sl_kernel_rfl) y

/-- The first column tile of a later row tile: the accumulator. -/
def sA0_D (c : Dev nD) (t : Fin cfg0.N) (h0 : t.val ≠ 0) (hb : t.val % 8 = 0) (x0 : Vec F S4x512x512 .f32) (xB : Vec F S4x4096x32 .bf16) : Vec F S512x32 .f32 :=
  VS0_1.read (Elt F) (VS0_1.writes (Elt F) VS0_1.junk (run0D c t h0 hb x0 xB).1)
theorem scovA0_D (c : Dev nD) (t : Fin cfg0.N) (h0 : t.val ≠ 0) (hb : t.val % 8 = 0) (x0 : Vec F S4x512x512 .f32) (xB : Vec F S4x4096x32 .bf16) (y : S512x32.Idx) :
    ∃ pc ∈ (run0D c t h0 hb x0 xB).1, y ∈ pc.1.set :=
  View.cover_of_tiledL (run0D c t h0 hb x0 xB).1 S512x32.size (by sl_kernel_rfl) y

/-- A middle column tile: the accumulator. -/
def sA0_B (c : Dev nD) (t : Fin cfg0.N) (hb : ¬ t.val % 8 = 0) (hd : ¬ t.val % 8 = 7) (x0 : Vec F S4x512x512 .f32) (xB : Vec F S4x4096x32 .bf16) (xA : Vec F S512x32 .f32) : Vec F S512x32 .f32 :=
  VS0_1.read (Elt F) (VS0_1.writes (Elt F) VS0_1.junk (run0B c t hb hd x0 xB xA).1)
theorem scovA0_B (c : Dev nD) (t : Fin cfg0.N) (hb : ¬ t.val % 8 = 0) (hd : ¬ t.val % 8 = 7) (x0 : Vec F S4x512x512 .f32) (xB : Vec F S4x4096x32 .bf16) (xA : Vec F S512x32 .f32) (y : S512x32.Idx) :
    ∃ pc ∈ (run0B c t hb hd x0 xB xA).1, y ∈ pc.1.set :=
  View.cover_of_tiledL (run0B c t hb hd x0 xB xA).1 S512x32.size (by sl_kernel_rfl) y

/-- The last column tile: the output block, and the accumulator. -/
def out0_C (c : Dev nD) (t : Fin cfg0.N) (hd : t.val % 8 = 7) (x0 : Vec F S4x512x512 .f32) (xB : Vec F S4x4096x32 .bf16) (xA : Vec F S512x32 .f32) : Vec F S512x32 .f32 :=
  VO0_3.read (Elt F) (VO0_3.writes (Elt F) VO0_3.junk (run0C c t hd x0 xB xA).1)
def sA0_C (c : Dev nD) (t : Fin cfg0.N) (hd : t.val % 8 = 7) (x0 : Vec F S4x512x512 .f32) (xB : Vec F S4x4096x32 .bf16) (xA : Vec F S512x32 .f32) : Vec F S512x32 .f32 :=
  VS0_1.read (Elt F) (VS0_1.writes (Elt F) VS0_1.junk (run0C c t hd x0 xB xA).2.1)
theorem cov0_C (c : Dev nD) (t : Fin cfg0.N) (hd : t.val % 8 = 7) (x0 : Vec F S4x512x512 .f32) (xB : Vec F S4x4096x32 .bf16) (xA : Vec F S512x32 .f32) (y : S512x32.Idx) :
    ∃ pc ∈ (run0C c t hd x0 xB xA).1, y ∈ pc.1.set :=
  View.cover_of_tiledL (run0C c t hd x0 xB xA).1 S512x32.size (by sl_kernel_rfl) y
theorem scovA0_C (c : Dev nD) (t : Fin cfg0.N) (hd : t.val % 8 = 7) (x0 : Vec F S4x512x512 .f32) (xB : Vec F S4x4096x32 .bf16) (xA : Vec F S512x32 .f32) (y : S512x32.Idx) :
    ∃ pc ∈ (run0C c t hd x0 xB xA).2.1, y ∈ pc.1.set :=
  View.cover_of_tiledL (run0C c t hd x0 xB xA).2.1 S512x32.size (by sl_kernel_rfl) y

/-- Where the output block is idle nothing is said of it: a placeholder nothing consults. -/
def junkO0 : Vec F S512x32 .f32 := VO0_3.read (Elt F) VO0_3.junk

/-! ## What the output block and the two scratch buffers hold after each point -/

/-- After position `n`: the output block, the projected embeddings, the accumulator. -/
def outsAt0 (c : Dev nD) : (n : ℕ) → n < cfg0.N → Vec F S512x32 .f32 × Vec F S4x4096x32 .bf16 × Vec F S512x32 .f32
  | 0, hn => (junkO0, sB0_A c ⟨0, hn⟩ rfl (iblk0 V c 0 ⟨0, hn⟩) (iblk0 V c 1 ⟨0, hn⟩) (iblk0 V c 2 ⟨0, hn⟩),
      sA0_A c ⟨0, hn⟩ rfl (iblk0 V c 0 ⟨0, hn⟩) (iblk0 V c 1 ⟨0, hn⟩) (iblk0 V c 2 ⟨0, hn⟩))
  | n + 1, hn =>
    if hb : (n + 1) % 8 = 0 then
      (junkO0, (outsAt0 c n (Nat.lt_of_succ_lt hn)).2.1,
        sA0_D c ⟨n + 1, hn⟩ (Nat.succ_ne_zero n) hb (iblk0 V c 0 ⟨n + 1, hn⟩) (outsAt0 c n (Nat.lt_of_succ_lt hn)).2.1)
    else if hd : (n + 1) % 8 = 7 then
      (out0_C c ⟨n + 1, hn⟩ hd (iblk0 V c 0 ⟨n + 1, hn⟩) (outsAt0 c n (Nat.lt_of_succ_lt hn)).2.1 (outsAt0 c n (Nat.lt_of_succ_lt hn)).2.2,
        (outsAt0 c n (Nat.lt_of_succ_lt hn)).2.1,
        sA0_C c ⟨n + 1, hn⟩ hd (iblk0 V c 0 ⟨n + 1, hn⟩) (outsAt0 c n (Nat.lt_of_succ_lt hn)).2.1 (outsAt0 c n (Nat.lt_of_succ_lt hn)).2.2)
    else
      (junkO0, (outsAt0 c n (Nat.lt_of_succ_lt hn)).2.1,
        sA0_B c ⟨n + 1, hn⟩ hb hd (iblk0 V c 0 ⟨n + 1, hn⟩) (outsAt0 c n (Nat.lt_of_succ_lt hn)).2.1 (outsAt0 c n (Nat.lt_of_succ_lt hn)).2.2)

theorem outsAt0_A (c : Dev nD) (t : Fin cfg0.N) (h : t.val = 0) :
    outsAt0 V c t.val t.isLt = (junkO0, sB0_A c t h (iblk0 V c 0 t) (iblk0 V c 1 t) (iblk0 V c 2 t), sA0_A c t h (iblk0 V c 0 t) (iblk0 V c 1 t) (iblk0 V c 2 t)) := by
  obtain ⟨n, hn⟩ := t
  cases n with
  | zero => rfl
  | succ n => exact absurd h (Nat.succ_ne_zero n)

theorem outsAt0_D (c : Dev nD) (t : Fin cfg0.N) (h0 : t.val ≠ 0) (hb : t.val % 8 = 0) :
    outsAt0 V c t.val t.isLt = (junkO0, (outsAt0 V c (t.val - 1) (Nat.lt_of_le_of_lt (Nat.sub_le _ _) t.isLt)).2.1,
      sA0_D c t h0 hb (iblk0 V c 0 t) (outsAt0 V c (t.val - 1) (Nat.lt_of_le_of_lt (Nat.sub_le _ _) t.isLt)).2.1) := by
  obtain ⟨n, hn⟩ := t
  cases n with
  | zero => exact absurd rfl h0
  | succ n => exact (dif_pos hb).trans rfl

theorem outsAt0_C (c : Dev nD) (t : Fin cfg0.N) (hd : t.val % 8 = 7) :
    outsAt0 V c t.val t.isLt = (out0_C c t hd (iblk0 V c 0 t) (outsAt0 V c (t.val - 1) (Nat.lt_of_le_of_lt (Nat.sub_le _ _) t.isLt)).2.1 (outsAt0 V c (t.val - 1) (Nat.lt_of_le_of_lt (Nat.sub_le _ _) t.isLt)).2.2,
      (outsAt0 V c (t.val - 1) (Nat.lt_of_le_of_lt (Nat.sub_le _ _) t.isLt)).2.1,
      sA0_C c t hd (iblk0 V c 0 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact absurd hd (show ¬ (0 % 8 = 7) by decide)
  | succ n => exact (dif_neg (show ¬ (n + 1) % 8 = 0 by (try dsimp only at hd); omega)).trans ((dif_pos hd).trans rfl)

theorem outsAt0_B (c : Dev nD) (t : Fin cfg0.N) (hb : ¬ t.val % 8 = 0) (hd : ¬ t.val % 8 = 7) :
    outsAt0 V c t.val t.isLt = (junkO0, (outsAt0 V c (t.val - 1) (Nat.lt_of_le_of_lt (Nat.sub_le _ _) t.isLt)).2.1,
      sA0_B c t hb hd (iblk0 V c 0 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact absurd (Nat.zero_mod 8) hb
  | succ n => exact (dif_neg hb).trans ((dif_neg hd).trans rfl)

/-! ## The region invariant -/

/-- The core's scoped buffers that are neither a staging buffer of this region nor one of its two scratch buffers, each
    at some contents. -/
def rest0 (c : Dev nD) : sProp 𝕄 :=
  Pipeline.scopedRestBut (Ix := Unit) (Name := ℕ) (U := UR sig nD τ) (Lvl := ℕ) (Val := Elt F) spec0 c [cc0_scratch0, cc0_scratch1]

/-- The class invariant with this region's two scratch buffers named. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA rest0
  rw [Pipeline.scopedRest_split_of_list spec0 c [cc0_scratch0, cc0_scratch1] (by decide) (by decide)]
  simp only [scM0_0, scM0_1, owns_whole]; try rfl

/-- Before position `n`: at the start every scoped buffer at anything; afterwards the two scratch buffers at what the
    point before left. -/
def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).2.1 ∗ owns (c : Thread nD τ) scM0_1 fullShare (outsAt0 V c n hn).2.2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare (outsAt0 V c n hn).2.1 ∗ owns (c : Thread nD τ) scM0_1 fullShare (outsAt0 V c n hn).2.2) ∗ rest0 c) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).2.1 ∗ owns (c : Thread nD τ) scM0_1 fullShare (outsAt0 V c (n - 1) (by omega)).2.2) ∗ rest0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
/-- The body at any point: the input windows' memrefs hold their blocks; the point's position says which of the four cases
    it is in; the invariant hands the body the two scratch buffers at what the point before left (at anything at the first
    point) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases hz : t.val = 0
  · -- the first point
    have hnd : ¬cond0_d (grid0.coords t) := fun h => by have := (hcond0_d t).mp h; omega
    rw [Dat.leavesExact_idle (dat0 V c) 3 t (idleAt0_3 t hnd) (noFlush0_3 t hnd)]
    rw [outsAt0_A V c t hz]
    unfold sB0_A sA0_A; (try dsimp only)
    rw [PhiS0_castSucc V c t, PhiS0_zero V c _ _ hz, PhiA0_eq]
    iintro ⟨⟨⟨⟨HS0, HS1⟩, HR⟩, Hg⟩, Ho, ⟨%d0, H0⟩, ⟨%d1, H1⟩, ⟨%d2, H2⟩, ⟨%d3, H3⟩⟩
    iapply ((run0A c t hz (iblk0 V c 0 t) (iblk0 V c 1 t) (iblk0 V c 2 t)).2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scovB0_A c t hz _ _ _)
          unfold owns; iexists _; isplitr
          swap; · iexact HS1
          ipureintro; exact View.read_writes_of_cover _ _ _ _ _ (scovA0_A c t hz _ _ _)
        iexact HR
      iexact Hg
    isplitl [Ho]; · iexact Ho
    isplitl [H0]; · iexact H0
    isplitl [H1]; · iexact H1
    isplitl [H2]; · iexact H2
    iexists _; iexact H3
  · by_cases hb : t.val % 8 = 0
    · -- the first column tile of a later row tile
      have hnd : ¬cond0_d (grid0.coords t) := fun h => by have := (hcond0_d t).mp h; omega
      rw [Dat.leavesExact_idle (dat0 V c) 3 t (idleAt0_3 t hnd) (noFlush0_3 t hnd)]
      rw [outsAt0_D V c t hz hb]
      unfold sA0_D; (try dsimp only)
      rw [PhiS0_castSucc V c t, PhiS0_pos V c _ _ hz]
      iintro ⟨⟨⟨⟨HS0, HS1⟩, HR⟩, Hg⟩, Ho, ⟨%d0, H0⟩, ⟨%d1, H1⟩, ⟨%d2, H2⟩, ⟨%d3, H3⟩⟩
      iapply ((run0D c t hz hb (iblk0 V c 0 t) _).2 _ _ _ Set.univ _)
      isplitl [H0]; · iexact H0
      isplitl [H1]; · iexact H1
      isplitl [H2]; · iexact H2
      isplitl [H3]; · iexact H3
      isplitl [HS0]; · iexact HS0
      isplitl [HS1]; · iexists _; iexact HS1
      iintro ⟨H0, H1, H2, H3, HS0, ⟨%es1, HS1⟩⟩
      isplitl [HS0 HS1 HR Hg]
      · isplitl [HS0 HS1 HR]
        · isplitl [HS0 HS1]
          · isplitl [HS0]
            · iexact HS0
            unfold owns; iexists _; isplitr
            swap; · iexact HS1
            ipureintro; exact View.read_writes_of_cover _ _ _ _ _ (scovA0_D c t hz hb _ _)
          iexact HR
        iexact Hg
      isplitl [Ho]; · iexact Ho
      isplitl [H0]; · iexact H0
      isplitl [H1]; · iexact H1
      isplitl [H2]; · iexact H2
      iexists _; iexact H3
    · by_cases hd : t.val % 8 = 7
      · -- the last column tile
        rw [show (dat0 V c).leavesExact 3 t = owns (c : Thread nD τ) (ms0_3 t) fullShare ((dat0 V c).after 3 t) from by
          unfold Dat.leavesExact; rw [liveAt0_3 t ((hcond0_d t).mpr hd)], after0_3]
        rw [outsAt0_C V c t hd]
        unfold out0_C sA0_C; (try dsimp only)
        rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩⟩
        iapply ((run0C c t hd (iblk0 V c 0 t) _ _).2.2 _ _ Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, HS0, ⟨%es1, HS1⟩⟩
        isplitl [HS0 HS1 HR Hg]
        · isplitl [HS0 HS1 HR]
          · isplitl [HS0 HS1]
            · isplitl [HS0]
              · iexact HS0
              unfold owns; iexists _; isplitr
              swap; · iexact HS1
              ipureintro; exact View.read_writes_of_cover _ _ _ _ _ (scovA0_C c t hd _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cov0_C c t hd _ _ _)
      · -- a middle column tile
        have hnd : ¬cond0_d (grid0.coords t) := fun h => hd ((hcond0_d t).mp h)
        rw [Dat.leavesExact_idle (dat0 V c) 3 t (idleAt0_3 t hnd) (noFlush0_3 t hnd)]
        rw [outsAt0_B V c t hb hd]
        unfold sA0_B; (try dsimp only)
        rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩⟩
        iapply ((run0B c t hb hd (iblk0 V c 0 t) _ _).2 _ _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, ⟨%es1, HS1⟩⟩
        isplitl [HS0 HS1 HR Hg]
        · isplitl [HS0 HS1 HR]
          · isplitl [HS0 HS1]
            · isplitl [HS0]
              · iexact HS0
              unfold owns; iexists _; isplitr
              swap; · iexact HS1
              ipureintro; exact View.read_writes_of_cover _ _ _ _ _ (scovA0_B c t hb hd _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch buffers' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Region0

end Cert.Kernel.Hand

end
-- ==== Proof.KR1Base.lean ====
/-
  Region 1 (one layer's pallas_call): what its four control cases are stated over.
  The grid is 8 × 8, point t = 8·n + e (n the row tile, e the column tile of the adjacency).
  The body's four conditionals read the coordinates only:
    a : n = 0 ∧ e = 0   (the projected embeddings emb · Wᵣᵀ are computed into the first scratch),
    b : e = 0           (the accumulator scratch is set to the tile's partial product),
    c : e ≠ 0           (the partial product is added to the accumulator),
    d : e = 7           (the accumulator, clamped at zero, is stored into the output block).
-/
import proofs.«147766_g40561671143680_cont_8to1_b_159_3_alg».proof.Proof.Gen.Kernel.Launch
import proofs.«147766_g40561671143680_cont_8to1_b_159_3_alg».proof.Proof.Gen.Kernel.Skeleton
import proofs.«147766_g40561671143680_cont_8to1_b_159_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, from the grid coordinates -/

abbrev cond1_a (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
abbrev cond1_b (i : grid1.Coords) : Prop :=
  (Scalar.cmpi .ne (Scalar.extui (Scalar.cmpi .eq (BitVec.ofNat 32 (i 1).val) 0#32)) 0#32) = 1#1
abbrev cond1_c (i : grid1.Coords) : Prop :=
  (Scalar.cmpi .ne (Scalar.extui (Scalar.cmpi .ne (BitVec.ofNat 32 (i 1).val) 0#32)) 0#32) = 1#1
abbrev cond1_d (i : grid1.Coords) : Prop := k1_cond4 i = 1#1

/-- Condition a holds at the first point only. -/
theorem hcond1_a : ∀ t : Fin cfg1.N, cond1_a (grid1.coords t) ↔ t.val = 0 :=
  (by decide +kernel : ∀ t : Fin grid1.N, cond1_a (grid1.coords t) ↔ t.val = 0)
/-- Condition b holds where the column tile is the first. -/
theorem hcond1_b : ∀ t : Fin cfg1.N, cond1_b (grid1.coords t) ↔ t.val % 8 = 0 :=
  (by decide +kernel : ∀ t : Fin grid1.N, cond1_b (grid1.coords t) ↔ t.val % 8 = 0)
/-- Condition c holds where it is not. -/
theorem hcond1_c : ∀ t : Fin cfg1.N, cond1_c (grid1.coords t) ↔ ¬ t.val % 8 = 0 :=
  (by decide +kernel : ∀ t : Fin grid1.N, cond1_c (grid1.coords t) ↔ ¬ t.val % 8 = 0)
/-- Condition d holds where the column tile is the last. -/
theorem hcond1_d : ∀ t : Fin cfg1.N, cond1_d (grid1.coords t) ↔ t.val % 8 = 7 :=
  (by decide +kernel : ∀ t : Fin grid1.N, cond1_d (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last column tile the output block is idle and not written back. -/
theorem idleAt1_3 : ∀ t : Fin cfg1.N, ¬cond1_d (grid1.coords t) → cfg1.idle 3 (grid1.coords t) = true := by decide +kernel
theorem noFlush1_3 : ∀ t : Fin cfg1.N, ¬cond1_d (grid1.coords t) → (cfg1.win 3).flush t = false := by decide +kernel
theorem liveAt1_3 : ∀ t : Fin cfg1.N, cond1_d (grid1.coords t) → cfg1.idle 3 (grid1.coords t) = false := by decide +kernel

/-! ## The staging and scratch memrefs -/

abbrev ms1_0 (t : Fin cfg1.N) : Memref sig .tc .vmem S4x512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x32x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x32 .f32 := win1_3.stage (cfg1.slots t 3)
abbrev hs1_3 (t : Fin cfg1.N) : (ms1_3 t).IsWhole := hstage1_3 ((cfg1.slots t 3).cast nbuf1_3)
/-- The two scratch operands: the projected embeddings (bf16) and the accumulator. -/
abbrev scM1_0 : Memref sig .tc .vmem S4x4096x32 .bf16 := Memref.whole cc1_scratch0
abbrev scM1_1 : Memref sig .tc .vmem S512x32 .f32 := Memref.whole cc1_scratch1
abbrev VS1_0 : View sig .tc .vmem S4x4096x32 .bf16 := scM1_0.view
abbrev VS1_1 : View sig .tc .vmem S512x32 .f32 := scM1_1.view
abbrev VO1_3 : View sig .tc .vmem S512x32 .f32 := (Memref.whole cc1_stg3_0 : Memref sig .tc .vmem S512x32 .f32).view

end Cert.Kernel.Hand

end
-- ==== Proof.KR1RunA.lean ====
/-
  Region 1, the first point (n = 0, e = 0): the projected embeddings emb · w_rᵀ are stored, relation by relation, into the first scratch, and the accumulator scratch is set to the tile's partial product.
-/
import proofs.«147766_g40561671143680_cont_8to1_b_159_3_alg».proof.Proof.KR1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 8000000 in
/-- The body there, on whole memrefs: the adjacency block at `x0`, the embedding table at `x1`, the relation matrices at
    `x2`, both scratch buffers at anything; the output block handed back as found. The two scratch buffers end with the
    pieces the run finds. -/
noncomputable def kernelRun1_A (c : Dev nD) (i : grid1.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : cond1_a i) (hb : cond1_b i) (hc : ¬cond1_c i) (hd : ¬cond1_d i)
    (x0 : Vec F S4x512x512 .f32) (x1 : Vec F S4096x32 .f32) (x2 : Vec F S4x32x32 .f32) :
    Σ' (LS0 : List (View.Piece (Elt F) S4x4096x32 .bf16)), { LS1 : List (View.Piece (Elt F) S512x32 .f32) //
      ∀ (xi3 : Vec F S512x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__layer_kernel i arg2 harg2 arg3 harg3 arg4 harg4 arg5 harg5 arg6 harg6 arg7 harg7) K } := by
  refine ⟨?_, ?_, fun xi3 E K => ?run⟩
  case run =>
    simp only [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%dB, %fB, -, HB⟩, ⟨%dA, %fA, -, HA⟩, Hk⟩
    obtain rfl := harg2.eq_unread hf0; obtain rfl := harg3.eq_unread hf1; obtain rfl := harg4.eq_unread hf2
    obtain rfl := harg5.eq_unread hf3
    sl_exec_parts! (disch := first | exact ha | exact hb | exact hc | exact hd)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HB]; · iexists _; iexact HB
    iexists _; iexact HA

end Cert.Kernel.Hand

end
-- ==== Proof.KR1RunB.lean ====
/-
  Region 1, the middle column tiles (0 < e < 7): the tile's partial product is added to the accumulator
  scratch; nothing else is stored.
-/
import proofs.«147766_g40561671143680_cont_8to1_b_159_3_alg».proof.Proof.KR1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle column tile, on whole memrefs: the adjacency block at `x0`, the projected embeddings at `xB`,
    the accumulator at `xA`; the other windows are handed back as found. The accumulator ends with the pieces the run finds. -/
noncomputable def kernelRun1_B (c : Dev nD) (i : grid1.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : ¬cond1_a i) (hb : ¬cond1_b i) (hc : cond1_c i) (hd : ¬cond1_d i)
    (x0 : Vec F S4x512x512 .f32) (xB : Vec F S4x4096x32 .bf16) (xA : Vec F S512x32 .f32) :
    { LS1 : List (View.Piece (Elt F) S512x32 .f32) //
      ∀ (xi1 : Vec F S4096x32 .f32) (xi2 : Vec F S4x32x32 .f32) (xi3 : Vec F S512x32 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xi3
            ∗ owns (c : Thread nD τ) arg6 fullShare xB ∗ owns (c : Thread nD τ) arg7 fullShare xA
            ∗ (iprop(owns (c : Thread nD τ) arg2 fullShare x0 ∗ owns (c : Thread nD τ) arg3 fullShare xi1 ∗ owns (c : Thread nD τ) arg4 fullShare xi2 ∗ owns (c : Thread nD τ) arg5 fullShare xi3
                ∗ owns (c : Thread nD τ) arg6 fullShare xB ∗ (∃ f, arg7.view.loc (c : Thread nD τ) ↦[arg7.view.set]{fullShare} arg7.view.writes (Elt F) f LS1)) -∗ K ⟨⟩))
          ⊢ wp frame (wpE (defs₀ (F := F)) Variants.none c none) E (cc1__layer_kernel i arg2 harg2 arg3 harg3 arg4 harg4 arg5 harg5 arg6 harg6 arg7 harg7) K } := by
  refine ⟨?_, fun xi1 xi2 xi3 E K => ?run⟩
  case run =>
    simp only [cc1__layer_kernel_eq_skeleton]; unfold cc1__layer_kernel_skel
    simp only [k1_part2_eq_skeleton]; unfold k1_part2_skel
    unfold owns
    iintro ⟨⟨%f0, %hf0, H0⟩, ⟨%f1, %hf1, H1⟩, ⟨%f2, %hf2, H2⟩, ⟨%f3, %hf3, H3⟩, ⟨%fB, %hfB, HB⟩, ⟨%fA, %hfA, HA⟩, Hk⟩
    obtain rfl := harg2.eq_unread hf0; obtain rfl := harg3.eq_unread hf1; obtain rfl := harg4.eq_unread hf2
    obtain rfl := harg5.eq_unread hf3; obtain rfl := harg6.eq_unread hfB; obtain rfl := harg7.eq_unread hfA
    sl_exec (disch := first | exact ha | exact hb | exact hc | exact hd)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HB]
    · iexists _; isplitr; · ipureintro; exact harg6.read_unread _
      iexact HB
    iexists _; iexact HA

end Cert.Kernel.Hand

end
-- ==== Proof.KR1RunC.lean ====
/-
  Region 1, the last column tile (e = 7): the partial product is added to the accumulator scratch, and the accumulator clamped at zero is stored into the output block.
-/
import proofs.«147766_g40561671143680_cont_8to1_b_159_3_alg».proof.Proof.KR1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- The body there, on whole memrefs: the adjacency block at `x0`, the projected embeddings at `xB`, the accumulator at
    `xA`, the output block at anything; the other windows handed back as found. The accumulator and the output block end
    with the pieces the run finds. -/
noncomputable def kernelRun1_C (c : Dev nD) (i : grid1.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : ¬cond1_a i) (hb : ¬cond1_b i) (hc : cond1_c i) (hd : cond1_d i)
    (x0 : Vec F S4x512x512 .f32) (xB : Vec F S4x4096x32 .bf16) (xA : Vec F S512x32 .f32) :
    Σ' (L3 : List (View.Piece (Elt F) S512x32 .f32)), { LS1 : List (View.Piece (Elt F) S512x32 .f32) //
      ∀ (xi1 : Vec F S4096x32 .f32) (xi2 : Vec F S4x32x32 .f32) (E : Set ℕ) (K : PUnit → sProp 𝕄),
        iprop(owns (c : Thread nD τ) arg2 fullShare x0 ∗ owns (c : Thread nD τ) arg3 fullShare xi1 ∗ owns (c : Thread nD τ) arg4 fullShare xi2 ∗ (∃ d, owns (c : Thread nD τ) arg5 fullShare d)
            ∗ owns (c : Thread nD τ) arg6 fullShare xB ∗ owns (c : Thread nD τ) arg7 fullShare xA
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f L3)
                ∗ owns (c : Thread nD τ) arg6 fullShare xB ∗ (∃ f, arg7.view.loc (c : Thread nD τ) ↦[arg7.view.set]{fullShare} arg7.view.writes (Elt F) f LS1)) -∗ K ⟨⟩))
          ⊢ wp frame (wpE (defs₀ (F := F)) Variants.none c none) E (cc1__layer_kernel i arg2 harg2 arg3 harg3 arg4 harg4 arg5 harg5 arg6 harg6 arg7 harg7) K } := by
  refine ⟨?_, ?_, fun xi1 xi2 E K => ?run⟩
  case run =>
    simp only [cc1__layer_kernel_eq_skeleton]; unfold cc1__layer_kernel_skel
    simp only [k1_part2_eq_skeleton]; unfold k1_part2_skel
    unfold owns
    iintro ⟨⟨%f0, %hf0, H0⟩, ⟨%f1, %hf1, H1⟩, ⟨%f2, %hf2, H2⟩, ⟨%d3, %f3, -, H3⟩, ⟨%fB, %hfB, HB⟩, ⟨%fA, %hfA, HA⟩, Hk⟩
    obtain rfl := harg2.eq_unread hf0; obtain rfl := harg3.eq_unread hf1; obtain rfl := harg4.eq_unread hf2
    obtain rfl := harg6.eq_unread hfB; obtain rfl := harg7.eq_unread hfA
    sl_exec (disch := first | exact ha | exact hb | exact hc | exact hd)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HB]
    · iexists _; isplitr; · ipureintro; exact harg6.read_unread _
      iexact HB
    iexists _; iexact HA

end Cert.Kernel.Hand

end
-- ==== Proof.KR1RunD.lean ====
/-
  Region 1, the first column tile of a later row tile (n ≠ 0, e = 0): the accumulator scratch is set to the tile's partial product.
-/
import proofs.«147766_g40561671143680_cont_8to1_b_159_3_alg».proof.Proof.KR1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- The body there, on whole memrefs: the adjacency block at `x0`, the projected embeddings at `xB`, the accumulator at
    anything; the other windows handed back as found. The accumulator ends with the pieces the run finds. -/
noncomputable def kernelRun1_D (c : Dev nD) (i : grid1.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : ¬cond1_a i) (hb : cond1_b i) (hc : ¬cond1_c i) (hd : ¬cond1_d i)
    (x0 : Vec F S4x512x512 .f32) (xB : Vec F S4x4096x32 .bf16) :
    { LS1 : List (View.Piece (Elt F) S512x32 .f32) //
      ∀ (xi1 : Vec F S4096x32 .f32) (xi2 : Vec F S4x32x32 .f32) (xi3 : Vec F S512x32 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xi3
            ∗ owns (c : Thread nD τ) arg6 fullShare xB ∗ (∃ d, owns (c : Thread nD τ) arg7 fullShare d)
            ∗ (iprop(owns (c : Thread nD τ) arg2 fullShare x0 ∗ owns (c : Thread nD τ) arg3 fullShare xi1 ∗ owns (c : Thread nD τ) arg4 fullShare xi2 ∗ owns (c : Thread nD τ) arg5 fullShare xi3
                ∗ owns (c : Thread nD τ) arg6 fullShare xB ∗ (∃ f, arg7.view.loc (c : Thread nD τ) ↦[arg7.view.set]{fullShare} arg7.view.writes (Elt F) f LS1)) -∗ K ⟨⟩))
          ⊢ wp frame (wpE (defs₀ (F := F)) Variants.none c none) E (cc1__layer_kernel i arg2 harg2 arg3 harg3 arg4 harg4 arg5 harg5 arg6 harg6 arg7 harg7) K } := by
  refine ⟨?_, fun xi1 xi2 xi3 E K => ?run⟩
  case run =>
    simp only [cc1__layer_kernel_eq_skeleton]; unfold cc1__layer_kernel_skel
    simp only [k1_part2_eq_skeleton]; unfold k1_part2_skel
    unfold owns
    iintro ⟨⟨%f0, %hf0, H0⟩, ⟨%f1, %hf1, H1⟩, ⟨%f2, %hf2, H2⟩, ⟨%f3, %hf3, H3⟩, ⟨%fB, %hfB, HB⟩, ⟨%dA, %fA, -, HA⟩, Hk⟩
    obtain rfl := harg2.eq_unread hf0; obtain rfl := harg3.eq_unread hf1; obtain rfl := harg4.eq_unread hf2
    obtain rfl := harg5.eq_unread hf3; obtain rfl := harg6.eq_unread hfB
    sl_exec (disch := first | exact ha | exact hb | exact hc | exact hd)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HB]
    · iexists _; isplitr; · ipureintro; exact harg6.read_unread _
      iexact HB
    iexists _; iexact HA

end Cert.Kernel.Hand

end
-- ==== Proof.KR1Frame.lean ====
/-
  Region 1 (layer 2): what the two scratch buffers and the output block hold after each grid point, the
  pipeline's proof data, and the body obligation.

  After point t = 8·n + e the first scratch holds the projected embeddings (stored at the first point, read ever
  after), the second the sum of the partial products of row tile n over the column tiles 0 … e; at e = 7 the output
  block is what the epilogue makes of that sum. Each is stated as the case's stores read back, over what the point
  before left.
-/
import proofs.«147766_g40561671143680_cont_8to1_b_159_3_alg».proof.Proof.KR1RunA
import proofs.«147766_g40561671143680_cont_8to1_b_159_3_alg».proof.Proof.KR1RunB
import proofs.«147766_g40561671143680_cont_8to1_b_159_3_alg».proof.Proof.KR1RunC
import proofs.«147766_g40561671143680_cont_8to1_b_159_3_alg».proof.Proof.KR1RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The four cases at a grid point -/

abbrev run1A (c : Dev nD) (t : Fin cfg1.N) (h : t.val = 0) (x0 : Vec F S4x512x512 .f32) (x1 : Vec F S4096x32 .f32) (x2 : Vec F S4x32x32 .f32) :=
  kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _)
    ((hcond1_a t).mpr h) ((hcond1_b t).mpr (by omega)) (fun hc => (hcond1_c t).mp hc (by omega)) (fun hd => by have := (hcond1_d t).mp hd; omega) x0 x1 x2
abbrev run1D (c : Dev nD) (t : Fin cfg1.N) (h0 : t.val ≠ 0) (hb : t.val % 8 = 0) (x0 : Vec F S4x512x512 .f32) (xB : Vec F S4x4096x32 .bf16) :=
  kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _)
    (fun ha => h0 ((hcond1_a t).mp ha)) ((hcond1_b t).mpr hb) (fun hc => (hcond1_c t).mp hc hb) (fun hd => by have := (hcond1_d t).mp hd; omega) x0 xB
abbrev run1B (c : Dev nD) (t : Fin cfg1.N) (hb : ¬ t.val % 8 = 0) (hd : ¬ t.val % 8 = 7) (x0 : Vec F S4x512x512 .f32) (xB : Vec F S4x4096x32 .bf16) (xA : Vec F S512x32 .f32) :=
  kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _)
    (fun ha => by have := (hcond1_a t).mp ha; omega) (fun h => hb ((hcond1_b t).mp h)) ((hcond1_c t).mpr hb) (fun h => hd ((hcond1_d t).mp h)) x0 xB xA
abbrev run1C (c : Dev nD) (t : Fin cfg1.N) (hd : t.val % 8 = 7) (x0 : Vec F S4x512x512 .f32) (xB : Vec F S4x4096x32 .bf16) (xA : Vec F S512x32 .f32) :=
  kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _)
    (fun ha => by have := (hcond1_a t).mp ha; omega) (fun h => by have := (hcond1_b t).mp h; omega) ((hcond1_c t).mpr (by omega)) ((hcond1_d t).mpr hd) x0 xB xA

/-! ## What each case leaves: its stores read back -/

/-- The first point: the projected embeddings, and the accumulator. -/
def sB1_A (c : Dev nD) (t : Fin cfg1.N) (h : t.val = 0) (x0 : Vec F S4x512x512 .f32) (x1 : Vec F S4096x32 .f32) (x2 : Vec F S4x32x32 .f32) : Vec F S4x4096x32 .bf16 :=
  VS1_0.read (Elt F) (VS1_0.writes (Elt F) VS1_0.junk (run1A c t h x0 x1 x2).1)
def sA1_A (c : Dev nD) (t : Fin cfg1.N) (h : t.val = 0) (x0 : Vec F S4x512x512 .f32) (x1 : Vec F S4096x32 .f32) (x2 : Vec F S4x32x32 .f32) : Vec F S512x32 .f32 :=
  VS1_1.read (Elt F) (VS1_1.writes (Elt F) VS1_1.junk (run1A c t h x0 x1 x2).2.1)
theorem scovB1_A (c : Dev nD) (t : Fin cfg1.N) (h : t.val = 0) (x0 : Vec F S4x512x512 .f32) (x1 : Vec F S4096x32 .f32) (x2 : Vec F S4x32x32 .f32) (y : S4x4096x32.Idx) :
    ∃ pc ∈ (run1A c t h x0 x1 x2).1, y ∈ pc.1.set :=
  View.cover_of_tiledL (run1A c t h x0 x1 x2).1 S1x4096x32.size (by sl_kernel_rfl) y
theorem scovA1_A (c : Dev nD) (t : Fin cfg1.N) (h : t.val = 0) (x0 : Vec F S4x512x512 .f32) (x1 : Vec F S4096x32 .f32) (x2 : Vec F S4x32x32 .f32) (y : S512x32.Idx) :
    ∃ pc ∈ (run1A c t h x0 x1 x2).2.1, y ∈ pc.1.set :=
  View.cover_of_tiledL (run1A c t h x0 x1 x2).2.1 S512x32.size (by sl_kernel_rfl) y

/-- The first column tile of a later row tile: the accumulator. -/
def sA1_D (c : Dev nD) (t : Fin cfg1.N) (h0 : t.val ≠ 0) (hb : t.val % 8 = 0) (x0 : Vec F S4x512x512 .f32) (xB : Vec F S4x4096x32 .bf16) : Vec F S512x32 .f32 :=
  VS1_1.read (Elt F) (VS1_1.writes (Elt F) VS1_1.junk (run1D c t h0 hb x0 xB).1)
theorem scovA1_D (c : Dev nD) (t : Fin cfg1.N) (h0 : t.val ≠ 0) (hb : t.val % 8 = 0) (x0 : Vec F S4x512x512 .f32) (xB : Vec F S4x4096x32 .bf16) (y : S512x32.Idx) :
    ∃ pc ∈ (run1D c t h0 hb x0 xB).1, y ∈ pc.1.set :=
  View.cover_of_tiledL (run1D c t h0 hb x0 xB).1 S512x32.size (by sl_kernel_rfl) y

/-- A middle column tile: the accumulator. -/
def sA1_B (c : Dev nD) (t : Fin cfg1.N) (hb : ¬ t.val % 8 = 0) (hd : ¬ t.val % 8 = 7) (x0 : Vec F S4x512x512 .f32) (xB : Vec F S4x4096x32 .bf16) (xA : Vec F S512x32 .f32) : Vec F S512x32 .f32 :=
  VS1_1.read (Elt F) (VS1_1.writes (Elt F) VS1_1.junk (run1B c t hb hd x0 xB xA).1)
theorem scovA1_B (c : Dev nD) (t : Fin cfg1.N) (hb : ¬ t.val % 8 = 0) (hd : ¬ t.val % 8 = 7) (x0 : Vec F S4x512x512 .f32) (xB : Vec F S4x4096x32 .bf16) (xA : Vec F S512x32 .f32) (y : S512x32.Idx) :
    ∃ pc ∈ (run1B c t hb hd x0 xB xA).1, y ∈ pc.1.set :=
  View.cover_of_tiledL (run1B c t hb hd x0 xB xA).1 S512x32.size (by sl_kernel_rfl) y

/-- The last column tile: the output block, and the accumulator. -/
def out1_C (c : Dev nD) (t : Fin cfg1.N) (hd : t.val % 8 = 7) (x0 : Vec F S4x512x512 .f32) (xB : Vec F S4x4096x32 .bf16) (xA : Vec F S512x32 .f32) : Vec F S512x32 .f32 :=
  VO1_3.read (Elt F) (VO1_3.writes (Elt F) VO1_3.junk (run1C c t hd x0 xB xA).1)
def sA1_C (c : Dev nD) (t : Fin cfg1.N) (hd : t.val % 8 = 7) (x0 : Vec F S4x512x512 .f32) (xB : Vec F S4x4096x32 .bf16) (xA : Vec F S512x32 .f32) : Vec F S512x32 .f32 :=
  VS1_1.read (Elt F) (VS1_1.writes (Elt F) VS1_1.junk (run1C c t hd x0 xB xA).2.1)
theorem cov1_C (c : Dev nD) (t : Fin cfg1.N) (hd : t.val % 8 = 7) (x0 : Vec F S4x512x512 .f32) (xB : Vec F S4x4096x32 .bf16) (xA : Vec F S512x32 .f32) (y : S512x32.Idx) :
    ∃ pc ∈ (run1C c t hd x0 xB xA).1, y ∈ pc.1.set :=
  View.cover_of_tiledL (run1C c t hd x0 xB xA).1 S512x32.size (by sl_kernel_rfl) y
theorem scovA1_C (c : Dev nD) (t : Fin cfg1.N) (hd : t.val % 8 = 7) (x0 : Vec F S4x512x512 .f32) (xB : Vec F S4x4096x32 .bf16) (xA : Vec F S512x32 .f32) (y : S512x32.Idx) :
    ∃ pc ∈ (run1C c t hd x0 xB xA).2.1, y ∈ pc.1.set :=
  View.cover_of_tiledL (run1C c t hd x0 xB xA).2.1 S512x32.size (by sl_kernel_rfl) y

/-- Where the output block is idle nothing is said of it: a placeholder nothing consults. -/
def junkO1 : Vec F S512x32 .f32 := VO1_3.read (Elt F) VO1_3.junk

/-! ## What the output block and the two scratch buffers hold after each point -/

/-- After position `n`: the output block, the projected embeddings, the accumulator. -/
def outsAt1 (c : Dev nD) : (n : ℕ) → n < cfg1.N → Vec F S512x32 .f32 × Vec F S4x4096x32 .bf16 × Vec F S512x32 .f32
  | 0, hn => (junkO1, sB1_A c ⟨0, hn⟩ rfl (iblk1 V c 0 ⟨0, hn⟩) (iblk1 V c 1 ⟨0, hn⟩) (iblk1 V c 2 ⟨0, hn⟩),
      sA1_A c ⟨0, hn⟩ rfl (iblk1 V c 0 ⟨0, hn⟩) (iblk1 V c 1 ⟨0, hn⟩) (iblk1 V c 2 ⟨0, hn⟩))
  | n + 1, hn =>
    if hb : (n + 1) % 8 = 0 then
      (junkO1, (outsAt1 c n (Nat.lt_of_succ_lt hn)).2.1,
        sA1_D c ⟨n + 1, hn⟩ (Nat.succ_ne_zero n) hb (iblk1 V c 0 ⟨n + 1, hn⟩) (outsAt1 c n (Nat.lt_of_succ_lt hn)).2.1)
    else if hd : (n + 1) % 8 = 7 then
      (out1_C c ⟨n + 1, hn⟩ hd (iblk1 V c 0 ⟨n + 1, hn⟩) (outsAt1 c n (Nat.lt_of_succ_lt hn)).2.1 (outsAt1 c n (Nat.lt_of_succ_lt hn)).2.2,
        (outsAt1 c n (Nat.lt_of_succ_lt hn)).2.1,
        sA1_C c ⟨n + 1, hn⟩ hd (iblk1 V c 0 ⟨n + 1, hn⟩) (outsAt1 c n (Nat.lt_of_succ_lt hn)).2.1 (outsAt1 c n (Nat.lt_of_succ_lt hn)).2.2)
    else
      (junkO1, (outsAt1 c n (Nat.lt_of_succ_lt hn)).2.1,
        sA1_B c ⟨n + 1, hn⟩ hb hd (iblk1 V c 0 ⟨n + 1, hn⟩) (outsAt1 c n (Nat.lt_of_succ_lt hn)).2.1 (outsAt1 c n (Nat.lt_of_succ_lt hn)).2.2)

theorem outsAt1_A (c : Dev nD) (t : Fin cfg1.N) (h : t.val = 0) :
    outsAt1 V c t.val t.isLt = (junkO1, sB1_A c t h (iblk1 V c 0 t) (iblk1 V c 1 t) (iblk1 V c 2 t), sA1_A c t h (iblk1 V c 0 t) (iblk1 V c 1 t) (iblk1 V c 2 t)) := by
  obtain ⟨n, hn⟩ := t
  cases n with
  | zero => rfl
  | succ n => exact absurd h (Nat.succ_ne_zero n)

theorem outsAt1_D (c : Dev nD) (t : Fin cfg1.N) (h0 : t.val ≠ 0) (hb : t.val % 8 = 0) :
    outsAt1 V c t.val t.isLt = (junkO1, (outsAt1 V c (t.val - 1) (Nat.lt_of_le_of_lt (Nat.sub_le _ _) t.isLt)).2.1,
      sA1_D c t h0 hb (iblk1 V c 0 t) (outsAt1 V c (t.val - 1) (Nat.lt_of_le_of_lt (Nat.sub_le _ _) t.isLt)).2.1) := by
  obtain ⟨n, hn⟩ := t
  cases n with
  | zero => exact absurd rfl h0
  | succ n => exact (dif_pos hb).trans rfl

theorem outsAt1_C (c : Dev nD) (t : Fin cfg1.N) (hd : t.val % 8 = 7) :
    outsAt1 V c t.val t.isLt = (out1_C c t hd (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2,
      (outsAt1 V c (t.val - 1) (Nat.lt_of_le_of_lt (Nat.sub_le _ _) t.isLt)).2.1,
      sA1_C c t hd (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd hd (show ¬ (0 % 8 = 7) by decide)
  | succ n => exact (dif_neg (show ¬ (n + 1) % 8 = 0 by (try dsimp only at hd); omega)).trans ((dif_pos hd).trans rfl)

theorem outsAt1_B (c : Dev nD) (t : Fin cfg1.N) (hb : ¬ t.val % 8 = 0) (hd : ¬ t.val % 8 = 7) :
    outsAt1 V c t.val t.isLt = (junkO1, (outsAt1 V c (t.val - 1) (Nat.lt_of_le_of_lt (Nat.sub_le _ _) t.isLt)).2.1,
      sA1_B c t hb hd (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd (Nat.zero_mod 8) hb
  | succ n => exact (dif_neg hb).trans ((dif_neg hd).trans rfl)

/-! ## The region invariant -/

/-- The core's scoped buffers that are neither a staging buffer of this region nor one of its two scratch buffers, each
    at some contents. -/
def rest1 (c : Dev nD) : sProp 𝕄 :=
  Pipeline.scopedRestBut (Ix := Unit) (Name := ℕ) (U := UR sig nD τ) (Lvl := ℕ) (Val := Elt F) spec1 c [cc1_scratch0, cc1_scratch1]

/-- The class invariant with this region's two scratch buffers named. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA rest1
  rw [Pipeline.scopedRest_split_of_list spec1 c [cc1_scratch0, cc1_scratch1] (by decide) (by decide)]
  simp only [scM1_0, scM1_1, owns_whole]; try rfl

/-- Before position `n`: at the start every scoped buffer at anything; afterwards the two scratch buffers at what the
    point before left. -/
def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1 ∗ owns (c : Thread nD τ) scM1_1 fullShare (outsAt1 V c n hn).2.2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare (outsAt1 V c n hn).2.1 ∗ owns (c : Thread nD τ) scM1_1 fullShare (outsAt1 V c n hn).2.2) ∗ rest1 c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.1 ∗ owns (c : Thread nD τ) scM1_1 fullShare (outsAt1 V c (n - 1) (by omega)).2.2) ∗ rest1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the input windows' memrefs hold their blocks; the point's position says which of the four cases
    it is in; the invariant hands the body the two scratch buffers at what the point before left (at anything at the first
    point) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases hz : t.val = 0
  · -- the first point
    have hnd : ¬cond1_d (grid1.coords t) := fun h => by have := (hcond1_d t).mp h; omega
    rw [Dat.leavesExact_idle (dat1 V c) 3 t (idleAt1_3 t hnd) (noFlush1_3 t hnd)]
    rw [outsAt1_A V c t hz]
    unfold sB1_A sA1_A; (try dsimp only)
    rw [PhiS1_castSucc V c t, PhiS1_zero V c _ _ hz, PhiA1_eq]
    iintro ⟨⟨⟨⟨HS0, HS1⟩, HR⟩, Hg⟩, Ho, ⟨%d0, H0⟩, ⟨%d1, H1⟩, ⟨%d2, H2⟩, ⟨%d3, H3⟩⟩
    iapply ((run1A c t hz (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scovB1_A c t hz _ _ _)
          unfold owns; iexists _; isplitr
          swap; · iexact HS1
          ipureintro; exact View.read_writes_of_cover _ _ _ _ _ (scovA1_A c t hz _ _ _)
        iexact HR
      iexact Hg
    isplitl [Ho]; · iexact Ho
    isplitl [H0]; · iexact H0
    isplitl [H1]; · iexact H1
    isplitl [H2]; · iexact H2
    iexists _; iexact H3
  · by_cases hb : t.val % 8 = 0
    · -- the first column tile of a later row tile
      have hnd : ¬cond1_d (grid1.coords t) := fun h => by have := (hcond1_d t).mp h; omega
      rw [Dat.leavesExact_idle (dat1 V c) 3 t (idleAt1_3 t hnd) (noFlush1_3 t hnd)]
      rw [outsAt1_D V c t hz hb]
      unfold sA1_D; (try dsimp only)
      rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩⟩
      iapply ((run1D c t hz hb (iblk1 V c 0 t) _).2 _ _ _ Set.univ _)
      isplitl [H0]; · iexact H0
      isplitl [H1]; · iexact H1
      isplitl [H2]; · iexact H2
      isplitl [H3]; · iexact H3
      isplitl [HS0]; · iexact HS0
      isplitl [HS1]; · iexists _; iexact HS1
      iintro ⟨H0, H1, H2, H3, HS0, ⟨%es1, HS1⟩⟩
      isplitl [HS0 HS1 HR Hg]
      · isplitl [HS0 HS1 HR]
        · isplitl [HS0 HS1]
          · isplitl [HS0]
            · iexact HS0
            unfold owns; iexists _; isplitr
            swap; · iexact HS1
            ipureintro; exact View.read_writes_of_cover _ _ _ _ _ (scovA1_D c t hz hb _ _)
          iexact HR
        iexact Hg
      isplitl [Ho]; · iexact Ho
      isplitl [H0]; · iexact H0
      isplitl [H1]; · iexact H1
      isplitl [H2]; · iexact H2
      iexists _; iexact H3
    · by_cases hd : t.val % 8 = 7
      · -- the last column tile
        rw [show (dat1 V c).leavesExact 3 t = owns (c : Thread nD τ) (ms1_3 t) fullShare ((dat1 V c).after 3 t) from by
          unfold Dat.leavesExact; rw [liveAt1_3 t ((hcond1_d t).mpr hd)], after1_3]
        rw [outsAt1_C V c t hd]
        unfold out1_C sA1_C; (try dsimp only)
        rw [PhiS1_castSucc V c t, PhiS1_pos V c _ _ hz]
        iintro ⟨⟨⟨⟨HS0, HS1⟩, HR⟩, Hg⟩, Ho, ⟨%d0, H0⟩, ⟨%d1, H1⟩, ⟨%d2, H2⟩, ⟨%d3, H3⟩⟩
        iapply ((run1C c t hd (iblk1 V c 0 t) _ _).2.2 _ _ Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, HS0, ⟨%es1, HS1⟩⟩
        isplitl [HS0 HS1 HR Hg]
        · isplitl [HS0 HS1 HR]
          · isplitl [HS0 HS1]
            · isplitl [HS0]
              · iexact HS0
              unfold owns; iexists _; isplitr
              swap; · iexact HS1
              ipureintro; exact View.read_writes_of_cover _ _ _ _ _ (scovA1_C c t hd _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cov1_C c t hd _ _ _)
      · -- a middle column tile
        have hnd : ¬cond1_d (grid1.coords t) := fun h => hd ((hcond1_d t).mp h)
        rw [Dat.leavesExact_idle (dat1 V c) 3 t (idleAt1_3 t hnd) (noFlush1_3 t hnd)]
        rw [outsAt1_B V c t hb hd]
        unfold sA1_B; (try dsimp only)
        rw [PhiS1_castSucc V c t, PhiS1_pos V c _ _ hz]
        iintro ⟨⟨⟨⟨HS0, HS1⟩, HR⟩, Hg⟩, Ho, ⟨%d0, H0⟩, ⟨%d1, H1⟩, ⟨%d2, H2⟩, ⟨%d3, H3⟩⟩
        iapply ((run1B c t hb hd (iblk1 V c 0 t) _ _).2 _ _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, ⟨%es1, HS1⟩⟩
        isplitl [HS0 HS1 HR Hg]
        · isplitl [HS0 HS1 HR]
          · isplitl [HS0 HS1]
            · isplitl [HS0]
              · iexact HS0
              unfold owns; iexists _; isplitr
              swap; · iexact HS1
              ipureintro; exact View.read_writes_of_cover _ _ _ _ _ (scovA1_B c t hb hd _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch buffers' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Region1

end Cert.Kernel.Hand

end
-- ==== Proof.KRun.lean ====
/-
  The run of @main: its two kernel regions one after the other, from the launch to the return.

  The buffer contents at each boundary are a fold from the launch memory: a region leaves its arrays at what its
  write-backs leave (the inputs as entered, the output's blocks folded in point order) and every other buffer as it
  was. Every weakly fair execution terminates, nothing faults, and every unscoped buffer ends at the last fold.
-/
import proofs.«147766_g40561671143680_cont_8to1_b_159_3_alg».proof.Proof.KR0Frame
import proofs.«147766_g40561671143680_cont_8to1_b_159_3_alg».proof.Proof.KR1Frame
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: region 0's entry. -/
abbrev W0 : Dev nD → Valuation τ sig (Elt F) := fun c b => m ((c : Dev nD), b)
abbrev V0 : (c : Dev nD) → (b : Ref sig .tc) → Buf (Elt F) ((c : Thread nD τ).loc b) := fun c b => W0 m c b
/-- At region 0's exit, which is region 1's entry. -/
def W2 (c : Dev nD) : Valuation τ sig (Elt F) :=
  Pipeline.withArrays spec0 c (W0 m c) fun w => (dat0 (V0 m) c).arrAt w cfg0.N
theorem W2_arr (c : Dev nD) (w : Fin cfg0.W) :
    W2 m c (Proc.devRef .tc (Pipeline.arrRef spec0 w)) = (dat0 (V0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V0 m) c).arrAt w cfg0.N = V2 m c (Pipeline.arrRef spec0 w) :=
  (W2_arr m c w).symm
theorem hrest0 (c : Dev nD) : ∀ b, b ∉ Finset.univ.image (Pipeline.arrRef spec0) → V2 m c b = V0 m c b :=
  fun b hb => W2_of_ne m c b fun w e => hb (Finset.mem_image.mpr ⟨w, Finset.mem_univ _, e⟩)
/-- At region 1's exit. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

/-! ### The arguments end as launched: a region reads each through an input window or bypasses it -/

theorem W2_main_arg0 (c : Dev nD) : W2 m c (Proc.devRef .tc main_arg0) = m ((c : Thread nD τ).loc main_arg0) :=
  (W2_arr m c 0).trans (((dat0 (V0 m) c).arrAt_in 0 rfl _).trans (A_eq0 (V0 m) c 0))
theorem W2_main_arg1 (c : Dev nD) : W2 m c (Proc.devRef .tc main_arg1) = m ((c : Thread nD τ).loc main_arg1) :=
  (W2_arr m c 1).trans (((dat0 (V0 m) c).arrAt_in 1 rfl _).trans (A_eq0 (V0 m) c 1))
theorem W2_main_arg2 (c : Dev nD) : W2 m c (Proc.devRef .tc main_arg2) = m ((c : Thread nD τ).loc main_arg2) :=
  (W2_arr m c 2).trans (((dat0 (V0 m) c).arrAt_in 2 rfl _).trans (A_eq0 (V0 m) c 2))
theorem W4_main_arg0 (c : Dev nD) : W4 m c (Proc.devRef .tc main_arg0) = m ((c : Thread nD τ).loc main_arg0) :=
  ((W4_arr m c 0).trans (((dat1 (V2 m) c).arrAt_in 0 rfl _).trans (A_eq1 (V2 m) c 0))).trans (W2_main_arg0 m c)
theorem W4_main_arg1 (c : Dev nD) : W4 m c (Proc.devRef .tc main_arg1) = m ((c : Thread nD τ).loc main_arg1) :=
  (W4_of_ne m c main_arg1 (by decide)).trans (W2_main_arg1 m c)
theorem W4_main_arg2 (c : Dev nD) : W4 m c (Proc.devRef .tc main_arg2) = m ((c : Thread nD τ).loc main_arg2) :=
  ((W4_arr m c 2).trans (((dat1 (V2 m) c).arrAt_in 2 rfl _).trans (A_eq1 (V2 m) c 2))).trans (W2_main_arg2 m c)
/-- The result is what region 1's write-backs leave. -/
theorem W4_main_v1 (c : Dev nD) : W4 m c (Proc.devRef .tc main_v1) = (dat1 (V2 m) c).arrAt 3 cfg1.N :=
  W4_arr m c 3
/-- Region 1 reads the first layer's result as region 0 left it. -/
theorem V2_main_v0 (c : Dev nD) : V2 m c main_v0 = (dat0 (V0 m) c).arrAt 3 cfg0.N :=
  W2_arr m c 3
theorem V2_main_arg0 (c : Dev nD) : V2 m c main_arg0 = m ((c : Thread nD τ).loc main_arg0) := W2_main_arg0 m c
theorem V2_main_arg2 (c : Dev nD) : V2 m c main_arg2 = m ((c : Thread nD τ).loc main_arg2) := W2_main_arg2 m c

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at the contents before it, left at the contents
    after it. Its arrays are split out of the unscoped buffers and put back at the exit contents; the generator register
    and the scoped rest go into the region's invariant and come out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) (Val := Elt F) spec0 c) : sProp 𝕄) ⊢ Pipeline.ΦA spec0 c := by
      unfold Pipeline.ΦA
      iintro ⟨Hp, -, Hr⟩
      isplitl [Hr]; · iexact Hr
      iexact Hp
    exact h.trans (hin0 (V0 m) c)
  hout c := by
    rw [Pipeline.ownSems0_none]
    have h : (Pipeline.ΦA spec0 c : sProp 𝕄) ⊢ iprop((∃ r, prngReg c r) ∗ BI.emp
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V0 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at the exit contents; the generator register
    and the scoped rest go into the region's invariant and come out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) (Val := Elt F) spec1 c) : sProp 𝕄) ⊢ Pipeline.ΦA spec1 c := by
      unfold Pipeline.ΦA
      iintro ⟨Hp, -, Hr⟩
      isplitl [Hr]; · iexact Hr
      iexact Hp
    exact h.trans (hin1 (V2 m) c)
  hout c := by
    rw [Pipeline.ownSems0_none]
    have h : (Pipeline.ΦA spec1 c : sProp 𝕄) ⊢ iprop((∃ r, prngReg c r) ∗ BI.emp
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V2 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every final
    state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

/-- The run with the result named: the second layer's output array at what region 1's write-backs leave. -/
theorem run_value : θ_run defs (onTc (τ := τ) (main (F := F))) ⟨m, fun _ => 0, ρ⟩ (fun r => ∀ c : Dev nD,
      r.2.mem ((c.tc : Thread nD τ).loc main_v1) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W4_main_v1 m c),
     (h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.Kernel.Hand

end
-- ==== Proof.R0Base.lean ====
/-
  Region 0 (one layer's pallas_call): what its four control cases are stated over.
  The grid is 8 × 8, point t = 8·n + e (n the row tile, e the column tile of the adjacency).
  The body's four conditionals read the coordinates only:
    a : n = 0 ∧ e = 0   (the projected embeddings emb · Wᵣᵀ are computed into the first scratch),
    b : e = 0           (the accumulator scratch is set to the tile's partial product),
    c : e ≠ 0           (the partial product is added to the accumulator),
    d : e = 7           (the accumulator, clamped at zero, is stored into the output block).
-/
import proofs.«147766_g40561671143680_cont_8to1_b_159_3_alg».proof.Proof.Gen.KernelIdeal.Launch
import proofs.«147766_g40561671143680_cont_8to1_b_159_3_alg».proof.Proof.Gen.KernelIdeal.Skeleton
import proofs.«147766_g40561671143680_cont_8to1_b_159_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, from the grid coordinates -/

abbrev cond0_a (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
abbrev cond0_b (i : grid0.Coords) : Prop :=
  (Scalar.cmpi .ne (Scalar.extui (Scalar.cmpi .eq (BitVec.ofNat 32 (i 1).val) 0#32)) 0#32) = 1#1
abbrev cond0_c (i : grid0.Coords) : Prop :=
  (Scalar.cmpi .ne (Scalar.extui (Scalar.cmpi .ne (BitVec.ofNat 32 (i 1).val) 0#32)) 0#32) = 1#1
abbrev cond0_d (i : grid0.Coords) : Prop := k0_cond4 i = 1#1

/-- Condition a holds at the first point only. -/
theorem hcond0_a : ∀ t : Fin cfg0.N, cond0_a (grid0.coords t) ↔ t.val = 0 :=
  (by decide +kernel : ∀ t : Fin grid0.N, cond0_a (grid0.coords t) ↔ t.val = 0)
/-- Condition b holds where the column tile is the first. -/
theorem hcond0_b : ∀ t : Fin cfg0.N, cond0_b (grid0.coords t) ↔ t.val % 8 = 0 :=
  (by decide +kernel : ∀ t : Fin grid0.N, cond0_b (grid0.coords t) ↔ t.val % 8 = 0)
/-- Condition c holds where it is not. -/
theorem hcond0_c : ∀ t : Fin cfg0.N, cond0_c (grid0.coords t) ↔ ¬ t.val % 8 = 0 :=
  (by decide +kernel : ∀ t : Fin grid0.N, cond0_c (grid0.coords t) ↔ ¬ t.val % 8 = 0)
/-- Condition d holds where the column tile is the last. -/
theorem hcond0_d : ∀ t : Fin cfg0.N, cond0_d (grid0.coords t) ↔ t.val % 8 = 7 :=
  (by decide +kernel : ∀ t : Fin grid0.N, cond0_d (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last column tile the output block is idle and not written back. -/
theorem idleAt0_3 : ∀ t : Fin cfg0.N, ¬cond0_d (grid0.coords t) → cfg0.idle 3 (grid0.coords t) = true := by decide +kernel
theorem noFlush0_3 : ∀ t : Fin cfg0.N, ¬cond0_d (grid0.coords t) → (cfg0.win 3).flush t = false := by decide +kernel
theorem liveAt0_3 : ∀ t : Fin cfg0.N, cond0_d (grid0.coords t) → cfg0.idle 3 (grid0.coords t) = false := by decide +kernel

/-! ## The staging and scratch memrefs -/

abbrev ms0_0 (t : Fin cfg0.N) : Memref sig .tc .vmem S4x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x32x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x32 .f32 := win0_3.stage (cfg0.slots t 3)
abbrev hs0_3 (t : Fin cfg0.N) : (ms0_3 t).IsWhole := hstage0_3 ((cfg0.slots t 3).cast nbuf0_3)
/-- The two scratch operands: the projected embeddings (bf16) and the accumulator. -/
abbrev scM0_0 : Memref sig .tc .vmem S4x4096x32 .bf16 := Memref.whole cc0_scratch0
abbrev scM0_1 : Memref sig .tc .vmem S512x32 .f32 := Memref.whole cc0_scratch1
abbrev VS0_0 : View sig .tc .vmem S4x4096x32 .bf16 := scM0_0.view
abbrev VS0_1 : View sig .tc .vmem S512x32 .f32 := scM0_1.view
abbrev VO0_3 : View sig .tc .vmem S512x32 .f32 := (Memref.whole cc0_stg3_0 : Memref sig .tc .vmem S512x32 .f32).view

end Cert.KernelIdeal.Hand

end
-- ==== Proof.R0RunA.lean ====
/-
  Region 0, the first point (n = 0, e = 0): the projected embeddings emb · w_rᵀ are stored, relation by relation, into the first scratch, and the accumulator scratch is set to the tile's partial product.
-/
import proofs.«147766_g40561671143680_cont_8to1_b_159_3_alg».proof.Proof.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 8000000 in
/-- The body there, on whole memrefs: the adjacency block at `x0`, the embedding table at `x1`, the relation matrices at
    `x2`, both scratch buffers at anything; the output block handed back as found. The two scratch buffers end with the
    pieces the run finds. -/
noncomputable def kernelRun0_A (c : Dev nD) (i : grid0.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : cond0_a i) (hb : cond0_b i) (hc : ¬cond0_c i) (hd : ¬cond0_d i)
    (x0 : Vec F S4x512x512 .f32) (x1 : Vec F S4096x32 .f32) (x2 : Vec F S4x32x32 .f32) :
    Σ' (LS0 : List (View.Piece (Elt F) S4x4096x32 .bf16)), { LS1 : List (View.Piece (Elt F) S512x32 .f32) //
      ∀ (xi3 : Vec F S512x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__layer_kernel i arg2 harg2 arg3 harg3 arg4 harg4 arg5 harg5 arg6 harg6 arg7 harg7) K } := by
  refine ⟨?_, ?_, fun xi3 E K => ?run⟩
  case run =>
    simp only [cc0__layer_kernel_eq_skeleton]; unfold cc0__layer_kernel_skel
    unfold owns
    iintro ⟨⟨%f0, %hf0, H0⟩, ⟨%f1, %hf1, H1⟩, ⟨%f2, %hf2, H2⟩, ⟨%f3, %hf3, H3⟩, ⟨%dB, %fB, -, HB⟩, ⟨%dA, %fA, -, HA⟩, Hk⟩
    obtain rfl := harg2.eq_unread hf0; obtain rfl := harg3.eq_unread hf1; obtain rfl := harg4.eq_unread hf2
    obtain rfl := harg5.eq_unread hf3
    sl_exec_parts! (disch := first | exact ha | exact hb | exact hc | exact hd)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HB]; · iexists _; iexact HB
    iexists _; iexact HA

end Cert.KernelIdeal.Hand

end
-- ==== Proof.R0RunB.lean ====
/-
  Region 0, the middle column tiles (0 < e < 7): the tile's partial product is added to the accumulator
  scratch; nothing else is stored.
-/
import proofs.«147766_g40561671143680_cont_8to1_b_159_3_alg».proof.Proof.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle column tile, on whole memrefs: the adjacency block at `x0`, the projected embeddings at `xB`,
    the accumulator at `xA`; the other windows are handed back as found. The accumulator ends with the pieces the run finds. -/
noncomputable def kernelRun0_B (c : Dev nD) (i : grid0.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : ¬cond0_a i) (hb : ¬cond0_b i) (hc : cond0_c i) (hd : ¬cond0_d i)
    (x0 : Vec F S4x512x512 .f32) (xB : Vec F S4x4096x32 .bf16) (xA : Vec F S512x32 .f32) :
    { LS1 : List (View.Piece (Elt F) S512x32 .f32) //
      ∀ (xi1 : Vec F S4096x32 .f32) (xi2 : Vec F S4x32x32 .f32) (xi3 : Vec F S512x32 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xi3
            ∗ owns (c : Thread nD τ) arg6 fullShare xB ∗ owns (c : Thread nD τ) arg7 fullShare xA
            ∗ (iprop(owns (c : Thread nD τ) arg2 fullShare x0 ∗ owns (c : Thread nD τ) arg3 fullShare xi1 ∗ owns (c : Thread nD τ) arg4 fullShare xi2 ∗ owns (c : Thread nD τ) arg5 fullShare xi3
                ∗ owns (c : Thread nD τ) arg6 fullShare xB ∗ (∃ f, arg7.view.loc (c : Thread nD τ) ↦[arg7.view.set]{fullShare} arg7.view.writes (Elt F) f LS1)) -∗ K ⟨⟩))
          ⊢ wp frame (wpE (defs₀ (F := F)) Variants.none c none) E (cc0__layer_kernel i arg2 harg2 arg3 harg3 arg4 harg4 arg5 harg5 arg6 harg6 arg7 harg7) K } := by
  refine ⟨?_, fun xi1 xi2 xi3 E K => ?run⟩
  case run =>
    simp only [cc0__layer_kernel_eq_skeleton]; unfold cc0__layer_kernel_skel
    simp only [k0_part2_eq_skeleton]; unfold k0_part2_skel
    unfold owns
    iintro ⟨⟨%f0, %hf0, H0⟩, ⟨%f1, %hf1, H1⟩, ⟨%f2, %hf2, H2⟩, ⟨%f3, %hf3, H3⟩, ⟨%fB, %hfB, HB⟩, ⟨%fA, %hfA, HA⟩, Hk⟩
    obtain rfl := harg2.eq_unread hf0; obtain rfl := harg3.eq_unread hf1; obtain rfl := harg4.eq_unread hf2
    obtain rfl := harg5.eq_unread hf3; obtain rfl := harg6.eq_unread hfB; obtain rfl := harg7.eq_unread hfA
    sl_exec (disch := first | exact ha | exact hb | exact hc | exact hd)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HB]
    · iexists _; isplitr; · ipureintro; exact harg6.read_unread _
      iexact HB
    iexists _; iexact HA

end Cert.KernelIdeal.Hand

end
-- ==== Proof.R0RunC.lean ====
/-
  Region 0, the last column tile (e = 7): the partial product is added to the accumulator scratch, and the accumulator clamped at zero is stored into the output block.
-/
import proofs.«147766_g40561671143680_cont_8to1_b_159_3_alg».proof.Proof.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- The body there, on whole memrefs: the adjacency block at `x0`, the projected embeddings at `xB`, the accumulator at
    `xA`, the output block at anything; the other windows handed back as found. The accumulator and the output block end
    with the pieces the run finds. -/
noncomputable def kernelRun0_C (c : Dev nD) (i : grid0.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : ¬cond0_a i) (hb : ¬cond0_b i) (hc : cond0_c i) (hd : cond0_d i)
    (x0 : Vec F S4x512x512 .f32) (xB : Vec F S4x4096x32 .bf16) (xA : Vec F S512x32 .f32) :
    Σ' (L3 : List (View.Piece (Elt F) S512x32 .f32)), { LS1 : List (View.Piece (Elt F) S512x32 .f32) //
      ∀ (xi1 : Vec F S4096x32 .f32) (xi2 : Vec F S4x32x32 .f32) (E : Set ℕ) (K : PUnit → sProp 𝕄),
        iprop(owns (c : Thread nD τ) arg2 fullShare x0 ∗ owns (c : Thread nD τ) arg3 fullShare xi1 ∗ owns (c : Thread nD τ) arg4 fullShare xi2 ∗ (∃ d, owns (c : Thread nD τ) arg5 fullShare d)
            ∗ owns (c : Thread nD τ) arg6 fullShare xB ∗ owns (c : Thread nD τ) arg7 fullShare xA
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f L3)
                ∗ owns (c : Thread nD τ) arg6 fullShare xB ∗ (∃ f, arg7.view.loc (c : Thread nD τ) ↦[arg7.view.set]{fullShare} arg7.view.writes (Elt F) f LS1)) -∗ K ⟨⟩))
          ⊢ wp frame (wpE (defs₀ (F := F)) Variants.none c none) E (cc0__layer_kernel i arg2 harg2 arg3 harg3 arg4 harg4 arg5 harg5 arg6 harg6 arg7 harg7) K } := by
  refine ⟨?_, ?_, fun xi1 xi2 E K => ?run⟩
  case run =>
    simp only [cc0__layer_kernel_eq_skeleton]; unfold cc0__layer_kernel_skel
    simp only [k0_part2_eq_skeleton]; unfold k0_part2_skel
    unfold owns
    iintro ⟨⟨%f0, %hf0, H0⟩, ⟨%f1, %hf1, H1⟩, ⟨%f2, %hf2, H2⟩, ⟨%d3, %f3, -, H3⟩, ⟨%fB, %hfB, HB⟩, ⟨%fA, %hfA, HA⟩, Hk⟩
    obtain rfl := harg2.eq_unread hf0; obtain rfl := harg3.eq_unread hf1; obtain rfl := harg4.eq_unread hf2
    obtain rfl := harg6.eq_unread hfB; obtain rfl := harg7.eq_unread hfA
    sl_exec (disch := first | exact ha | exact hb | exact hc | exact hd)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HB]
    · iexists _; isplitr; · ipureintro; exact harg6.read_unread _
      iexact HB
    iexists _; iexact HA

end Cert.KernelIdeal.Hand

end
-- ==== Proof.R0RunD.lean ====
/-
  Region 0, the first column tile of a later row tile (n ≠ 0, e = 0): the accumulator scratch is set to the tile's partial product.
-/
import proofs.«147766_g40561671143680_cont_8to1_b_159_3_alg».proof.Proof.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- The body there, on whole memrefs: the adjacency block at `x0`, the projected embeddings at `xB`, the accumulator at
    anything; the other windows handed back as found. The accumulator ends with the pieces the run finds. -/
noncomputable def kernelRun0_D (c : Dev nD) (i : grid0.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : ¬cond0_a i) (hb : cond0_b i) (hc : ¬cond0_c i) (hd : ¬cond0_d i)
    (x0 : Vec F S4x512x512 .f32) (xB : Vec F S4x4096x32 .bf16) :
    { LS1 : List (View.Piece (Elt F) S512x32 .f32) //
      ∀ (xi1 : Vec F S4096x32 .f32) (xi2 : Vec F S4x32x32 .f32) (xi3 : Vec F S512x32 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xi3
            ∗ owns (c : Thread nD τ) arg6 fullShare xB ∗ (∃ d, owns (c : Thread nD τ) arg7 fullShare d)
            ∗ (iprop(owns (c : Thread nD τ) arg2 fullShare x0 ∗ owns (c : Thread nD τ) arg3 fullShare xi1 ∗ owns (c : Thread nD τ) arg4 fullShare xi2 ∗ owns (c : Thread nD τ) arg5 fullShare xi3
                ∗ owns (c : Thread nD τ) arg6 fullShare xB ∗ (∃ f, arg7.view.loc (c : Thread nD τ) ↦[arg7.view.set]{fullShare} arg7.view.writes (Elt F) f LS1)) -∗ K ⟨⟩))
          ⊢ wp frame (wpE (defs₀ (F := F)) Variants.none c none) E (cc0__layer_kernel i arg2 harg2 arg3 harg3 arg4 harg4 arg5 harg5 arg6 harg6 arg7 harg7) K } := by
  refine ⟨?_, fun xi1 xi2 xi3 E K => ?run⟩
  case run =>
    simp only [cc0__layer_kernel_eq_skeleton]; unfold cc0__layer_kernel_skel
    simp only [k0_part2_eq_skeleton]; unfold k0_part2_skel
    unfold owns
    iintro ⟨⟨%f0, %hf0, H0⟩, ⟨%f1, %hf1, H1⟩, ⟨%f2, %hf2, H2⟩, ⟨%f3, %hf3, H3⟩, ⟨%fB, %hfB, HB⟩, ⟨%dA, %fA, -, HA⟩, Hk⟩
    obtain rfl := harg2.eq_unread hf0; obtain rfl := harg3.eq_unread hf1; obtain rfl := harg4.eq_unread hf2
    obtain rfl := harg5.eq_unread hf3; obtain rfl := harg6.eq_unread hfB
    sl_exec (disch := first | exact ha | exact hb | exact hc | exact hd)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HB]
    · iexists _; isplitr; · ipureintro; exact harg6.read_unread _
      iexact HB
    iexists _; iexact HA

end Cert.KernelIdeal.Hand

end
-- ==== Proof.R0Frame.lean ====
/-
  Region 0 (layer 1): what the two scratch buffers and the output block hold after each grid point, the
  pipeline's proof data, and the body obligation.

  After point t = 8·n + e the first scratch holds the projected embeddings (stored at the first point, read ever
  after), the second the sum of the partial products of row tile n over the column tiles 0 … e; at e = 7 the output
  block is what the epilogue makes of that sum. Each is stated as the case's stores read back, over what the point
  before left.
-/
import proofs.«147766_g40561671143680_cont_8to1_b_159_3_alg».proof.Proof.R0RunA
import proofs.«147766_g40561671143680_cont_8to1_b_159_3_alg».proof.Proof.R0RunB
import proofs.«147766_g40561671143680_cont_8to1_b_159_3_alg».proof.Proof.R0RunC
import proofs.«147766_g40561671143680_cont_8to1_b_159_3_alg».proof.Proof.R0RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The four cases at a grid point -/

abbrev run0A (c : Dev nD) (t : Fin cfg0.N) (h : t.val = 0) (x0 : Vec F S4x512x512 .f32) (x1 : Vec F S4096x32 .f32) (x2 : Vec F S4x32x32 .f32) :=
  kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _)
    ((hcond0_a t).mpr h) ((hcond0_b t).mpr (by omega)) (fun hc => (hcond0_c t).mp hc (by omega)) (fun hd => by have := (hcond0_d t).mp hd; omega) x0 x1 x2
abbrev run0D (c : Dev nD) (t : Fin cfg0.N) (h0 : t.val ≠ 0) (hb : t.val % 8 = 0) (x0 : Vec F S4x512x512 .f32) (xB : Vec F S4x4096x32 .bf16) :=
  kernelRun0_D c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (fun ha => h0 ((hcond0_a t).mp ha)) ((hcond0_b t).mpr hb) (fun hc => (hcond0_c t).mp hc hb) (fun hd => by have := (hcond0_d t).mp hd; omega) x0 xB
abbrev run0B (c : Dev nD) (t : Fin cfg0.N) (hb : ¬ t.val % 8 = 0) (hd : ¬ t.val % 8 = 7) (x0 : Vec F S4x512x512 .f32) (xB : Vec F S4x4096x32 .bf16) (xA : Vec F S512x32 .f32) :=
  kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (fun ha => by have := (hcond0_a t).mp ha; omega) (fun h => hb ((hcond0_b t).mp h)) ((hcond0_c t).mpr hb) (fun h => hd ((hcond0_d t).mp h)) x0 xB xA
abbrev run0C (c : Dev nD) (t : Fin cfg0.N) (hd : t.val % 8 = 7) (x0 : Vec F S4x512x512 .f32) (xB : Vec F S4x4096x32 .bf16) (xA : Vec F S512x32 .f32) :=
  kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (fun ha => by have := (hcond0_a t).mp ha; omega) (fun h => by have := (hcond0_b t).mp h; omega) ((hcond0_c t).mpr (by omega)) ((hcond0_d t).mpr hd) x0 xB xA

/-! ## What each case leaves: its stores read back -/

/-- The first point: the projected embeddings, and the accumulator. -/
def sB0_A (c : Dev nD) (t : Fin cfg0.N) (h : t.val = 0) (x0 : Vec F S4x512x512 .f32) (x1 : Vec F S4096x32 .f32) (x2 : Vec F S4x32x32 .f32) : Vec F S4x4096x32 .bf16 :=
  VS0_0.read (Elt F) (VS0_0.writes (Elt F) VS0_0.junk (run0A c t h x0 x1 x2).1)
def sA0_A (c : Dev nD) (t : Fin cfg0.N) (h : t.val = 0) (x0 : Vec F S4x512x512 .f32) (x1 : Vec F S4096x32 .f32) (x2 : Vec F S4x32x32 .f32) : Vec F S512x32 .f32 :=
  VS0_1.read (Elt F) (VS0_1.writes (Elt F) VS0_1.junk (run0A c t h x0 x1 x2).2.1)
theorem scovB0_A (c : Dev nD) (t : Fin cfg0.N) (h : t.val = 0) (x0 : Vec F S4x512x512 .f32) (x1 : Vec F S4096x32 .f32) (x2 : Vec F S4x32x32 .f32) (y : S4x4096x32.Idx) :
    ∃ pc ∈ (run0A c t h x0 x1 x2).1, y ∈ pc.1.set :=
  View.cover_of_tiledL (run0A c t h x0 x1 x2).1 S1x4096x32.size (by sl_kernel_rfl) y
theorem scovA0_A (c : Dev nD) (t : Fin cfg0.N) (h : t.val = 0) (x0 : Vec F S4x512x512 .f32) (x1 : Vec F S4096x32 .f32) (x2 : Vec F S4x32x32 .f32) (y : S512x32.Idx) :
    ∃ pc ∈ (run0A c t h x0 x1 x2).2.1, y ∈ pc.1.set :=
  View.cover_of_tiledL (run0A c t h x0 x1 x2).2.1 S512x32.size (by sl_kernel_rfl) y

/-- The first column tile of a later row tile: the accumulator. -/
def sA0_D (c : Dev nD) (t : Fin cfg0.N) (h0 : t.val ≠ 0) (hb : t.val % 8 = 0) (x0 : Vec F S4x512x512 .f32) (xB : Vec F S4x4096x32 .bf16) : Vec F S512x32 .f32 :=
  VS0_1.read (Elt F) (VS0_1.writes (Elt F) VS0_1.junk (run0D c t h0 hb x0 xB).1)
theorem scovA0_D (c : Dev nD) (t : Fin cfg0.N) (h0 : t.val ≠ 0) (hb : t.val % 8 = 0) (x0 : Vec F S4x512x512 .f32) (xB : Vec F S4x4096x32 .bf16) (y : S512x32.Idx) :
    ∃ pc ∈ (run0D c t h0 hb x0 xB).1, y ∈ pc.1.set :=
  View.cover_of_tiledL (run0D c t h0 hb x0 xB).1 S512x32.size (by sl_kernel_rfl) y

/-- A middle column tile: the accumulator. -/
def sA0_B (c : Dev nD) (t : Fin cfg0.N) (hb : ¬ t.val % 8 = 0) (hd : ¬ t.val % 8 = 7) (x0 : Vec F S4x512x512 .f32) (xB : Vec F S4x4096x32 .bf16) (xA : Vec F S512x32 .f32) : Vec F S512x32 .f32 :=
  VS0_1.read (Elt F) (VS0_1.writes (Elt F) VS0_1.junk (run0B c t hb hd x0 xB xA).1)
theorem scovA0_B (c : Dev nD) (t : Fin cfg0.N) (hb : ¬ t.val % 8 = 0) (hd : ¬ t.val % 8 = 7) (x0 : Vec F S4x512x512 .f32) (xB : Vec F S4x4096x32 .bf16) (xA : Vec F S512x32 .f32) (y : S512x32.Idx) :
    ∃ pc ∈ (run0B c t hb hd x0 xB xA).1, y ∈ pc.1.set :=
  View.cover_of_tiledL (run0B c t hb hd x0 xB xA).1 S512x32.size (by sl_kernel_rfl) y

/-- The last column tile: the output block, and the accumulator. -/
def out0_C (c : Dev nD) (t : Fin cfg0.N) (hd : t.val % 8 = 7) (x0 : Vec F S4x512x512 .f32) (xB : Vec F S4x4096x32 .bf16) (xA : Vec F S512x32 .f32) : Vec F S512x32 .f32 :=
  VO0_3.read (Elt F) (VO0_3.writes (Elt F) VO0_3.junk (run0C c t hd x0 xB xA).1)
def sA0_C (c : Dev nD) (t : Fin cfg0.N) (hd : t.val % 8 = 7) (x0 : Vec F S4x512x512 .f32) (xB : Vec F S4x4096x32 .bf16) (xA : Vec F S512x32 .f32) : Vec F S512x32 .f32 :=
  VS0_1.read (Elt F) (VS0_1.writes (Elt F) VS0_1.junk (run0C c t hd x0 xB xA).2.1)
theorem cov0_C (c : Dev nD) (t : Fin cfg0.N) (hd : t.val % 8 = 7) (x0 : Vec F S4x512x512 .f32) (xB : Vec F S4x4096x32 .bf16) (xA : Vec F S512x32 .f32) (y : S512x32.Idx) :
    ∃ pc ∈ (run0C c t hd x0 xB xA).1, y ∈ pc.1.set :=
  View.cover_of_tiledL (run0C c t hd x0 xB xA).1 S512x32.size (by sl_kernel_rfl) y
theorem scovA0_C (c : Dev nD) (t : Fin cfg0.N) (hd : t.val % 8 = 7) (x0 : Vec F S4x512x512 .f32) (xB : Vec F S4x4096x32 .bf16) (xA : Vec F S512x32 .f32) (y : S512x32.Idx) :
    ∃ pc ∈ (run0C c t hd x0 xB xA).2.1, y ∈ pc.1.set :=
  View.cover_of_tiledL (run0C c t hd x0 xB xA).2.1 S512x32.size (by sl_kernel_rfl) y

/-- Where the output block is idle nothing is said of it: a placeholder nothing consults. -/
def junkO0 : Vec F S512x32 .f32 := VO0_3.read (Elt F) VO0_3.junk

/-! ## What the output block and the two scratch buffers hold after each point -/

/-- After position `n`: the output block, the projected embeddings, the accumulator. -/
def outsAt0 (c : Dev nD) : (n : ℕ) → n < cfg0.N → Vec F S512x32 .f32 × Vec F S4x4096x32 .bf16 × Vec F S512x32 .f32
  | 0, hn => (junkO0, sB0_A c ⟨0, hn⟩ rfl (iblk0 V c 0 ⟨0, hn⟩) (iblk0 V c 1 ⟨0, hn⟩) (iblk0 V c 2 ⟨0, hn⟩),
      sA0_A c ⟨0, hn⟩ rfl (iblk0 V c 0 ⟨0, hn⟩) (iblk0 V c 1 ⟨0, hn⟩) (iblk0 V c 2 ⟨0, hn⟩))
  | n + 1, hn =>
    if hb : (n + 1) % 8 = 0 then
      (junkO0, (outsAt0 c n (Nat.lt_of_succ_lt hn)).2.1,
        sA0_D c ⟨n + 1, hn⟩ (Nat.succ_ne_zero n) hb (iblk0 V c 0 ⟨n + 1, hn⟩) (outsAt0 c n (Nat.lt_of_succ_lt hn)).2.1)
    else if hd : (n + 1) % 8 = 7 then
      (out0_C c ⟨n + 1, hn⟩ hd (iblk0 V c 0 ⟨n + 1, hn⟩) (outsAt0 c n (Nat.lt_of_succ_lt hn)).2.1 (outsAt0 c n (Nat.lt_of_succ_lt hn)).2.2,
        (outsAt0 c n (Nat.lt_of_succ_lt hn)).2.1,
        sA0_C c ⟨n + 1, hn⟩ hd (iblk0 V c 0 ⟨n + 1, hn⟩) (outsAt0 c n (Nat.lt_of_succ_lt hn)).2.1 (outsAt0 c n (Nat.lt_of_succ_lt hn)).2.2)
    else
      (junkO0, (outsAt0 c n (Nat.lt_of_succ_lt hn)).2.1,
        sA0_B c ⟨n + 1, hn⟩ hb hd (iblk0 V c 0 ⟨n + 1, hn⟩) (outsAt0 c n (Nat.lt_of_succ_lt hn)).2.1 (outsAt0 c n (Nat.lt_of_succ_lt hn)).2.2)

theorem outsAt0_A (c : Dev nD) (t : Fin cfg0.N) (h : t.val = 0) :
    outsAt0 V c t.val t.isLt = (junkO0, sB0_A c t h (iblk0 V c 0 t) (iblk0 V c 1 t) (iblk0 V c 2 t), sA0_A c t h (iblk0 V c 0 t) (iblk0 V c 1 t) (iblk0 V c 2 t)) := by
  obtain ⟨n, hn⟩ := t
  cases n with
  | zero => rfl
  | succ n => exact absurd h (Nat.succ_ne_zero n)

theorem outsAt0_D (c : Dev nD) (t : Fin cfg0.N) (h0 : t.val ≠ 0) (hb : t.val % 8 = 0) :
    outsAt0 V c t.val t.isLt = (junkO0, (outsAt0 V c (t.val - 1) (Nat.lt_of_le_of_lt (Nat.sub_le _ _) t.isLt)).2.1,
      sA0_D c t h0 hb (iblk0 V c 0 t) (outsAt0 V c (t.val - 1) (Nat.lt_of_le_of_lt (Nat.sub_le _ _) t.isLt)).2.1) := by
  obtain ⟨n, hn⟩ := t
  cases n with
  | zero => exact absurd rfl h0
  | succ n => exact (dif_pos hb).trans rfl

theorem outsAt0_C (c : Dev nD) (t : Fin cfg0.N) (hd : t.val % 8 = 7) :
    outsAt0 V c t.val t.isLt = (out0_C c t hd (iblk0 V c 0 t) (outsAt0 V c (t.val - 1) (Nat.lt_of_le_of_lt (Nat.sub_le _ _) t.isLt)).2.1 (outsAt0 V c (t.val - 1) (Nat.lt_of_le_of_lt (Nat.sub_le _ _) t.isLt)).2.2,
      (outsAt0 V c (t.val - 1) (Nat.lt_of_le_of_lt (Nat.sub_le _ _) t.isLt)).2.1,
      sA0_C c t hd (iblk0 V c 0 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact absurd hd (show ¬ (0 % 8 = 7) by decide)
  | succ n => exact (dif_neg (show ¬ (n + 1) % 8 = 0 by (try dsimp only at hd); omega)).trans ((dif_pos hd).trans rfl)

theorem outsAt0_B (c : Dev nD) (t : Fin cfg0.N) (hb : ¬ t.val % 8 = 0) (hd : ¬ t.val % 8 = 7) :
    outsAt0 V c t.val t.isLt = (junkO0, (outsAt0 V c (t.val - 1) (Nat.lt_of_le_of_lt (Nat.sub_le _ _) t.isLt)).2.1,
      sA0_B c t hb hd (iblk0 V c 0 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact absurd (Nat.zero_mod 8) hb
  | succ n => exact (dif_neg hb).trans ((dif_neg hd).trans rfl)

/-! ## The region invariant -/

/-- The core's scoped buffers that are neither a staging buffer of this region nor one of its two scratch buffers, each
    at some contents. -/
def rest0 (c : Dev nD) : sProp 𝕄 :=
  Pipeline.scopedRestBut (Ix := Unit) (Name := ℕ) (U := UR sig nD τ) (Lvl := ℕ) (Val := Elt F) spec0 c [cc0_scratch0, cc0_scratch1]

/-- The class invariant with this region's two scratch buffers named. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA rest0
  rw [Pipeline.scopedRest_split_of_list spec0 c [cc0_scratch0, cc0_scratch1] (by decide) (by decide)]
  simp only [scM0_0, scM0_1, owns_whole]; try rfl

/-- Before position `n`: at the start every scoped buffer at anything; afterwards the two scratch buffers at what the
    point before left. -/
def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).2.1 ∗ owns (c : Thread nD τ) scM0_1 fullShare (outsAt0 V c n hn).2.2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare (outsAt0 V c n hn).2.1 ∗ owns (c : Thread nD τ) scM0_1 fullShare (outsAt0 V c n hn).2.2) ∗ rest0 c) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).2.1 ∗ owns (c : Thread nD τ) scM0_1 fullShare (outsAt0 V c (n - 1) (by omega)).2.2) ∗ rest0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
/-- The body at any point: the input windows' memrefs hold their blocks; the point's position says which of the four cases
    it is in; the invariant hands the body the two scratch buffers at what the point before left (at anything at the first
    point) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases hz : t.val = 0
  · -- the first point
    have hnd : ¬cond0_d (grid0.coords t) := fun h => by have := (hcond0_d t).mp h; omega
    rw [Dat.leavesExact_idle (dat0 V c) 3 t (idleAt0_3 t hnd) (noFlush0_3 t hnd)]
    rw [outsAt0_A V c t hz]
    unfold sB0_A sA0_A; (try dsimp only)
    rw [PhiS0_castSucc V c t, PhiS0_zero V c _ _ hz, PhiA0_eq]
    iintro ⟨⟨⟨⟨HS0, HS1⟩, HR⟩, Hg⟩, Ho, ⟨%d0, H0⟩, ⟨%d1, H1⟩, ⟨%d2, H2⟩, ⟨%d3, H3⟩⟩
    iapply ((run0A c t hz (iblk0 V c 0 t) (iblk0 V c 1 t) (iblk0 V c 2 t)).2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scovB0_A c t hz _ _ _)
          unfold owns; iexists _; isplitr
          swap; · iexact HS1
          ipureintro; exact View.read_writes_of_cover _ _ _ _ _ (scovA0_A c t hz _ _ _)
        iexact HR
      iexact Hg
    isplitl [Ho]; · iexact Ho
    isplitl [H0]; · iexact H0
    isplitl [H1]; · iexact H1
    isplitl [H2]; · iexact H2
    iexists _; iexact H3
  · by_cases hb : t.val % 8 = 0
    · -- the first column tile of a later row tile
      have hnd : ¬cond0_d (grid0.coords t) := fun h => by have := (hcond0_d t).mp h; omega
      rw [Dat.leavesExact_idle (dat0 V c) 3 t (idleAt0_3 t hnd) (noFlush0_3 t hnd)]
      rw [outsAt0_D V c t hz hb]
      unfold sA0_D; (try dsimp only)
      rw [PhiS0_castSucc V c t, PhiS0_pos V c _ _ hz]
      iintro ⟨⟨⟨⟨HS0, HS1⟩, HR⟩, Hg⟩, Ho, ⟨%d0, H0⟩, ⟨%d1, H1⟩, ⟨%d2, H2⟩, ⟨%d3, H3⟩⟩
      iapply ((run0D c t hz hb (iblk0 V c 0 t) _).2 _ _ _ Set.univ _)
      isplitl [H0]; · iexact H0
      isplitl [H1]; · iexact H1
      isplitl [H2]; · iexact H2
      isplitl [H3]; · iexact H3
      isplitl [HS0]; · iexact HS0
      isplitl [HS1]; · iexists _; iexact HS1
      iintro ⟨H0, H1, H2, H3, HS0, ⟨%es1, HS1⟩⟩
      isplitl [HS0 HS1 HR Hg]
      · isplitl [HS0 HS1 HR]
        · isplitl [HS0 HS1]
          · isplitl [HS0]
            · iexact HS0
            unfold owns; iexists _; isplitr
            swap; · iexact HS1
            ipureintro; exact View.read_writes_of_cover _ _ _ _ _ (scovA0_D c t hz hb _ _)
          iexact HR
        iexact Hg
      isplitl [Ho]; · iexact Ho
      isplitl [H0]; · iexact H0
      isplitl [H1]; · iexact H1
      isplitl [H2]; · iexact H2
      iexists _; iexact H3
    · by_cases hd : t.val % 8 = 7
      · -- the last column tile
        rw [show (dat0 V c).leavesExact 3 t = owns (c : Thread nD τ) (ms0_3 t) fullShare ((dat0 V c).after 3 t) from by
          unfold Dat.leavesExact; rw [liveAt0_3 t ((hcond0_d t).mpr hd)], after0_3]
        rw [outsAt0_C V c t hd]
        unfold out0_C sA0_C; (try dsimp only)
        rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩⟩
        iapply ((run0C c t hd (iblk0 V c 0 t) _ _).2.2 _ _ Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, HS0, ⟨%es1, HS1⟩⟩
        isplitl [HS0 HS1 HR Hg]
        · isplitl [HS0 HS1 HR]
          · isplitl [HS0 HS1]
            · isplitl [HS0]
              · iexact HS0
              unfold owns; iexists _; isplitr
              swap; · iexact HS1
              ipureintro; exact View.read_writes_of_cover _ _ _ _ _ (scovA0_C c t hd _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cov0_C c t hd _ _ _)
      · -- a middle column tile
        have hnd : ¬cond0_d (grid0.coords t) := fun h => hd ((hcond0_d t).mp h)
        rw [Dat.leavesExact_idle (dat0 V c) 3 t (idleAt0_3 t hnd) (noFlush0_3 t hnd)]
        rw [outsAt0_B V c t hb hd]
        unfold sA0_B; (try dsimp only)
        rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩⟩
        iapply ((run0B c t hb hd (iblk0 V c 0 t) _ _).2 _ _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, ⟨%es1, HS1⟩⟩
        isplitl [HS0 HS1 HR Hg]
        · isplitl [HS0 HS1 HR]
          · isplitl [HS0 HS1]
            · isplitl [HS0]
              · iexact HS0
              unfold owns; iexists _; isplitr
              swap; · iexact HS1
              ipureintro; exact View.read_writes_of_cover _ _ _ _ _ (scovA0_B c t hb hd _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch buffers' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Region0

end Cert.KernelIdeal.Hand

end
-- ==== Proof.R1Base.lean ====
/-
  Region 1 (one layer's pallas_call): what its four control cases are stated over.
  The grid is 8 × 8, point t = 8·n + e (n the row tile, e the column tile of the adjacency).
  The body's four conditionals read the coordinates only:
    a : n = 0 ∧ e = 0   (the projected embeddings emb · Wᵣᵀ are computed into the first scratch),
    b : e = 0           (the accumulator scratch is set to the tile's partial product),
    c : e ≠ 0           (the partial product is added to the accumulator),
    d : e = 7           (the accumulator, clamped at zero, is stored into the output block).
-/
import proofs.«147766_g40561671143680_cont_8to1_b_159_3_alg».proof.Proof.Gen.KernelIdeal.Launch
import proofs.«147766_g40561671143680_cont_8to1_b_159_3_alg».proof.Proof.Gen.KernelIdeal.Skeleton
import proofs.«147766_g40561671143680_cont_8to1_b_159_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, from the grid coordinates -/

abbrev cond1_a (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
abbrev cond1_b (i : grid1.Coords) : Prop :=
  (Scalar.cmpi .ne (Scalar.extui (Scalar.cmpi .eq (BitVec.ofNat 32 (i 1).val) 0#32)) 0#32) = 1#1
abbrev cond1_c (i : grid1.Coords) : Prop :=
  (Scalar.cmpi .ne (Scalar.extui (Scalar.cmpi .ne (BitVec.ofNat 32 (i 1).val) 0#32)) 0#32) = 1#1
abbrev cond1_d (i : grid1.Coords) : Prop := k1_cond4 i = 1#1

/-- Condition a holds at the first point only. -/
theorem hcond1_a : ∀ t : Fin cfg1.N, cond1_a (grid1.coords t) ↔ t.val = 0 :=
  (by decide +kernel : ∀ t : Fin grid1.N, cond1_a (grid1.coords t) ↔ t.val = 0)
/-- Condition b holds where the column tile is the first. -/
theorem hcond1_b : ∀ t : Fin cfg1.N, cond1_b (grid1.coords t) ↔ t.val % 8 = 0 :=
  (by decide +kernel : ∀ t : Fin grid1.N, cond1_b (grid1.coords t) ↔ t.val % 8 = 0)
/-- Condition c holds where it is not. -/
theorem hcond1_c : ∀ t : Fin cfg1.N, cond1_c (grid1.coords t) ↔ ¬ t.val % 8 = 0 :=
  (by decide +kernel : ∀ t : Fin grid1.N, cond1_c (grid1.coords t) ↔ ¬ t.val % 8 = 0)
/-- Condition d holds where the column tile is the last. -/
theorem hcond1_d : ∀ t : Fin cfg1.N, cond1_d (grid1.coords t) ↔ t.val % 8 = 7 :=
  (by decide +kernel : ∀ t : Fin grid1.N, cond1_d (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last column tile the output block is idle and not written back. -/
theorem idleAt1_3 : ∀ t : Fin cfg1.N, ¬cond1_d (grid1.coords t) → cfg1.idle 3 (grid1.coords t) = true := by decide +kernel
theorem noFlush1_3 : ∀ t : Fin cfg1.N, ¬cond1_d (grid1.coords t) → (cfg1.win 3).flush t = false := by decide +kernel
theorem liveAt1_3 : ∀ t : Fin cfg1.N, cond1_d (grid1.coords t) → cfg1.idle 3 (grid1.coords t) = false := by decide +kernel

/-! ## The staging and scratch memrefs -/

abbrev ms1_0 (t : Fin cfg1.N) : Memref sig .tc .vmem S4x512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x32x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x32 .f32 := win1_3.stage (cfg1.slots t 3)
abbrev hs1_3 (t : Fin cfg1.N) : (ms1_3 t).IsWhole := hstage1_3 ((cfg1.slots t 3).cast nbuf1_3)
/-- The two scratch operands: the projected embeddings (bf16) and the accumulator. -/
abbrev scM1_0 : Memref sig .tc .vmem S4x4096x32 .bf16 := Memref.whole cc1_scratch0
abbrev scM1_1 : Memref sig .tc .vmem S512x32 .f32 := Memref.whole cc1_scratch1
abbrev VS1_0 : View sig .tc .vmem S4x4096x32 .bf16 := scM1_0.view
abbrev VS1_1 : View sig .tc .vmem S512x32 .f32 := scM1_1.view
abbrev VO1_3 : View sig .tc .vmem S512x32 .f32 := (Memref.whole cc1_stg3_0 : Memref sig .tc .vmem S512x32 .f32).view

end Cert.KernelIdeal.Hand

end
-- ==== Proof.R1RunA.lean ====
/-
  Region 1, the first point (n = 0, e = 0): the projected embeddings emb · w_rᵀ are stored, relation by relation, into the first scratch, and the accumulator scratch is set to the tile's partial product.
-/
import proofs.«147766_g40561671143680_cont_8to1_b_159_3_alg».proof.Proof.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 8000000 in
/-- The body there, on whole memrefs: the adjacency block at `x0`, the embedding table at `x1`, the relation matrices at
    `x2`, both scratch buffers at anything; the output block handed back as found. The two scratch buffers end with the
    pieces the run finds. -/
noncomputable def kernelRun1_A (c : Dev nD) (i : grid1.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : cond1_a i) (hb : cond1_b i) (hc : ¬cond1_c i) (hd : ¬cond1_d i)
    (x0 : Vec F S4x512x512 .f32) (x1 : Vec F S4096x32 .f32) (x2 : Vec F S4x32x32 .f32) :
    Σ' (LS0 : List (View.Piece (Elt F) S4x4096x32 .bf16)), { LS1 : List (View.Piece (Elt F) S512x32 .f32) //
      ∀ (xi3 : Vec F S512x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__layer_kernel i arg2 harg2 arg3 harg3 arg4 harg4 arg5 harg5 arg6 harg6 arg7 harg7) K } := by
  refine ⟨?_, ?_, fun xi3 E K => ?run⟩
  case run =>
    simp only [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%dB, %fB, -, HB⟩, ⟨%dA, %fA, -, HA⟩, Hk⟩
    obtain rfl := harg2.eq_unread hf0; obtain rfl := harg3.eq_unread hf1; obtain rfl := harg4.eq_unread hf2
    obtain rfl := harg5.eq_unread hf3
    sl_exec_parts! (disch := first | exact ha | exact hb | exact hc | exact hd)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HB]; · iexists _; iexact HB
    iexists _; iexact HA

end Cert.KernelIdeal.Hand

end
-- ==== Proof.R1RunB.lean ====
/-
  Region 1, the middle column tiles (0 < e < 7): the tile's partial product is added to the accumulator
  scratch; nothing else is stored.
-/
import proofs.«147766_g40561671143680_cont_8to1_b_159_3_alg».proof.Proof.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle column tile, on whole memrefs: the adjacency block at `x0`, the projected embeddings at `xB`,
    the accumulator at `xA`; the other windows are handed back as found. The accumulator ends with the pieces the run finds. -/
noncomputable def kernelRun1_B (c : Dev nD) (i : grid1.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : ¬cond1_a i) (hb : ¬cond1_b i) (hc : cond1_c i) (hd : ¬cond1_d i)
    (x0 : Vec F S4x512x512 .f32) (xB : Vec F S4x4096x32 .bf16) (xA : Vec F S512x32 .f32) :
    { LS1 : List (View.Piece (Elt F) S512x32 .f32) //
      ∀ (xi1 : Vec F S4096x32 .f32) (xi2 : Vec F S4x32x32 .f32) (xi3 : Vec F S512x32 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xi3
            ∗ owns (c : Thread nD τ) arg6 fullShare xB ∗ owns (c : Thread nD τ) arg7 fullShare xA
            ∗ (iprop(owns (c : Thread nD τ) arg2 fullShare x0 ∗ owns (c : Thread nD τ) arg3 fullShare xi1 ∗ owns (c : Thread nD τ) arg4 fullShare xi2 ∗ owns (c : Thread nD τ) arg5 fullShare xi3
                ∗ owns (c : Thread nD τ) arg6 fullShare xB ∗ (∃ f, arg7.view.loc (c : Thread nD τ) ↦[arg7.view.set]{fullShare} arg7.view.writes (Elt F) f LS1)) -∗ K ⟨⟩))
          ⊢ wp frame (wpE (defs₀ (F := F)) Variants.none c none) E (cc1__layer_kernel i arg2 harg2 arg3 harg3 arg4 harg4 arg5 harg5 arg6 harg6 arg7 harg7) K } := by
  refine ⟨?_, fun xi1 xi2 xi3 E K => ?run⟩
  case run =>
    simp only [cc1__layer_kernel_eq_skeleton]; unfold cc1__layer_kernel_skel
    simp only [k1_part2_eq_skeleton]; unfold k1_part2_skel
    unfold owns
    iintro ⟨⟨%f0, %hf0, H0⟩, ⟨%f1, %hf1, H1⟩, ⟨%f2, %hf2, H2⟩, ⟨%f3, %hf3, H3⟩, ⟨%fB, %hfB, HB⟩, ⟨%fA, %hfA, HA⟩, Hk⟩
    obtain rfl := harg2.eq_unread hf0; obtain rfl := harg3.eq_unread hf1; obtain rfl := harg4.eq_unread hf2
    obtain rfl := harg5.eq_unread hf3; obtain rfl := harg6.eq_unread hfB; obtain rfl := harg7.eq_unread hfA
    sl_exec (disch := first | exact ha | exact hb | exact hc | exact hd)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HB]
    · iexists _; isplitr; · ipureintro; exact harg6.read_unread _
      iexact HB
    iexists _; iexact HA

end Cert.KernelIdeal.Hand

end
-- ==== Proof.R1RunC.lean ====
/-
  Region 1, the last column tile (e = 7): the partial product is added to the accumulator scratch, and the accumulator clamped at zero is stored into the output block.
-/
import proofs.«147766_g40561671143680_cont_8to1_b_159_3_alg».proof.Proof.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- The body there, on whole memrefs: the adjacency block at `x0`, the projected embeddings at `xB`, the accumulator at
    `xA`, the output block at anything; the other windows handed back as found. The accumulator and the output block end
    with the pieces the run finds. -/
noncomputable def kernelRun1_C (c : Dev nD) (i : grid1.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : ¬cond1_a i) (hb : ¬cond1_b i) (hc : cond1_c i) (hd : cond1_d i)
    (x0 : Vec F S4x512x512 .f32) (xB : Vec F S4x4096x32 .bf16) (xA : Vec F S512x32 .f32) :
    Σ' (L3 : List (View.Piece (Elt F) S512x32 .f32)), { LS1 : List (View.Piece (Elt F) S512x32 .f32) //
      ∀ (xi1 : Vec F S4096x32 .f32) (xi2 : Vec F S4x32x32 .f32) (E : Set ℕ) (K : PUnit → sProp 𝕄),
        iprop(owns (c : Thread nD τ) arg2 fullShare x0 ∗ owns (c : Thread nD τ) arg3 fullShare xi1 ∗ owns (c : Thread nD τ) arg4 fullShare xi2 ∗ (∃ d, owns (c : Thread nD τ) arg5 fullShare d)
            ∗ owns (c : Thread nD τ) arg6 fullShare xB ∗ owns (c : Thread nD τ) arg7 fullShare xA
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f L3)
                ∗ owns (c : Thread nD τ) arg6 fullShare xB ∗ (∃ f, arg7.view.loc (c : Thread nD τ) ↦[arg7.view.set]{fullShare} arg7.view.writes (Elt F) f LS1)) -∗ K ⟨⟩))
          ⊢ wp frame (wpE (defs₀ (F := F)) Variants.none c none) E (cc1__layer_kernel i arg2 harg2 arg3 harg3 arg4 harg4 arg5 harg5 arg6 harg6 arg7 harg7) K } := by
  refine ⟨?_, ?_, fun xi1 xi2 E K => ?run⟩
  case run =>
    simp only [cc1__layer_kernel_eq_skeleton]; unfold cc1__layer_kernel_skel
    simp only [k1_part2_eq_skeleton]; unfold k1_part2_skel
    unfold owns
    iintro ⟨⟨%f0, %hf0, H0⟩, ⟨%f1, %hf1, H1⟩, ⟨%f2, %hf2, H2⟩, ⟨%d3, %f3, -, H3⟩, ⟨%fB, %hfB, HB⟩, ⟨%fA, %hfA, HA⟩, Hk⟩
    obtain rfl := harg2.eq_unread hf0; obtain rfl := harg3.eq_unread hf1; obtain rfl := harg4.eq_unread hf2
    obtain rfl := harg6.eq_unread hfB; obtain rfl := harg7.eq_unread hfA
    sl_exec (disch := first | exact ha | exact hb | exact hc | exact hd)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HB]
    · iexists _; isplitr; · ipureintro; exact harg6.read_unread _
      iexact HB
    iexists _; iexact HA

end Cert.KernelIdeal.Hand

end
-- ==== Proof.R1RunD.lean ====
/-
  Region 1, the first column tile of a later row tile (n ≠ 0, e = 0): the accumulator scratch is set to the tile's partial product.
-/
import proofs.«147766_g40561671143680_cont_8to1_b_159_3_alg».proof.Proof.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- The body there, on whole memrefs: the adjacency block at `x0`, the projected embeddings at `xB`, the accumulator at
    anything; the other windows handed back as found. The accumulator ends with the pieces the run finds. -/
noncomputable def kernelRun1_D (c : Dev nD) (i : grid1.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : ¬cond1_a i) (hb : cond1_b i) (hc : ¬cond1_c i) (hd : ¬cond1_d i)
    (x0 : Vec F S4x512x512 .f32) (xB : Vec F S4x4096x32 .bf16) :
    { LS1 : List (View.Piece (Elt F) S512x32 .f32) //
      ∀ (xi1 : Vec F S4096x32 .f32) (xi2 : Vec F S4x32x32 .f32) (xi3 : Vec F S512x32 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xi3
            ∗ owns (c : Thread nD τ) arg6 fullShare xB ∗ (∃ d, owns (c : Thread nD τ) arg7 fullShare d)
            ∗ (iprop(owns (c : Thread nD τ) arg2 fullShare x0 ∗ owns (c : Thread nD τ) arg3 fullShare xi1 ∗ owns (c : Thread nD τ) arg4 fullShare xi2 ∗ owns (c : Thread nD τ) arg5 fullShare xi3
                ∗ owns (c : Thread nD τ) arg6 fullShare xB ∗ (∃ f, arg7.view.loc (c : Thread nD τ) ↦[arg7.view.set]{fullShare} arg7.view.writes (Elt F) f LS1)) -∗ K ⟨⟩))
          ⊢ wp frame (wpE (defs₀ (F := F)) Variants.none c none) E (cc1__layer_kernel i arg2 harg2 arg3 harg3 arg4 harg4 arg5 harg5 arg6 harg6 arg7 harg7) K } := by
  refine ⟨?_, fun xi1 xi2 xi3 E K => ?run⟩
  case run =>
    simp only [cc1__layer_kernel_eq_skeleton]; unfold cc1__layer_kernel_skel
    simp only [k1_part2_eq_skeleton]; unfold k1_part2_skel
    unfold owns
    iintro ⟨⟨%f0, %hf0, H0⟩, ⟨%f1, %hf1, H1⟩, ⟨%f2, %hf2, H2⟩, ⟨%f3, %hf3, H3⟩, ⟨%fB, %hfB, HB⟩, ⟨%dA, %fA, -, HA⟩, Hk⟩
    obtain rfl := harg2.eq_unread hf0; obtain rfl := harg3.eq_unread hf1; obtain rfl := harg4.eq_unread hf2
    obtain rfl := harg5.eq_unread hf3; obtain rfl := harg6.eq_unread hfB
    sl_exec (disch := first | exact ha | exact hb | exact hc | exact hd)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HB]
    · iexists _; isplitr; · ipureintro; exact harg6.read_unread _
      iexact HB
    iexists _; iexact HA

end Cert.KernelIdeal.Hand

end
-- ==== Proof.R1Frame.lean ====
/-
  Region 1 (layer 2): what the two scratch buffers and the output block hold after each grid point, the
  pipeline's proof data, and the body obligation.

  After point t = 8·n + e the first scratch holds the projected embeddings (stored at the first point, read ever
  after), the second the sum of the partial products of row tile n over the column tiles 0 … e; at e = 7 the output
  block is what the epilogue makes of that sum. Each is stated as the case's stores read back, over what the point
  before left.
-/
import proofs.«147766_g40561671143680_cont_8to1_b_159_3_alg».proof.Proof.R1RunA
import proofs.«147766_g40561671143680_cont_8to1_b_159_3_alg».proof.Proof.R1RunB
import proofs.«147766_g40561671143680_cont_8to1_b_159_3_alg».proof.Proof.R1RunC
import proofs.«147766_g40561671143680_cont_8to1_b_159_3_alg».proof.Proof.R1RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The four cases at a grid point -/

abbrev run1A (c : Dev nD) (t : Fin cfg1.N) (h : t.val = 0) (x0 : Vec F S4x512x512 .f32) (x1 : Vec F S4096x32 .f32) (x2 : Vec F S4x32x32 .f32) :=
  kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _)
    ((hcond1_a t).mpr h) ((hcond1_b t).mpr (by omega)) (fun hc => (hcond1_c t).mp hc (by omega)) (fun hd => by have := (hcond1_d t).mp hd; omega) x0 x1 x2
abbrev run1D (c : Dev nD) (t : Fin cfg1.N) (h0 : t.val ≠ 0) (hb : t.val % 8 = 0) (x0 : Vec F S4x512x512 .f32) (xB : Vec F S4x4096x32 .bf16) :=
  kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _)
    (fun ha => h0 ((hcond1_a t).mp ha)) ((hcond1_b t).mpr hb) (fun hc => (hcond1_c t).mp hc hb) (fun hd => by have := (hcond1_d t).mp hd; omega) x0 xB
abbrev run1B (c : Dev nD) (t : Fin cfg1.N) (hb : ¬ t.val % 8 = 0) (hd : ¬ t.val % 8 = 7) (x0 : Vec F S4x512x512 .f32) (xB : Vec F S4x4096x32 .bf16) (xA : Vec F S512x32 .f32) :=
  kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _)
    (fun ha => by have := (hcond1_a t).mp ha; omega) (fun h => hb ((hcond1_b t).mp h)) ((hcond1_c t).mpr hb) (fun h => hd ((hcond1_d t).mp h)) x0 xB xA
abbrev run1C (c : Dev nD) (t : Fin cfg1.N) (hd : t.val % 8 = 7) (x0 : Vec F S4x512x512 .f32) (xB : Vec F S4x4096x32 .bf16) (xA : Vec F S512x32 .f32) :=
  kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _)
    (fun ha => by have := (hcond1_a t).mp ha; omega) (fun h => by have := (hcond1_b t).mp h; omega) ((hcond1_c t).mpr (by omega)) ((hcond1_d t).mpr hd) x0 xB xA

/-! ## What each case leaves: its stores read back -/

/-- The first point: the projected embeddings, and the accumulator. -/
def sB1_A (c : Dev nD) (t : Fin cfg1.N) (h : t.val = 0) (x0 : Vec F S4x512x512 .f32) (x1 : Vec F S4096x32 .f32) (x2 : Vec F S4x32x32 .f32) : Vec F S4x4096x32 .bf16 :=
  VS1_0.read (Elt F) (VS1_0.writes (Elt F) VS1_0.junk (run1A c t h x0 x1 x2).1)
def sA1_A (c : Dev nD) (t : Fin cfg1.N) (h : t.val = 0) (x0 : Vec F S4x512x512 .f32) (x1 : Vec F S4096x32 .f32) (x2 : Vec F S4x32x32 .f32) : Vec F S512x32 .f32 :=
  VS1_1.read (Elt F) (VS1_1.writes (Elt F) VS1_1.junk (run1A c t h x0 x1 x2).2.1)
theorem scovB1_A (c : Dev nD) (t : Fin cfg1.N) (h : t.val = 0) (x0 : Vec F S4x512x512 .f32) (x1 : Vec F S4096x32 .f32) (x2 : Vec F S4x32x32 .f32) (y : S4x4096x32.Idx) :
    ∃ pc ∈ (run1A c t h x0 x1 x2).1, y ∈ pc.1.set :=
  View.cover_of_tiledL (run1A c t h x0 x1 x2).1 S1x4096x32.size (by sl_kernel_rfl) y
theorem scovA1_A (c : Dev nD) (t : Fin cfg1.N) (h : t.val = 0) (x0 : Vec F S4x512x512 .f32) (x1 : Vec F S4096x32 .f32) (x2 : Vec F S4x32x32 .f32) (y : S512x32.Idx) :
    ∃ pc ∈ (run1A c t h x0 x1 x2).2.1, y ∈ pc.1.set :=
  View.cover_of_tiledL (run1A c t h x0 x1 x2).2.1 S512x32.size (by sl_kernel_rfl) y

/-- The first column tile of a later row tile: the accumulator. -/
def sA1_D (c : Dev nD) (t : Fin cfg1.N) (h0 : t.val ≠ 0) (hb : t.val % 8 = 0) (x0 : Vec F S4x512x512 .f32) (xB : Vec F S4x4096x32 .bf16) : Vec F S512x32 .f32 :=
  VS1_1.read (Elt F) (VS1_1.writes (Elt F) VS1_1.junk (run1D c t h0 hb x0 xB).1)
theorem scovA1_D (c : Dev nD) (t : Fin cfg1.N) (h0 : t.val ≠ 0) (hb : t.val % 8 = 0) (x0 : Vec F S4x512x512 .f32) (xB : Vec F S4x4096x32 .bf16) (y : S512x32.Idx) :
    ∃ pc ∈ (run1D c t h0 hb x0 xB).1, y ∈ pc.1.set :=
  View.cover_of_tiledL (run1D c t h0 hb x0 xB).1 S512x32.size (by sl_kernel_rfl) y

/-- A middle column tile: the accumulator. -/
def sA1_B (c : Dev nD) (t : Fin cfg1.N) (hb : ¬ t.val % 8 = 0) (hd : ¬ t.val % 8 = 7) (x0 : Vec F S4x512x512 .f32) (xB : Vec F S4x4096x32 .bf16) (xA : Vec F S512x32 .f32) : Vec F S512x32 .f32 :=
  VS1_1.read (Elt F) (VS1_1.writes (Elt F) VS1_1.junk (run1B c t hb hd x0 xB xA).1)
theorem scovA1_B (c : Dev nD) (t : Fin cfg1.N) (hb : ¬ t.val % 8 = 0) (hd : ¬ t.val % 8 = 7) (x0 : Vec F S4x512x512 .f32) (xB : Vec F S4x4096x32 .bf16) (xA : Vec F S512x32 .f32) (y : S512x32.Idx) :
    ∃ pc ∈ (run1B c t hb hd x0 xB xA).1, y ∈ pc.1.set :=
  View.cover_of_tiledL (run1B c t hb hd x0 xB xA).1 S512x32.size (by sl_kernel_rfl) y

/-- The last column tile: the output block, and the accumulator. -/
def out1_C (c : Dev nD) (t : Fin cfg1.N) (hd : t.val % 8 = 7) (x0 : Vec F S4x512x512 .f32) (xB : Vec F S4x4096x32 .bf16) (xA : Vec F S512x32 .f32) : Vec F S512x32 .f32 :=
  VO1_3.read (Elt F) (VO1_3.writes (Elt F) VO1_3.junk (run1C c t hd x0 xB xA).1)
def sA1_C (c : Dev nD) (t : Fin cfg1.N) (hd : t.val % 8 = 7) (x0 : Vec F S4x512x512 .f32) (xB : Vec F S4x4096x32 .bf16) (xA : Vec F S512x32 .f32) : Vec F S512x32 .f32 :=
  VS1_1.read (Elt F) (VS1_1.writes (Elt F) VS1_1.junk (run1C c t hd x0 xB xA).2.1)
theorem cov1_C (c : Dev nD) (t : Fin cfg1.N) (hd : t.val % 8 = 7) (x0 : Vec F S4x512x512 .f32) (xB : Vec F S4x4096x32 .bf16) (xA : Vec F S512x32 .f32) (y : S512x32.Idx) :
    ∃ pc ∈ (run1C c t hd x0 xB xA).1, y ∈ pc.1.set :=
  View.cover_of_tiledL (run1C c t hd x0 xB xA).1 S512x32.size (by sl_kernel_rfl) y
theorem scovA1_C (c : Dev nD) (t : Fin cfg1.N) (hd : t.val % 8 = 7) (x0 : Vec F S4x512x512 .f32) (xB : Vec F S4x4096x32 .bf16) (xA : Vec F S512x32 .f32) (y : S512x32.Idx) :
    ∃ pc ∈ (run1C c t hd x0 xB xA).2.1, y ∈ pc.1.set :=
  View.cover_of_tiledL (run1C c t hd x0 xB xA).2.1 S512x32.size (by sl_kernel_rfl) y

/-- Where the output block is idle nothing is said of it: a placeholder nothing consults. -/
def junkO1 : Vec F S512x32 .f32 := VO1_3.read (Elt F) VO1_3.junk

/-! ## What the output block and the two scratch buffers hold after each point -/

/-- After position `n`: the output block, the projected embeddings, the accumulator. -/
def outsAt1 (c : Dev nD) : (n : ℕ) → n < cfg1.N → Vec F S512x32 .f32 × Vec F S4x4096x32 .bf16 × Vec F S512x32 .f32
  | 0, hn => (junkO1, sB1_A c ⟨0, hn⟩ rfl (iblk1 V c 0 ⟨0, hn⟩) (iblk1 V c 1 ⟨0, hn⟩) (iblk1 V c 2 ⟨0, hn⟩),
      sA1_A c ⟨0, hn⟩ rfl (iblk1 V c 0 ⟨0, hn⟩) (iblk1 V c 1 ⟨0, hn⟩) (iblk1 V c 2 ⟨0, hn⟩))
  | n + 1, hn =>
    if hb : (n + 1) % 8 = 0 then
      (junkO1, (outsAt1 c n (Nat.lt_of_succ_lt hn)).2.1,
        sA1_D c ⟨n + 1, hn⟩ (Nat.succ_ne_zero n) hb (iblk1 V c 0 ⟨n + 1, hn⟩) (outsAt1 c n (Nat.lt_of_succ_lt hn)).2.1)
    else if hd : (n + 1) % 8 = 7 then
      (out1_C c ⟨n + 1, hn⟩ hd (iblk1 V c 0 ⟨n + 1, hn⟩) (outsAt1 c n (Nat.lt_of_succ_lt hn)).2.1 (outsAt1 c n (Nat.lt_of_succ_lt hn)).2.2,
        (outsAt1 c n (Nat.lt_of_succ_lt hn)).2.1,
        sA1_C c ⟨n + 1, hn⟩ hd (iblk1 V c 0 ⟨n + 1, hn⟩) (outsAt1 c n (Nat.lt_of_succ_lt hn)).2.1 (outsAt1 c n (Nat.lt_of_succ_lt hn)).2.2)
    else
      (junkO1, (outsAt1 c n (Nat.lt_of_succ_lt hn)).2.1,
        sA1_B c ⟨n + 1, hn⟩ hb hd (iblk1 V c 0 ⟨n + 1, hn⟩) (outsAt1 c n (Nat.lt_of_succ_lt hn)).2.1 (outsAt1 c n (Nat.lt_of_succ_lt hn)).2.2)

theorem outsAt1_A (c : Dev nD) (t : Fin cfg1.N) (h : t.val = 0) :
    outsAt1 V c t.val t.isLt = (junkO1, sB1_A c t h (iblk1 V c 0 t) (iblk1 V c 1 t) (iblk1 V c 2 t), sA1_A c t h (iblk1 V c 0 t) (iblk1 V c 1 t) (iblk1 V c 2 t)) := by
  obtain ⟨n, hn⟩ := t
  cases n with
  | zero => rfl
  | succ n => exact absurd h (Nat.succ_ne_zero n)

theorem outsAt1_D (c : Dev nD) (t : Fin cfg1.N) (h0 : t.val ≠ 0) (hb : t.val % 8 = 0) :
    outsAt1 V c t.val t.isLt = (junkO1, (outsAt1 V c (t.val - 1) (Nat.lt_of_le_of_lt (Nat.sub_le _ _) t.isLt)).2.1,
      sA1_D c t h0 hb (iblk1 V c 0 t) (outsAt1 V c (t.val - 1) (Nat.lt_of_le_of_lt (Nat.sub_le _ _) t.isLt)).2.1) := by
  obtain ⟨n, hn⟩ := t
  cases n with
  | zero => exact absurd rfl h0
  | succ n => exact (dif_pos hb).trans rfl

theorem outsAt1_C (c : Dev nD) (t : Fin cfg1.N) (hd : t.val % 8 = 7) :
    outsAt1 V c t.val t.isLt = (out1_C c t hd (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2,
      (outsAt1 V c (t.val - 1) (Nat.lt_of_le_of_lt (Nat.sub_le _ _) t.isLt)).2.1,
      sA1_C c t hd (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd hd (show ¬ (0 % 8 = 7) by decide)
  | succ n => exact (dif_neg (show ¬ (n + 1) % 8 = 0 by (try dsimp only at hd); omega)).trans ((dif_pos hd).trans rfl)

theorem outsAt1_B (c : Dev nD) (t : Fin cfg1.N) (hb : ¬ t.val % 8 = 0) (hd : ¬ t.val % 8 = 7) :
    outsAt1 V c t.val t.isLt = (junkO1, (outsAt1 V c (t.val - 1) (Nat.lt_of_le_of_lt (Nat.sub_le _ _) t.isLt)).2.1,
      sA1_B c t hb hd (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd (Nat.zero_mod 8) hb
  | succ n => exact (dif_neg hb).trans ((dif_neg hd).trans rfl)

/-! ## The region invariant -/

/-- The core's scoped buffers that are neither a staging buffer of this region nor one of its two scratch buffers, each
    at some contents. -/
def rest1 (c : Dev nD) : sProp 𝕄 :=
  Pipeline.scopedRestBut (Ix := Unit) (Name := ℕ) (U := UR sig nD τ) (Lvl := ℕ) (Val := Elt F) spec1 c [cc1_scratch0, cc1_scratch1]

/-- The class invariant with this region's two scratch buffers named. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA rest1
  rw [Pipeline.scopedRest_split_of_list spec1 c [cc1_scratch0, cc1_scratch1] (by decide) (by decide)]
  simp only [scM1_0, scM1_1, owns_whole]; try rfl

/-- Before position `n`: at the start every scoped buffer at anything; afterwards the two scratch buffers at what the
    point before left. -/
def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1 ∗ owns (c : Thread nD τ) scM1_1 fullShare (outsAt1 V c n hn).2.2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare (outsAt1 V c n hn).2.1 ∗ owns (c : Thread nD τ) scM1_1 fullShare (outsAt1 V c n hn).2.2) ∗ rest1 c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.1 ∗ owns (c : Thread nD τ) scM1_1 fullShare (outsAt1 V c (n - 1) (by omega)).2.2) ∗ rest1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the input windows' memrefs hold their blocks; the point's position says which of the four cases
    it is in; the invariant hands the body the two scratch buffers at what the point before left (at anything at the first
    point) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases hz : t.val = 0
  · -- the first point
    have hnd : ¬cond1_d (grid1.coords t) := fun h => by have := (hcond1_d t).mp h; omega
    rw [Dat.leavesExact_idle (dat1 V c) 3 t (idleAt1_3 t hnd) (noFlush1_3 t hnd)]
    rw [outsAt1_A V c t hz]
    unfold sB1_A sA1_A; (try dsimp only)
    rw [PhiS1_castSucc V c t, PhiS1_zero V c _ _ hz, PhiA1_eq]
    iintro ⟨⟨⟨⟨HS0, HS1⟩, HR⟩, Hg⟩, Ho, ⟨%d0, H0⟩, ⟨%d1, H1⟩, ⟨%d2, H2⟩, ⟨%d3, H3⟩⟩
    iapply ((run1A c t hz (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scovB1_A c t hz _ _ _)
          unfold owns; iexists _; isplitr
          swap; · iexact HS1
          ipureintro; exact View.read_writes_of_cover _ _ _ _ _ (scovA1_A c t hz _ _ _)
        iexact HR
      iexact Hg
    isplitl [Ho]; · iexact Ho
    isplitl [H0]; · iexact H0
    isplitl [H1]; · iexact H1
    isplitl [H2]; · iexact H2
    iexists _; iexact H3
  · by_cases hb : t.val % 8 = 0
    · -- the first column tile of a later row tile
      have hnd : ¬cond1_d (grid1.coords t) := fun h => by have := (hcond1_d t).mp h; omega
      rw [Dat.leavesExact_idle (dat1 V c) 3 t (idleAt1_3 t hnd) (noFlush1_3 t hnd)]
      rw [outsAt1_D V c t hz hb]
      unfold sA1_D; (try dsimp only)
      rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩⟩
      iapply ((run1D c t hz hb (iblk1 V c 0 t) _).2 _ _ _ Set.univ _)
      isplitl [H0]; · iexact H0
      isplitl [H1]; · iexact H1
      isplitl [H2]; · iexact H2
      isplitl [H3]; · iexact H3
      isplitl [HS0]; · iexact HS0
      isplitl [HS1]; · iexists _; iexact HS1
      iintro ⟨H0, H1, H2, H3, HS0, ⟨%es1, HS1⟩⟩
      isplitl [HS0 HS1 HR Hg]
      · isplitl [HS0 HS1 HR]
        · isplitl [HS0 HS1]
          · isplitl [HS0]
            · iexact HS0
            unfold owns; iexists _; isplitr
            swap; · iexact HS1
            ipureintro; exact View.read_writes_of_cover _ _ _ _ _ (scovA1_D c t hz hb _ _)
          iexact HR
        iexact Hg
      isplitl [Ho]; · iexact Ho
      isplitl [H0]; · iexact H0
      isplitl [H1]; · iexact H1
      isplitl [H2]; · iexact H2
      iexists _; iexact H3
    · by_cases hd : t.val % 8 = 7
      · -- the last column tile
        rw [show (dat1 V c).leavesExact 3 t = owns (c : Thread nD τ) (ms1_3 t) fullShare ((dat1 V c).after 3 t) from by
          unfold Dat.leavesExact; rw [liveAt1_3 t ((hcond1_d t).mpr hd)], after1_3]
        rw [outsAt1_C V c t hd]
        unfold out1_C sA1_C; (try dsimp only)
        rw [PhiS1_castSucc V c t, PhiS1_pos V c _ _ hz]
        iintro ⟨⟨⟨⟨HS0, HS1⟩, HR⟩, Hg⟩, Ho, ⟨%d0, H0⟩, ⟨%d1, H1⟩, ⟨%d2, H2⟩, ⟨%d3, H3⟩⟩
        iapply ((run1C c t hd (iblk1 V c 0 t) _ _).2.2 _ _ Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, HS0, ⟨%es1, HS1⟩⟩
        isplitl [HS0 HS1 HR Hg]
        · isplitl [HS0 HS1 HR]
          · isplitl [HS0 HS1]
            · isplitl [HS0]
              · iexact HS0
              unfold owns; iexists _; isplitr
              swap; · iexact HS1
              ipureintro; exact View.read_writes_of_cover _ _ _ _ _ (scovA1_C c t hd _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cov1_C c t hd _ _ _)
      · -- a middle column tile
        have hnd : ¬cond1_d (grid1.coords t) := fun h => hd ((hcond1_d t).mp h)
        rw [Dat.leavesExact_idle (dat1 V c) 3 t (idleAt1_3 t hnd) (noFlush1_3 t hnd)]
        rw [outsAt1_B V c t hb hd]
        unfold sA1_B; (try dsimp only)
        rw [PhiS1_castSucc V c t, PhiS1_pos V c _ _ hz]
        iintro ⟨⟨⟨⟨HS0, HS1⟩, HR⟩, Hg⟩, Ho, ⟨%d0, H0⟩, ⟨%d1, H1⟩, ⟨%d2, H2⟩, ⟨%d3, H3⟩⟩
        iapply ((run1B c t hb hd (iblk1 V c 0 t) _ _).2 _ _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, ⟨%es1, HS1⟩⟩
        isplitl [HS0 HS1 HR Hg]
        · isplitl [HS0 HS1 HR]
          · isplitl [HS0 HS1]
            · isplitl [HS0]
              · iexact HS0
              unfold owns; iexists _; isplitr
              swap; · iexact HS1
              ipureintro; exact View.read_writes_of_cover _ _ _ _ _ (scovA1_B c t hb hd _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch buffers' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Region1

end Cert.KernelIdeal.Hand

end
-- ==== Proof.Run.lean ====
/-
  The run of @main: its two kernel regions one after the other, from the launch to the return.

  The buffer contents at each boundary are a fold from the launch memory: a region leaves its arrays at what its
  write-backs leave (the inputs as entered, the output's blocks folded in point order) and every other buffer as it
  was. Every weakly fair execution terminates, nothing faults, and every unscoped buffer ends at the last fold.
-/
import proofs.«147766_g40561671143680_cont_8to1_b_159_3_alg».proof.Proof.R0Frame
import proofs.«147766_g40561671143680_cont_8to1_b_159_3_alg».proof.Proof.R1Frame
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: region 0's entry. -/
abbrev W0 : Dev nD → Valuation τ sig (Elt F) := fun c b => m ((c : Dev nD), b)
abbrev V0 : (c : Dev nD) → (b : Ref sig .tc) → Buf (Elt F) ((c : Thread nD τ).loc b) := fun c b => W0 m c b
/-- At region 0's exit, which is region 1's entry. -/
def W2 (c : Dev nD) : Valuation τ sig (Elt F) :=
  Pipeline.withArrays spec0 c (W0 m c) fun w => (dat0 (V0 m) c).arrAt w cfg0.N
theorem W2_arr (c : Dev nD) (w : Fin cfg0.W) :
    W2 m c (Proc.devRef .tc (Pipeline.arrRef spec0 w)) = (dat0 (V0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V0 m) c).arrAt w cfg0.N = V2 m c (Pipeline.arrRef spec0 w) :=
  (W2_arr m c w).symm
theorem hrest0 (c : Dev nD) : ∀ b, b ∉ Finset.univ.image (Pipeline.arrRef spec0) → V2 m c b = V0 m c b :=
  fun b hb => W2_of_ne m c b fun w e => hb (Finset.mem_image.mpr ⟨w, Finset.mem_univ _, e⟩)
/-- At region 1's exit. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

/-! ### The arguments end as launched: a region reads each through an input window or bypasses it -/

theorem W2_main_arg0 (c : Dev nD) : W2 m c (Proc.devRef .tc main_arg0) = m ((c : Thread nD τ).loc main_arg0) :=
  (W2_arr m c 0).trans (((dat0 (V0 m) c).arrAt_in 0 rfl _).trans (A_eq0 (V0 m) c 0))
theorem W2_main_arg1 (c : Dev nD) : W2 m c (Proc.devRef .tc main_arg1) = m ((c : Thread nD τ).loc main_arg1) :=
  (W2_arr m c 1).trans (((dat0 (V0 m) c).arrAt_in 1 rfl _).trans (A_eq0 (V0 m) c 1))
theorem W2_main_arg2 (c : Dev nD) : W2 m c (Proc.devRef .tc main_arg2) = m ((c : Thread nD τ).loc main_arg2) :=
  (W2_arr m c 2).trans (((dat0 (V0 m) c).arrAt_in 2 rfl _).trans (A_eq0 (V0 m) c 2))
theorem W4_main_arg0 (c : Dev nD) : W4 m c (Proc.devRef .tc main_arg0) = m ((c : Thread nD τ).loc main_arg0) :=
  ((W4_arr m c 0).trans (((dat1 (V2 m) c).arrAt_in 0 rfl _).trans (A_eq1 (V2 m) c 0))).trans (W2_main_arg0 m c)
theorem W4_main_arg1 (c : Dev nD) : W4 m c (Proc.devRef .tc main_arg1) = m ((c : Thread nD τ).loc main_arg1) :=
  (W4_of_ne m c main_arg1 (by decide)).trans (W2_main_arg1 m c)
theorem W4_main_arg2 (c : Dev nD) : W4 m c (Proc.devRef .tc main_arg2) = m ((c : Thread nD τ).loc main_arg2) :=
  ((W4_arr m c 2).trans (((dat1 (V2 m) c).arrAt_in 2 rfl _).trans (A_eq1 (V2 m) c 2))).trans (W2_main_arg2 m c)
/-- The result is what region 1's write-backs leave. -/
theorem W4_main_v1 (c : Dev nD) : W4 m c (Proc.devRef .tc main_v1) = (dat1 (V2 m) c).arrAt 3 cfg1.N :=
  W4_arr m c 3
/-- Region 1 reads the first layer's result as region 0 left it. -/
theorem V2_main_v0 (c : Dev nD) : V2 m c main_v0 = (dat0 (V0 m) c).arrAt 3 cfg0.N :=
  W2_arr m c 3
theorem V2_main_arg0 (c : Dev nD) : V2 m c main_arg0 = m ((c : Thread nD τ).loc main_arg0) := W2_main_arg0 m c
theorem V2_main_arg2 (c : Dev nD) : V2 m c main_arg2 = m ((c : Thread nD τ).loc main_arg2) := W2_main_arg2 m c

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at the contents before it, left at the contents
    after it. Its arrays are split out of the unscoped buffers and put back at the exit contents; the generator register
    and the scoped rest go into the region's invariant and come out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) (Val := Elt F) spec0 c) : sProp 𝕄) ⊢ Pipeline.ΦA spec0 c := by
      unfold Pipeline.ΦA
      iintro ⟨Hp, -, Hr⟩
      isplitl [Hr]; · iexact Hr
      iexact Hp
    exact h.trans (hin0 (V0 m) c)
  hout c := by
    rw [Pipeline.ownSems0_none]
    have h : (Pipeline.ΦA spec0 c : sProp 𝕄) ⊢ iprop((∃ r, prngReg c r) ∗ BI.emp
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V0 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at the exit contents; the generator register
    and the scoped rest go into the region's invariant and come out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) (Val := Elt F) spec1 c) : sProp 𝕄) ⊢ Pipeline.ΦA spec1 c := by
      unfold Pipeline.ΦA
      iintro ⟨Hp, -, Hr⟩
      isplitl [Hr]; · iexact Hr
      iexact Hp
    exact h.trans (hin1 (V2 m) c)
  hout c := by
    rw [Pipeline.ownSems0_none]
    have h : (Pipeline.ΦA spec1 c : sProp 𝕄) ⊢ iprop((∃ r, prngReg c r) ∗ BI.emp
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V2 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every final
    state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

/-- The run with the result named: the second layer's output array at what region 1's write-backs leave. -/
theorem run_value : θ_run defs (onTc (τ := τ) (main (F := F))) ⟨m, fun _ => 0, ρ⟩ (fun r => ∀ c : Dev nD,
      r.2.mem ((c.tc : Thread nD τ).loc main_v1) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W4_main_v1 m c),
     (h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.KernelIdeal.Hand

end
-- ==== Proof.R0Pieces.lean ====
/-
  Region 0: what the accumulator and the output block hold after the cases that read the projected embeddings back
  (every point but the first), as the body's arithmetic over the loaded blocks: the adjacency block's four slabs, the
  matching four blocks of rows of the projected embeddings, and the accumulator.
-/
import proofs.«147766_g40561671143680_cont_8to1_b_159_3_alg».proof.Proof.R0RunB
import proofs.«147766_g40561671143680_cont_8to1_b_159_3_alg».proof.Proof.R0RunC
import proofs.«147766_g40561671143680_cont_8to1_b_159_3_alg».proof.Proof.R0RunD
import Idealize.ShloMosaic.Lib.Pipeline.Value

set_option maxRecDepth 16384

noncomputable section

namespace Cert.KernelIdeal.Hand.Blocks0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column tile's partial product from the adjacency block `x0` and the projected embeddings `xB`. -/
def part0 (i : grid0.Coords) (x0 : Vec F S4x512x512 .f32) (xB : Vec F S4x4096x32 .bf16) : FVec F S512x32 .f32 :=
  k0_pay1 (k0_pay10 (View.ld x0 (Rect.unit (s := S4x512x512) ![0, 0, 0] S1x512x512.size inb_S4x512x512_S1x512x512_0_0_0)) (View.ld xB (Rect.unit (s := S4x4096x32) (k0_off1 i) S1x512x32.size (k0_off1_inb i))) (View.ld x0 (Rect.unit (s := S4x512x512) ![1, 0, 0] S1x512x512.size inb_S4x512x512_S1x512x512_1_0_0)) (View.ld xB (Rect.unit (s := S4x4096x32) (k0_off2 i) S1x512x32.size (k0_off2_inb i))) (View.ld x0 (Rect.unit (s := S4x512x512) ![2, 0, 0] S1x512x512.size inb_S4x512x512_S1x512x512_2_0_0)) (View.ld xB (Rect.unit (s := S4x4096x32) (k0_off3 i) S1x512x32.size (k0_off3_inb i)))) (View.ld x0 (Rect.unit (s := S4x512x512) ![3, 0, 0] S1x512x512.size inb_S4x512x512_S1x512x512_3_0_0)) (View.ld xB (Rect.unit (s := S4x4096x32) (k0_off4 i) S1x512x32.size (k0_off4_inb i)))

/-- Setting the accumulator stores the partial product itself: the cast to the same shape is the identity. -/
theorem pay2_eq_pay1 (v30 : FVec F S512x32 .f32) (a : Vec F S1x512x512 .f32) (b : Vec F S1x512x32 .bf16) :
    k0_pay2 v30 a b = k0_pay1 v30 a b := by
  unfold k0_pay2
  exact shapeCast_self _ _

/-- Adding to the accumulator stores the accumulator plus the partial product. -/
theorem pay3_eq_addf (v30 : FVec F S512x32 .f32) (a : Vec F S1x512x512 .f32) (b : Vec F S1x512x32 .bf16) (acc : Vec F S512x32 .f32) :
    k0_pay3 v30 a b acc = addf acc (k0_pay1 v30 a b) := by
  unfold k0_pay3
  exact shapeCast_self _ _

/-- The first column tile of a later row tile leaves the partial product in the accumulator. -/
theorem sA0_D_eq (v : View sig .tc .vmem S512x32 .f32) (c : Dev nD) (i : grid0.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : ¬cond0_a i) (hb : cond0_b i) (hc : ¬cond0_c i) (hd : ¬cond0_d i)
    (x0 : Vec F S4x512x512 .f32) (xB : Vec F S4x4096x32 .bf16) :
    v.read (Elt F) (v.writes (Elt F) v.junk (kernelRun0_D c i arg2 harg2 arg3 harg3 arg4 harg4 arg5 harg5 arg6 harg6 arg7 harg7 ha hb hc hd x0 xB).1) = part0 i x0 xB := by
  have hz : (![0, 0] : Fin 2 → ℕ) = fun _ => 0 := by funext a; fin_cases a <;> rfl
  unfold part0
  rw [View.read_writes_eq_canon _ _ _ (View.cover_of_tiledL _ S512x32.size (by sl_kernel_rfl))]
  unfold kernelRun0_D
  dsimp only
  sl_unfold_words
  rw [View.canon_unit_zero hz]
  simp only [View.readAt_eq_ld, harg2.read_unread, harg6.read_unread, harg7.read_unread, View.ld_unit_zero (S := S512x32) hz, View.readCov_unit_zero (S := S512x32) _ hz]
  rw [pay2_eq_pay1]

/-- A middle column tile leaves the accumulator plus the partial product. -/
theorem sA0_B_eq (v : View sig .tc .vmem S512x32 .f32) (c : Dev nD) (i : grid0.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : ¬cond0_a i) (hb : ¬cond0_b i) (hc : cond0_c i) (hd : ¬cond0_d i)
    (x0 : Vec F S4x512x512 .f32) (xB : Vec F S4x4096x32 .bf16) (xA : Vec F S512x32 .f32) :
    v.read (Elt F) (v.writes (Elt F) v.junk (kernelRun0_B c i arg2 harg2 arg3 harg3 arg4 harg4 arg5 harg5 arg6 harg6 arg7 harg7 ha hb hc hd x0 xB xA).1) = addf xA (part0 i x0 xB) := by
  have hz : (![0, 0] : Fin 2 → ℕ) = fun _ => 0 := by funext a; fin_cases a <;> rfl
  unfold part0
  rw [View.read_writes_eq_canon _ _ _ (View.cover_of_tiledL _ S512x32.size (by sl_kernel_rfl))]
  unfold kernelRun0_B
  dsimp only
  sl_unfold_words
  rw [View.canon_unit_zero hz]
  simp only [View.readAt_eq_ld, harg2.read_unread, harg6.read_unread, harg7.read_unread, View.ld_unit_zero (S := S512x32) hz, View.readCov_unit_zero (S := S512x32) _ hz]
  rw [pay3_eq_addf]

/-- The last column tile leaves the accumulator plus the partial product, -/
theorem sA0_C_eq (v : View sig .tc .vmem S512x32 .f32) (c : Dev nD) (i : grid0.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : ¬cond0_a i) (hb : ¬cond0_b i) (hc : cond0_c i) (hd : cond0_d i)
    (x0 : Vec F S4x512x512 .f32) (xB : Vec F S4x4096x32 .bf16) (xA : Vec F S512x32 .f32) :
    v.read (Elt F) (v.writes (Elt F) v.junk (kernelRun0_C c i arg2 harg2 arg3 harg3 arg4 harg4 arg5 harg5 arg6 harg6 arg7 harg7 ha hb hc hd x0 xB xA).2.1) = addf xA (part0 i x0 xB) := by
  have hz : (![0, 0] : Fin 2 → ℕ) = fun _ => 0 := by funext a; fin_cases a <;> rfl
  unfold part0
  rw [View.read_writes_eq_canon _ _ _ (View.cover_of_tiledL _ S512x32.size (by sl_kernel_rfl))]
  unfold kernelRun0_C
  dsimp only
  sl_unfold_words
  rw [View.canon_unit_zero hz]
  simp only [View.readAt_eq_ld, harg2.read_unread, harg6.read_unread, harg7.read_unread, View.ld_unit_zero (S := S512x32) hz, View.readCov_unit_zero (S := S512x32) _ hz]
  rw [pay3_eq_addf]

/-- and in the output block the epilogue of that sum. -/
theorem out0_C_eq (v : View sig .tc .vmem S512x32 .f32) (c : Dev nD) (i : grid0.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : ¬cond0_a i) (hb : ¬cond0_b i) (hc : cond0_c i) (hd : cond0_d i)
    (x0 : Vec F S4x512x512 .f32) (xB : Vec F S4x4096x32 .bf16) (xA : Vec F S512x32 .f32) :
    v.read (Elt F) (v.writes (Elt F) v.junk (kernelRun0_C c i arg2 harg2 arg3 harg3 arg4 harg4 arg5 harg5 arg6 harg6 arg7 harg7 ha hb hc hd x0 xB xA).1) = k0_pay4 (addf xA (part0 i x0 xB)) := by
  have hz : (![0, 0] : Fin 2 → ℕ) = fun _ => 0 := by funext a; fin_cases a <;> rfl
  unfold part0
  rw [View.read_writes_eq_canon _ _ _ (View.cover_of_tiledL _ S512x32.size (by sl_kernel_rfl))]
  unfold kernelRun0_C
  dsimp only
  sl_unfold_words
  rw [View.canon_unit_zero hz]
  simp only [View.readAt_eq_ld, harg2.read_unread, harg6.read_unread, harg7.read_unread, View.ld_unit_zero (S := S512x32) hz, View.readCov_unit_zero (S := S512x32) _ hz]
  rw [pay3_eq_addf]

end Cert.KernelIdeal.Hand.Blocks0

end
-- ==== Proof.R0PieceA.lean ====
/-
  Region 0, the first point: the projected embeddings as the four slabs the body stores (relation r's slab is the
  embedding table times relation r's matrix transposed), and the accumulator as the first tile's partial product over
  them.
-/
import proofs.«147766_g40561671143680_cont_8to1_b_159_3_alg».proof.Proof.R0RunA
import proofs.«147766_g40561671143680_cont_8to1_b_159_3_alg».proof.Proof.R0Pieces
import Idealize.ShloMosaic.Lib.Pipeline.Value

set_option maxRecDepth 16384

noncomputable section

namespace Cert.KernelIdeal.Hand.Blocks0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four slab stores of the first point, last first, over the embedding table `x1` and the relation matrices `x2`. -/
def projL0 (x1 : Vec F S4096x32 .f32) (x2 : Vec F S4x32x32 .f32) : List (View.Piece (Elt F) S4x4096x32 .bf16) :=
  [⟨(Rect.unit (s := S4x4096x32) ![3, 0, 0] S1x4096x32.size inb_S4x4096x32_S1x4096x32_3_0_0), k0_pay9 (k0_pay8 x1 (View.ld x2 (Rect.unit (s := S4x32x32) ![3, 0, 0] S1x32x32.size inb_S4x32x32_S1x32x32_3_0_0)))⟩,
   ⟨(Rect.unit (s := S4x4096x32) ![2, 0, 0] S1x4096x32.size inb_S4x4096x32_S1x4096x32_2_0_0), k0_pay7 x1 (View.ld x2 (Rect.unit (s := S4x32x32) ![2, 0, 0] S1x32x32.size inb_S4x32x32_S1x32x32_2_0_0))⟩,
   ⟨(Rect.unit (s := S4x4096x32) ![1, 0, 0] S1x4096x32.size inb_S4x4096x32_S1x4096x32_1_0_0), k0_pay6 x1 (View.ld x2 (Rect.unit (s := S4x32x32) ![1, 0, 0] S1x32x32.size inb_S4x32x32_S1x32x32_1_0_0))⟩,
   ⟨(Rect.unit (s := S4x4096x32) ![0, 0, 0] S1x4096x32.size inb_S4x4096x32_S1x4096x32_0_0_0), k0_pay5 x1 (View.ld x2 (Rect.unit (s := S4x32x32) ![0, 0, 0] S1x32x32.size inb_S4x32x32_S1x32x32_0_0_0))⟩]

/-- The projected embeddings: what the four stores leave in the scratch. -/
def proj0 (x1 : Vec F S4096x32 .f32) (x2 : Vec F S4x32x32 .f32) : Vec F S4x4096x32 .bf16 := View.canon (projL0 x1 x2)

/-- The four slabs tile the scratch. -/
theorem projL0_cover (x1 : Vec F S4096x32 .f32) (x2 : Vec F S4x32x32 .f32) (y : S4x4096x32.Idx) :
    ∃ pc ∈ projL0 x1 x2, y ∈ pc.1.set := by
  unfold projL0
  exact View.cover_of_tiledL (s := S4x4096x32) _ S1x4096x32.size (by sl_kernel_rfl) y

/-- The first point leaves the projected embeddings in the first scratch, -/
theorem sB0_A_eq (v : View sig .tc .vmem S4x4096x32 .bf16) (c : Dev nD) (i : grid0.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : cond0_a i) (hb : cond0_b i) (hc : ¬cond0_c i) (hd : ¬cond0_d i)
    (x0 : Vec F S4x512x512 .f32) (x1 : Vec F S4096x32 .f32) (x2 : Vec F S4x32x32 .f32) :
    v.read (Elt F) (v.writes (Elt F) v.junk (kernelRun0_A c i arg2 harg2 arg3 harg3 arg4 harg4 arg5 harg5 arg6 harg6 arg7 harg7 ha hb hc hd x0 x1 x2).1) = proj0 x1 x2 := by
  have hz2 : (![0, 0] : Fin 2 → ℕ) = fun _ => 0 := by funext a; fin_cases a <;> rfl
  have hcov := projL0_cover x1 x2
  unfold proj0
  unfold projL0 at hcov ⊢
  unfold kernelRun0_A
  dsimp only
  sl_unfold_words
  simp only [View.readAt_eq_ld, harg3.read_unread, harg4.read_unread, View.ld_unit_zero (S := S4096x32) hz2]
  rw [View.read_writes_eq_canon _ _ _ hcov]

/-- and the first tile's partial product over them in the accumulator. -/
theorem sA0_A_eq (v : View sig .tc .vmem S512x32 .f32) (c : Dev nD) (i : grid0.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : cond0_a i) (hb : cond0_b i) (hc : ¬cond0_c i) (hd : ¬cond0_d i)
    (x0 : Vec F S4x512x512 .f32) (x1 : Vec F S4096x32 .f32) (x2 : Vec F S4x32x32 .f32) :
    v.read (Elt F) (v.writes (Elt F) v.junk (kernelRun0_A c i arg2 harg2 arg3 harg3 arg4 harg4 arg5 harg5 arg6 harg6 arg7 harg7 ha hb hc hd x0 x1 x2).2.1) = part0 i x0 (proj0 x1 x2) := by
  have hz2 : (![0, 0] : Fin 2 → ℕ) = fun _ => 0 := by funext a; fin_cases a <;> rfl
  have hz : (![0, 0] : Fin 2 → ℕ) = fun _ => 0 := hz2
  have hcov := projL0_cover x1 x2
  unfold part0 proj0
  unfold projL0 at hcov ⊢
  rw [View.read_writes_eq_canon _ _ _ (View.cover_of_tiledL _ S512x32.size (by sl_kernel_rfl))]
  unfold kernelRun0_A
  dsimp only
  sl_unfold_words
  rw [View.canon_unit_zero hz]
  simp only [View.readAt_eq_ld, harg2.read_unread, harg3.read_unread, harg4.read_unread, View.ld_unit_zero (S := S4096x32) hz2]
  simp only [View.read_writes_eq_canon _ _ _ hcov]
  rw [pay2_eq_pay1]

end Cert.KernelIdeal.Hand.Blocks0

end
-- ==== Proof.Spec.lean ====
/-
  The mathematics of the two programs, over the extended reals, with arrays as functions of their coordinates.

  One layer of the encoder maps an embedding table `emb` (4096 × 32) to
      relu ( Σ_r  adj_r · emb · w_rᵀ )
  where `adj` is 4 × 4096 × 4096 and `w` is 4 × 32 × 32.  The reference groups it as (adj_r · emb) · w_rᵀ summed
  over r (`layerR`).  The kernel groups it as adj_r · (emb · w_rᵀ): it first forms the projected embeddings
  `proj emb w r = emb · w_rᵀ`, then walks the 4096 columns of the adjacency in eight tiles of 512, forming for
  each tile the four relations' products added left to right (`tilePart`) and adding the tiles up left to right
  (`accK`), and clamps at zero (`layerK`).  Both programs apply the layer twice and then divide each row by
  the larger of its Euclidean norm and a fixed small constant (`nrm`).
-/
import Idealize.ShloMosaic.PureOps.Ideal
import Idealize.ShloMosaic.PureOps.Ideal.Laws

noncomputable section

open scoped BigOperators

namespace Cert.Spec

open Idealize.ShloMosaic

abbrev Adj := Fin 4 → Fin 4096 → Fin 4096 → EReal
abbrev Emb := Fin 4096 → Fin 32 → EReal
abbrev Rel := Fin 4 → Fin 32 → Fin 32 → EReal
abbrev Prj := Fin 4 → Fin 4096 → Fin 32 → EReal

/-- Column `k` of column tile `e`. -/
def col (e : Fin 8) (k : Fin 512) : Fin 4096 := ⟨512 * e.val + k.val, by omega⟩

/-- The projected embeddings: `emb · w_rᵀ`. -/
def proj (emb : Emb) (w : Rel) : Prj := fun r x d => ∑ j : Fin 32, emb x j * w r d j

/-- One relation's product over one column tile. -/
def tileDot (adj : Adj) (B : Prj) (r : Fin 4) (x : Fin 4096) (d : Fin 32) (e : Fin 8) : EReal :=
  ∑ k : Fin 512, adj r x (col e k) * B r (col e k) d

/-- The four relations' products over one column tile, added left to right. -/
def tilePart (adj : Adj) (B : Prj) (x : Fin 4096) (d : Fin 32) (e : Fin 8) : EReal :=
  ((tileDot adj B 0 x d e + tileDot adj B 1 x d e) + tileDot adj B 2 x d e) + tileDot adj B 3 x d e

/-- The column tiles up to and including `e`, added left to right. -/
def accK (adj : Adj) (B : Prj) (x : Fin 4096) (d : Fin 32) : (e : ℕ) → e < 8 → EReal
  | 0, _ => tilePart adj B x d 0
  | e + 1, h => accK adj B x d e (by omega) + tilePart adj B x d ⟨e + 1, h⟩

/-- One layer as the kernel groups it. -/
def layerK (adj : Adj) (emb : Emb) (w : Rel) : Emb := fun x d => max (accK adj (proj emb w) x d 7 (by decide)) 0

/-- One layer as the reference groups it. -/
def layerR (adj : Adj) (emb : Emb) (w : Rel) : Emb := fun x i =>
  max (∑ r : Fin 4, ∑ j : Fin 32, (∑ e : Fin 4096, adj r x e * emb e j) * w r i j) 0

/-- The small constant both programs clamp a row's norm at. -/
def eps : EReal := Ideal.ofBits .f32 0x2B8CBCCC#32

/-- Each row divided by the larger of its Euclidean norm and `eps`. -/
def nrm (a : Emb) : Emb := fun x d => Ideal.div (a x d) (max (Ideal.sqrt (∑ d' : Fin 32, a x d' * a x d')) eps)

/-- The whole kernel, and the whole reference. -/
def kernelFn (adj : Adj) (emb : Emb) (w : Rel) : Emb := nrm (layerK adj (layerK adj emb w) w)
def referenceFn (adj : Adj) (emb : Emb) (w : Rel) : Emb := nrm (layerR adj (layerR adj emb w) w)

end Cert.Spec

end
-- ==== Proof.K0Pay.lean ====
/-
  The arithmetic of region 0's kernel body, read at an index over the extended reals: each stored value as sums of
  products of the loaded values' entries.
-/
import proofs.«147766_g40561671143680_cont_8to1_b_159_3_alg».proof.Proof.Gen.KernelIdeal.Skeleton
import proofs.«147766_g40561671143680_cont_8to1_b_159_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay0

open Cert.KernelIdeal Cert.KernelIdeal.Gen
open Idealize.ShloMosaic Idealize.ShloMosaic.ValueIdx

/-! ## The two matrix products read at an index

The embedding table times a relation's matrix transposed contracts the second axis of both operands; a block of the
adjacency times a block of the projected embeddings contracts the left operand's second axis with the right operand's
first. In each, an operand's index at output index `(r, c)` and contraction index `k` is computed axis by axis. -/

theorem lhs_proj_0 (i : S4096x32.Idx) (q : dot_S4096x32_S32x32_S4096x32_1_1_0_0_n_n.contr.Idx) :
    (dot_S4096x32_S32x32_S4096x32_1_1_0_0_n_n.lhsIdx i q 0).val = (i 0).val := by
  unfold DotDims.lhsIdx
  rw [dif_neg (show ¬(0 : Fin S4096x32.rank) ∈ dot_S4096x32_S32x32_S4096x32_1_1_0_0_n_n.lhsBatch by decide), dif_pos (show (0 : Fin S4096x32.rank) ∈ dot_S4096x32_S32x32_S4096x32_1_1_0_0_n_n.lhsNonContracting by decide)]
  rfl
theorem lhs_proj_1 (i : S4096x32.Idx) (q : dot_S4096x32_S32x32_S4096x32_1_1_0_0_n_n.contr.Idx) :
    (dot_S4096x32_S32x32_S4096x32_1_1_0_0_n_n.lhsIdx i q 1).val = (q ⟨0, by decide⟩).val :=
  dot_S4096x32_S32x32_S4096x32_1_1_0_0_n_n.lhsIdx_val_of_single rfl i q
theorem rhs_proj_0 (i : S4096x32.Idx) (q : dot_S4096x32_S32x32_S4096x32_1_1_0_0_n_n.contr.Idx) :
    (dot_S4096x32_S32x32_S4096x32_1_1_0_0_n_n.rhsIdx i q 0).val = (i 1).val := by
  unfold DotDims.rhsIdx
  rw [dif_neg (show ¬(0 : Fin S32x32.rank) ∈ dot_S4096x32_S32x32_S4096x32_1_1_0_0_n_n.rhsBatch by decide), dif_pos (show (0 : Fin S32x32.rank) ∈ dot_S4096x32_S32x32_S4096x32_1_1_0_0_n_n.rhsNonContracting by decide)]
  rfl
theorem rhs_proj_1 (i : S4096x32.Idx) (q : dot_S4096x32_S32x32_S4096x32_1_1_0_0_n_n.contr.Idx) :
    (dot_S4096x32_S32x32_S4096x32_1_1_0_0_n_n.rhsIdx i q 1).val = (q ⟨0, by decide⟩).val :=
  dot_S4096x32_S32x32_S4096x32_1_1_0_0_n_n.rhsIdx_val_of_single rfl i q

/-- The product `l · rᵀ` into the zero splat, at `(x, d)`: the sum over `j` of `l (x, j) * r (d, j)`. -/
theorem matmul_proj_apply (l : FVec Ideal S4096x32 .f32) (r : FVec Ideal S32x32 .f32) (x : Fin 4096) (d : Fin 32) :
    matmul (φ₁ := .f32) (φ₂ := .f32) dot_S4096x32_S32x32_S4096x32_1_1_0_0_n_n none l r (constant (F := Ideal) S4096x32 .f32 0x00000000#32) (ix2 x d)
      = ∑ j : Fin 32, l (ix2 x j) * r (ix2 d j) := by
  refine (Ideal.matmul_constant_zero_apply (φ₁ := .f32) (φ₂ := .f32) dot_S4096x32_S32x32_S4096x32_1_1_0_0_n_n none l r (ix2 x d)).trans ?_
  rw [← Equiv.sum_comp (contrEquiv1 dot_S4096x32_S32x32_S4096x32_1_1_0_0_n_n 32 rfl rfl).symm]
  refine Finset.sum_congr rfl fun k _ => ?_
  have hk := contrEquiv1_symm_val dot_S4096x32_S32x32_S4096x32_1_1_0_0_n_n 32 rfl rfl k
  have el : dot_S4096x32_S32x32_S4096x32_1_1_0_0_n_n.lhsIdx (ix2 x d) ((contrEquiv1 dot_S4096x32_S32x32_S4096x32_1_1_0_0_n_n 32 rfl rfl).symm k) = ix2 x k := funext fun a => Fin.ext (by
    match a with
    | ⟨0, _⟩ => exact lhs_proj_0 _ _
    | ⟨1, _⟩ => exact (lhs_proj_1 _ _).trans hk)
  have er : dot_S4096x32_S32x32_S4096x32_1_1_0_0_n_n.rhsIdx (ix2 x d) ((contrEquiv1 dot_S4096x32_S32x32_S4096x32_1_1_0_0_n_n 32 rfl rfl).symm k) = ix2 d k := funext fun a => Fin.ext (by
    match a with
    | ⟨0, _⟩ => exact rhs_proj_0 _ _
    | ⟨1, _⟩ => exact (rhs_proj_1 _ _).trans hk)
  rw [el, er]

theorem lhs_tile_0 (i : S512x32.Idx) (q : dot_S512x512_S512x32_S512x32_1_0_0_1_n_n.contr.Idx) :
    (dot_S512x512_S512x32_S512x32_1_0_0_1_n_n.lhsIdx i q 0).val = (i 0).val := by
  unfold DotDims.lhsIdx
  rw [dif_neg (show ¬(0 : Fin S512x512.rank) ∈ dot_S512x512_S512x32_S512x32_1_0_0_1_n_n.lhsBatch by decide), dif_pos (show (0 : Fin S512x512.rank) ∈ dot_S512x512_S512x32_S512x32_1_0_0_1_n_n.lhsNonContracting by decide)]
  rfl
theorem lhs_tile_1 (i : S512x32.Idx) (q : dot_S512x512_S512x32_S512x32_1_0_0_1_n_n.contr.Idx) :
    (dot_S512x512_S512x32_S512x32_1_0_0_1_n_n.lhsIdx i q 1).val = (q ⟨0, by decide⟩).val :=
  dot_S512x512_S512x32_S512x32_1_0_0_1_n_n.lhsIdx_val_of_single rfl i q
theorem rhs_tile_0 (i : S512x32.Idx) (q : dot_S512x512_S512x32_S512x32_1_0_0_1_n_n.contr.Idx) :
    (dot_S512x512_S512x32_S512x32_1_0_0_1_n_n.rhsIdx i q 0).val = (q ⟨0, by decide⟩).val :=
  dot_S512x512_S512x32_S512x32_1_0_0_1_n_n.rhsIdx_val_of_single rfl i q
theorem rhs_tile_1 (i : S512x32.Idx) (q : dot_S512x512_S512x32_S512x32_1_0_0_1_n_n.contr.Idx) :
    (dot_S512x512_S512x32_S512x32_1_0_0_1_n_n.rhsIdx i q 1).val = (i 1).val := by
  unfold DotDims.rhsIdx
  rw [dif_neg (show ¬(1 : Fin S512x32.rank) ∈ dot_S512x512_S512x32_S512x32_1_0_0_1_n_n.rhsBatch by decide), dif_pos (show (1 : Fin S512x32.rank) ∈ dot_S512x512_S512x32_S512x32_1_0_0_1_n_n.rhsNonContracting by decide)]
  rfl

/-- The product `l · r` into the zero splat, at `(p, d)`: the sum over `k` of `l (p, k) * r (k, d)`. -/
theorem matmul_tile_apply (l : FVec Ideal S512x512 .bf16) (r : FVec Ideal S512x32 .bf16) (p : Fin 512) (d : Fin 32) :
    matmul (φ₁ := .bf16) (φ₂ := .bf16) dot_S512x512_S512x32_S512x32_1_0_0_1_n_n none l r (constant (F := Ideal) S512x32 .f32 0x00000000#32) (ix2 p d)
      = ∑ k : Fin 512, l (ix2 p k) * r (ix2 k d) := by
  refine (Ideal.matmul_constant_zero_apply (φ₁ := .bf16) (φ₂ := .bf16) dot_S512x512_S512x32_S512x32_1_0_0_1_n_n none l r (ix2 p d)).trans ?_
  rw [← Equiv.sum_comp (contrEquiv1 dot_S512x512_S512x32_S512x32_1_0_0_1_n_n 512 rfl rfl).symm]
  refine Finset.sum_congr rfl fun k _ => ?_
  have hk := contrEquiv1_symm_val dot_S512x512_S512x32_S512x32_1_0_0_1_n_n 512 rfl rfl k
  have el : dot_S512x512_S512x32_S512x32_1_0_0_1_n_n.lhsIdx (ix2 p d) ((contrEquiv1 dot_S512x512_S512x32_S512x32_1_0_0_1_n_n 512 rfl rfl).symm k) = ix2 p k := funext fun a => Fin.ext (by
    match a with
    | ⟨0, _⟩ => exact lhs_tile_0 _ _
    | ⟨1, _⟩ => exact (lhs_tile_1 _ _).trans hk)
  have er : dot_S512x512_S512x32_S512x32_1_0_0_1_n_n.rhsIdx (ix2 p d) ((contrEquiv1 dot_S512x512_S512x32_S512x32_1_0_0_1_n_n 512 rfl rfl).symm k) = ix2 k d := funext fun a => Fin.ext (by
    match a with
    | ⟨0, _⟩ => exact (rhs_tile_0 _ _).trans hk
    | ⟨1, _⟩ => exact rhs_tile_1 _ _)
  rw [el, er]

/-! ## The operand chains

A relation's matrix arrives as a 1 × 32 × 32 slab and is read as 32 × 32; an adjacency block arrives as a
1 × 512 × 512 slab, is read as 512 × 512 and changes float format (the identity over the extended reals); a block of
the projected embeddings arrives as a 1 × 512 × 32 slab and is read as 512 × 32. -/

/-- The projected embeddings before they are stored as a slab. -/
theorem proj_core (v49 : FVec Ideal S4096x32 .f32) (w : FVec Ideal S1x32x32 .f32) (h1 : S1x32x32.ShapeCasts S32x32)
    (hb : FTy.bits .bf16 < FTy.bits .f32) (x : Fin 4096) (d : Fin 32) :
    (truncf .bf16 (matmul (φ₁ := .f32) (φ₂ := .f32) dot_S4096x32_S32x32_S4096x32_1_1_0_0_n_n none v49 (shapeCast S32x32 w h1)
        (constant (F := Ideal) S4096x32 .f32 0x00000000#32)) hb : FVec Ideal S4096x32 .bf16) (ix2 x d)
      = ∑ j : Fin 32, v49 (ix2 x j) * w (ix3 (0 : Fin 1) d j) := by
  refine (truncf_apply (φ := .f32) (ψ := .bf16) _ hb (ix2 x d)).trans ?_
  refine (matmul_proj_apply v49 (shapeCast S32x32 w h1) x d).trans ?_
  exact Finset.sum_congr rfl fun j _ => congrArg (v49 (ix2 x j) * ·) (shapeCast_1ab_ab_apply w h1 d j)

/-- One relation's product over a column tile. -/
theorem dot_core (a : FVec Ideal S1x512x512 .f32) (b : FVec Ideal S1x512x32 .bf16) (h1 : S1x512x512.ShapeCasts S512x512)
    (h2 : S1x512x32.ShapeCasts S512x32) (hb : FTy.bits .bf16 < FTy.bits .f32) (p : Fin 512) (d : Fin 32) :
    matmul (φ₁ := .bf16) (φ₂ := .bf16) dot_S512x512_S512x32_S512x32_1_0_0_1_n_n none (truncf .bf16 (shapeCast S512x512 a h1) hb) (shapeCast S512x32 b h2)
        (constant (F := Ideal) S512x32 .f32 0x00000000#32) (ix2 p d)
      = ∑ k : Fin 512, a (ix3 (0 : Fin 1) p k) * b (ix3 (0 : Fin 1) k d) := by
  refine (matmul_tile_apply (truncf .bf16 (shapeCast S512x512 a h1) hb) (shapeCast S512x32 b h2) p d).trans ?_
  refine Finset.sum_congr rfl fun k _ => ?_
  have e1 : (truncf .bf16 (shapeCast S512x512 a h1) hb : FVec Ideal S512x512 .bf16) (ix2 p k) = a (ix3 (0 : Fin 1) p k) :=
    (truncf_apply (φ := .f32) (ψ := .bf16) (shapeCast S512x512 a h1) hb (ix2 p k)).trans (shapeCast_1ab_ab_apply a h1 p k)
  have e2 : shapeCast S512x32 b h2 (ix2 k d) = b (ix3 (0 : Fin 1) k d) := shapeCast_1ab_ab_apply b h2 k d
  rw [e1, e2]

/-- A value plus one relation's product over a column tile. -/
theorem pay1_apply (v30 : FVec Ideal S512x32 .f32) (a : Vec Ideal S1x512x512 .f32) (b : Vec Ideal S1x512x32 .bf16) (p : Fin 512) (d : Fin 32) :
    (k0_pay1 (F := Ideal) v30 a b) (ix2 p d) = v30 (ix2 p d) + ∑ k : Fin 512, a (ix3 (0 : Fin 1) p k) * b (ix3 (0 : Fin 1) k d) := by
  unfold k0_pay1
  refine (addf_apply (φ := .f32) _ _ _).trans ?_
  exact congrArg (v30 (ix2 p d) + ·) (dot_core a b _ _ _ p d)

/-- The first three relations' products over a column tile, added left to right. -/
theorem pay10_apply (a0 : Vec Ideal S1x512x512 .f32) (b0 : Vec Ideal S1x512x32 .bf16) (a1 : Vec Ideal S1x512x512 .f32) (b1 : Vec Ideal S1x512x32 .bf16)
    (a2 : Vec Ideal S1x512x512 .f32) (b2 : Vec Ideal S1x512x32 .bf16) (p : Fin 512) (d : Fin 32) :
    (k0_pay10 (F := Ideal) a0 b0 a1 b1 a2 b2) (ix2 p d)
      = ((∑ k : Fin 512, a0 (ix3 (0 : Fin 1) p k) * b0 (ix3 (0 : Fin 1) k d)) + (∑ k : Fin 512, a1 (ix3 (0 : Fin 1) p k) * b1 (ix3 (0 : Fin 1) k d)))
          + (∑ k : Fin 512, a2 (ix3 (0 : Fin 1) p k) * b2 (ix3 (0 : Fin 1) k d)) := by
  unfold k0_pay10
  refine (addf_apply (φ := .f32) _ _ _).trans ?_
  refine congrArg₂ (· + ·) ((addf_apply (φ := .f32) _ _ _).trans (congrArg₂ (· + ·) (dot_core a0 b0 _ _ _ p d) (dot_core a1 b1 _ _ _ p d)))
    (dot_core a2 b2 _ _ _ p d)

/-- A slab of the projected embeddings: the embedding table (4096 × 32) times one relation's matrix (a 1 × 32 × 32 slab)
    transposed; the changes of float format are the identity. -/
theorem slab0_apply (v49 : Vec Ideal S4096x32 .f32) (w : Vec Ideal S1x32x32 .f32) (x : Fin 4096) (d : Fin 32) :
    (k0_pay5 v49 w : FVec Ideal S1x4096x32 .bf16) (ix3 (0 : Fin 1) x d) = ∑ j : Fin 32, v49 (ix2 x j) * w (ix3 (0 : Fin 1) d j) := by
  unfold k0_pay5
  exact (shapeCast_ab_1ab_apply _ _ (0 : Fin 1) x d).trans (proj_core v49 w _ _ x d)
theorem slab1_apply (v49 : Vec Ideal S4096x32 .f32) (w : Vec Ideal S1x32x32 .f32) (x : Fin 4096) (d : Fin 32) :
    (k0_pay6 v49 w : FVec Ideal S1x4096x32 .bf16) (ix3 (0 : Fin 1) x d) = ∑ j : Fin 32, v49 (ix2 x j) * w (ix3 (0 : Fin 1) d j) := by
  unfold k0_pay6
  exact (shapeCast_ab_1ab_apply _ _ (0 : Fin 1) x d).trans (proj_core v49 w _ _ x d)
theorem slab2_apply (v49 : Vec Ideal S4096x32 .f32) (w : Vec Ideal S1x32x32 .f32) (x : Fin 4096) (d : Fin 32) :
    (k0_pay7 v49 w : FVec Ideal S1x4096x32 .bf16) (ix3 (0 : Fin 1) x d) = ∑ j : Fin 32, v49 (ix2 x j) * w (ix3 (0 : Fin 1) d j) := by
  unfold k0_pay7
  exact (shapeCast_ab_1ab_apply _ _ (0 : Fin 1) x d).trans (proj_core v49 w _ _ x d)
theorem slab3_apply (v49 : Vec Ideal S4096x32 .f32) (w : Vec Ideal S1x32x32 .f32) (x : Fin 4096) (d : Fin 32) :
    (k0_pay9 (k0_pay8 v49 w) : FVec Ideal S1x4096x32 .bf16) (ix3 (0 : Fin 1) x d) = ∑ j : Fin 32, v49 (ix2 x j) * w (ix3 (0 : Fin 1) d j) := by
  unfold k0_pay9 k0_pay8
  exact (shapeCast_ab_1ab_apply _ _ (0 : Fin 1) x d).trans (proj_core v49 w _ _ x d)

/-- A column tile's partial product: four relations' 512 × 512 adjacency blocks (1 × 512 × 512 slabs) times the matching
    512 × 32 blocks of the projected embeddings (1 × 512 × 32 slabs), added left to right. -/
theorem tile_apply (a0 : Vec Ideal S1x512x512 .f32) (b0 : Vec Ideal S1x512x32 .bf16) (a1 : Vec Ideal S1x512x512 .f32) (b1 : Vec Ideal S1x512x32 .bf16)
    (a2 : Vec Ideal S1x512x512 .f32) (b2 : Vec Ideal S1x512x32 .bf16) (a3 : Vec Ideal S1x512x512 .f32) (b3 : Vec Ideal S1x512x32 .bf16) (p : Fin 512) (d : Fin 32) :
    (k0_pay1 (F := Ideal) (k0_pay10 a0 b0 a1 b1 a2 b2) a3 b3) (ix2 p d)
      = (((∑ k : Fin 512, a0 (ix3 (0 : Fin 1) p k) * b0 (ix3 (0 : Fin 1) k d)) + (∑ k : Fin 512, a1 (ix3 (0 : Fin 1) p k) * b1 (ix3 (0 : Fin 1) k d)))
          + (∑ k : Fin 512, a2 (ix3 (0 : Fin 1) p k) * b2 (ix3 (0 : Fin 1) k d))) + (∑ k : Fin 512, a3 (ix3 (0 : Fin 1) p k) * b3 (ix3 (0 : Fin 1) k d)) := by
  rw [pay1_apply, pay10_apply]

/-- Setting the accumulator stores the partial product itself. -/
theorem pay2_eq (v30 : FVec Ideal S512x32 .f32) (a3 : Vec Ideal S1x512x512 .f32) (b3 : Vec Ideal S1x512x32 .bf16) :
    k0_pay2 (F := Ideal) v30 a3 b3 = k0_pay1 v30 a3 b3 := by
  unfold k0_pay2
  exact shapeCast_self _ _

/-- Adding to the accumulator stores the accumulator plus the partial product. -/
theorem pay3_apply (v30 : FVec Ideal S512x32 .f32) (a3 : Vec Ideal S1x512x512 .f32) (b3 : Vec Ideal S1x512x32 .bf16) (acc : Vec Ideal S512x32 .f32) (i : S512x32.Idx) :
    (k0_pay3 (F := Ideal) v30 a3 b3 acc) i = acc i + (k0_pay1 v30 a3 b3) i := by
  unfold k0_pay3
  exact congrFun (shapeCast_self _ _) i

/-- The epilogue: the accumulator clamped at zero. -/
theorem pay4_apply (a : Vec Ideal S512x32 .f32) (p : Fin 512) (d : Fin 32) :
    (k0_pay4 (F := Ideal) a) (ix2 p d) = max (a (ix2 p d)) 0 := by
  unfold k0_pay4
  show max (a (ix2 p d)) (Ideal.ofBits .f32 0x00000000#32) = max (a (ix2 p d)) 0
  rw [Ideal.ofBits_zero_f32]

end Cert.KernelIdeal.Pay0

end
-- ==== Proof.R0Index.lean ====
/-
  Region 0's arithmetic over whole blocks, read at an index over the extended reals: the projected embeddings as sums
  over the feature axis, the tile's partial product as sums over the tile's 512 columns.
-/
import proofs.«147766_g40561671143680_cont_8to1_b_159_3_alg».proof.Proof.R0PieceA
import proofs.«147766_g40561671143680_cont_8to1_b_159_3_alg».proof.Proof.K0Pay
import Idealize.ShloMosaic.Lib.ValueIdx

set_option maxRecDepth 16384

noncomputable section

namespace Cert.KernelIdeal.Hand.Blocks0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! ## Loads of one relation's slab, at an index -/

/-- A relation's 512 × 512 slab of the adjacency block, loaded with a unit axis in front, at (0, row, column). -/
theorem ld_adj (x0 : Vec Ideal S4x512x512 .f32) (off : Fin 3 → ℕ) (inb : ∀ a, off a + S1x512x512.size a ≤ S4x512x512.size a)
    (r : Fin 4) (h0 : off 0 = r.val) (h1 : off 1 = 0) (h2 : off 2 = 0) (p kk : Fin 512) :
    View.ld x0 (Rect.unit (s := S4x512x512) off S1x512x512.size inb) (ix3 (0 : Fin 1) p kk) = x0 (ix3 r p kk) :=
  congrArg x0 (funext fun a => Fin.ext (by
    match a with
    | ⟨0, _⟩ => show off 0 + 1 * 0 = r.val; omega
    | ⟨1, _⟩ => show off 1 + 1 * p.val = p.val; omega
    | ⟨2, _⟩ => show off 2 + 1 * kk.val = kk.val; omega))

/-- A relation's 32 × 32 matrix, loaded with a unit axis in front, at (0, output feature, input feature). -/
theorem ld_rel (x2 : Vec Ideal S4x32x32 .f32) (off : Fin 3 → ℕ) (inb : ∀ a, off a + S1x32x32.size a ≤ S4x32x32.size a)
    (r : Fin 4) (h0 : off 0 = r.val) (h1 : off 1 = 0) (h2 : off 2 = 0) (d j : Fin 32) :
    View.ld x2 (Rect.unit (s := S4x32x32) off S1x32x32.size inb) (ix3 (0 : Fin 1) d j) = x2 (ix3 r d j) :=
  congrArg x2 (funext fun a => Fin.ext (by
    match a with
    | ⟨0, _⟩ => show off 0 + 1 * 0 = r.val; omega
    | ⟨1, _⟩ => show off 1 + 1 * d.val = d.val; omega
    | ⟨2, _⟩ => show off 2 + 1 * j.val = j.val; omega))

/-- A block of 512 rows of a relation's projected embeddings, loaded with a unit axis in front, at (0, row of the block,
    feature): the block starting at row `512 * e` reads row `512 * e + kk`. -/
theorem ld_proj (xB : Vec Ideal S4x4096x32 .bf16) (off : Fin 3 → ℕ) (inb : ∀ a, off a + S1x512x32.size a ≤ S4x4096x32.size a)
    (r : Fin 4) (e : ℕ) (h0 : off 0 = r.val) (h1 : off 1 = 512 * e) (h2 : off 2 = 0) (kk : Fin 512) (d : Fin 32)
    (hlt : 512 * e + kk.val < 4096) :
    View.ld xB (Rect.unit (s := S4x4096x32) off S1x512x32.size inb) (ix3 (0 : Fin 1) kk d)
      = xB (ix3 r (⟨512 * e + kk.val, hlt⟩ : Fin 4096) d) :=
  congrArg xB (funext fun a => Fin.ext (by
    match a with
    | ⟨0, _⟩ => show off 0 + 1 * 0 = r.val; omega
    | ⟨1, _⟩ => show off 1 + 1 * kk.val = 512 * e + kk.val; omega
    | ⟨2, _⟩ => show off 2 + 1 * d.val = d.val; omega))

/-! ## One stored slab agrees with the projected embeddings as a function of the index -/

/-- A payload stored at relation `r`'s slab that is, at (0, row, feature), the row of the embedding table against the
    relation's matrix row, is at every index of the slab that sum read off the slab's place in the scratch. -/
theorem slab_piece (x1 : Vec Ideal S4096x32 .f32) (x2 : Vec Ideal S4x32x32 .f32) (r : Fin 4) (off : Fin 3 → ℕ)
    (inb : ∀ a, off a + S1x4096x32.size a ≤ S4x4096x32.size a) (h0 : off 0 = r.val) (h1 : off 1 = 0) (h2 : off 2 = 0)
    (w : Vec Ideal S1x4096x32 .bf16)
    (hw : ∀ (a : Fin 4096) (b : Fin 32), w (ix3 (0 : Fin 1) a b) = ∑ j : Fin 32, x1 (ix2 a j) * x2 (ix3 r b j))
    (x : (Rect.unit (s := S4x4096x32) off S1x4096x32.size inb).shape.Idx) :
    w x = (fun y : S4x4096x32.Idx => ∑ j : Fin 32, x1 (ix2 (y 1 : Fin 4096) j) * x2 (ix3 (y 0 : Fin 4) (y 2 : Fin 32) j))
        ((Rect.unit (s := S4x4096x32) off S1x4096x32.size inb).emb x) := by
  obtain ⟨u, a, b, rfl⟩ : ∃ (u : Fin 1) (a : Fin 4096) (b : Fin 32), x = ix3 u a b := ⟨x 0, x 1, x 2, eq_ix3 x⟩
  obtain rfl : u = 0 := Subsingleton.elim _ _
  have e0 : ((Rect.unit (s := S4x4096x32) off S1x4096x32.size inb).emb (ix3 (0 : Fin 1) a b) 0 : Fin 4) = r :=
    Fin.ext (by show off 0 + 1 * 0 = r.val; omega)
  have e1 : ((Rect.unit (s := S4x4096x32) off S1x4096x32.size inb).emb (ix3 (0 : Fin 1) a b) 1 : Fin 4096) = a :=
    Fin.ext (by show off 1 + 1 * a.val = a.val; omega)
  have e2 : ((Rect.unit (s := S4x4096x32) off S1x4096x32.size inb).emb (ix3 (0 : Fin 1) a b) 2 : Fin 32) = b :=
    Fin.ext (by show off 2 + 1 * b.val = b.val; omega)
  rw [hw]
  dsimp only
  rw [e0, e1, e2]

/-- The projected embeddings at (relation, row, feature): the row of the embedding table against the relation's matrix row. -/
theorem proj0_apply (x1 : Vec Ideal S4096x32 .f32) (x2 : Vec Ideal S4x32x32 .f32) (r : Fin 4) (x : Fin 4096) (d : Fin 32) :
    proj0 (F := Ideal) x1 x2 (ix3 r x d) = ∑ j : Fin 32, x1 (ix2 x j) * x2 (ix3 r d j) := by
  unfold proj0
  exact View.canon_apply_of_pieces (fun y : S4x4096x32.Idx => ∑ j : Fin 32, x1 (ix2 (y 1 : Fin 4096) j) * x2 (ix3 (y 0 : Fin 4) (y 2 : Fin 32) j))
    (projL0 x1 x2) (fun pc hpc => by
      simp only [projL0, List.mem_cons, List.mem_singleton, List.not_mem_nil, or_false] at hpc
      rcases hpc with rfl | rfl | rfl | rfl
      · exact slab_piece x1 x2 3 _ inb_S4x4096x32_S1x4096x32_3_0_0 rfl rfl rfl _ fun a b => (Pay0.slab3_apply x1 _ a b).trans
          (Finset.sum_congr rfl fun j _ => congrArg (x1 (ix2 a j) * ·) (ld_rel x2 _ inb_S4x32x32_S1x32x32_3_0_0 3 rfl rfl rfl b j))
      · exact slab_piece x1 x2 2 _ inb_S4x4096x32_S1x4096x32_2_0_0 rfl rfl rfl _ fun a b => (Pay0.slab2_apply x1 _ a b).trans
          (Finset.sum_congr rfl fun j _ => congrArg (x1 (ix2 a j) * ·) (ld_rel x2 _ inb_S4x32x32_S1x32x32_2_0_0 2 rfl rfl rfl b j))
      · exact slab_piece x1 x2 1 _ inb_S4x4096x32_S1x4096x32_1_0_0 rfl rfl rfl _ fun a b => (Pay0.slab1_apply x1 _ a b).trans
          (Finset.sum_congr rfl fun j _ => congrArg (x1 (ix2 a j) * ·) (ld_rel x2 _ inb_S4x32x32_S1x32x32_1_0_0 1 rfl rfl rfl b j))
      · exact slab_piece x1 x2 0 _ inb_S4x4096x32_S1x4096x32_0_0_0 rfl rfl rfl _ fun a b => (Pay0.slab0_apply x1 _ a b).trans
          (Finset.sum_congr rfl fun j _ => congrArg (x1 (ix2 a j) * ·) (ld_rel x2 _ inb_S4x32x32_S1x32x32_0_0_0 0 rfl rfl rfl b j)))
    (ix3 r x d) (projL0_cover x1 x2 (ix3 r x d))

/-- The tile's partial product at (row of the tile, feature): the four relations' sums over the tile's columns, where the
    tile's column `kk` is column `512 * e + kk` of the projected embeddings (`e` the point's second coordinate). -/
theorem part0_apply (i : grid0.Coords) (x0 : Vec Ideal S4x512x512 .f32) (xB : Vec Ideal S4x4096x32 .bf16) (p : Fin 512) (d : Fin 32) :
    part0 (F := Ideal) i x0 xB (ix2 p d)
      = (((∑ kk : Fin 512, x0 (ix3 (0 : Fin 4) p kk) * xB (ix3 (0 : Fin 4) (⟨512 * (i 1).val + kk.val, by have : (i 1).val < 8 := (i 1).isLt; have := kk.isLt; omega⟩ : Fin 4096) d)) + (∑ kk : Fin 512, x0 (ix3 (1 : Fin 4) p kk) * xB (ix3 (1 : Fin 4) (⟨512 * (i 1).val + kk.val, by have : (i 1).val < 8 := (i 1).isLt; have := kk.isLt; omega⟩ : Fin 4096) d))) + (∑ kk : Fin 512, x0 (ix3 (2 : Fin 4) p kk) * xB (ix3 (2 : Fin 4) (⟨512 * (i 1).val + kk.val, by have : (i 1).val < 8 := (i 1).isLt; have := kk.isLt; omega⟩ : Fin 4096) d))) + (∑ kk : Fin 512, x0 (ix3 (3 : Fin 4) p kk) * xB (ix3 (3 : Fin 4) (⟨512 * (i 1).val + kk.val, by have : (i 1).val < 8 := (i 1).isLt; have := kk.isLt; omega⟩ : Fin 4096) d)) := by
  unfold part0
  refine (Pay0.tile_apply _ _ _ _ _ _ _ _ p d).trans ?_
  refine congrArg₂ (· + ·) (congrArg₂ (· + ·) (congrArg₂ (· + ·) ?_ ?_) ?_) ?_
  · exact Finset.sum_congr rfl fun kk _ => congrArg₂ (· * ·) (ld_adj x0 _ inb_S4x512x512_S1x512x512_0_0_0 0 rfl rfl rfl p kk)
      (ld_proj xB _ (k0_off1_inb i) 0 (i 1).val (congrFun (k0_off1_eq i) 0) (congrFun (k0_off1_eq i) 1) (congrFun (k0_off1_eq i) 2) kk d _)
  · exact Finset.sum_congr rfl fun kk _ => congrArg₂ (· * ·) (ld_adj x0 _ inb_S4x512x512_S1x512x512_1_0_0 1 rfl rfl rfl p kk)
      (ld_proj xB _ (k0_off2_inb i) 1 (i 1).val (congrFun (k0_off2_eq i) 0) (congrFun (k0_off2_eq i) 1) (congrFun (k0_off2_eq i) 2) kk d _)
  · exact Finset.sum_congr rfl fun kk _ => congrArg₂ (· * ·) (ld_adj x0 _ inb_S4x512x512_S1x512x512_2_0_0 2 rfl rfl rfl p kk)
      (ld_proj xB _ (k0_off3_inb i) 2 (i 1).val (congrFun (k0_off3_eq i) 0) (congrFun (k0_off3_eq i) 1) (congrFun (k0_off3_eq i) 2) kk d _)
  · exact Finset.sum_congr rfl fun kk _ => congrArg₂ (· * ·) (ld_adj x0 _ inb_S4x512x512_S1x512x512_3_0_0 3 rfl rfl rfl p kk)
      (ld_proj xB _ (k0_off4_inb i) 3 (i 1).val (congrFun (k0_off4_eq i) 0) (congrFun (k0_off4_eq i) 1) (congrFun (k0_off4_eq i) 2) kk d _)

end Cert.KernelIdeal.Hand.Blocks0

end
-- ==== Proof.R0Blocks.lean ====
/-
  Region 0: each input window's block at a grid point, read at an index, is an entry of the window's array: the
  adjacency block at point t = 8·n + e is rows 512·n … and columns 512·e … of each relation's matrix; the embedding
  table's and the relation matrices' blocks are the whole arrays.
-/
import proofs.«147766_g40561671143680_cont_8to1_b_159_3_alg».proof.Proof.R0Frame
import Idealize.ShloMosaic.Lib.Pipeline.Value
import Idealize.ShloMosaic.Lib.ValueIdx

set_option maxRecDepth 16384

noncomputable section

namespace Cert.KernelIdeal.Hand.Blocks0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Blocks0

variable (V : (c : Dev nD) → (b : Ref sig .tc) → Buf (Elt F) ((c : Thread nD τ).loc b))

/-- The adjacency window's index map: point t reads block (0, t / 8, t % 8). -/
theorem idx0_0 : ∀ t : Fin cfg0.N, win0_0.index t 0 = 0 ∧ win0_0.index t 1 = t.val / 8 ∧ win0_0.index t 2 = t.val % 8 :=
  (by decide +kernel : ∀ t : Fin grid0.N, _)
/-- The embedding table's window reads block (0, 0) at every point. -/
theorem idx0_1 : ∀ t : Fin cfg0.N, win0_1.index t 0 = 0 ∧ win0_1.index t 1 = 0 :=
  (by decide +kernel : ∀ t : Fin grid0.N, _)
/-- The relation matrices' window reads block (0, 0, 0) at every point. -/
theorem idx0_2 : ∀ t : Fin cfg0.N, win0_2.index t 0 = 0 ∧ win0_2.index t 1 = 0 ∧ win0_2.index t 2 = 0 :=
  (by decide +kernel : ∀ t : Fin grid0.N, _)

/-- The grid is walked row tile by row tile: point t has coordinates (t / 8, t % 8). -/
theorem coords0 (t : Fin cfg0.N) : (grid0.coords t 0).val = t.val / 8 ∧ (grid0.coords t 1).val = t.val % 8 := by
  exact (by decide +kernel : ∀ t : Fin grid0.N, (grid0.coords t 0).val = t.val / 8 ∧ (grid0.coords t 1).val = t.val % 8) t

/-- The adjacency window's block. -/
theorem iblk0_0_apply (c : Dev nD) (t : Fin cfg0.N) (r : Fin 4) (p : Fin 512) (kk : Fin 512) :
    (iblk0 V c 0 t : Vec F S4x512x512 .f32) (ix3 r p kk)
      = (V c (Pipeline.arrRef spec0 0) : S4x4096x4096.Idx → Elt F .f32)
          (ix3 r (⟨512 * (t.val / 8) + p.val, by have := t.isLt; have := p.isLt; have h : cfg0.N = 64 := N_0; omega⟩ : Fin 4096)
            (⟨512 * (t.val % 8) + kk.val, by have := kk.isLt; omega⟩ : Fin 4096)) := by
  have hi := idx0_0 t
  unfold iblk0
  rw [View.read_apply]
  show (V c (Pipeline.arrRef spec0 0) : S4x4096x4096.Idx → Elt F .f32) _ = (V c (Pipeline.arrRef spec0 0) : S4x4096x4096.Idx → Elt F .f32) _
  refine congrArg (V c (Pipeline.arrRef spec0 0) : S4x4096x4096.Idx → Elt F .f32) ?_
  funext a
  apply Fin.ext
  match a with
  | ⟨0, _⟩ => show win0_0.index t 0 * 4 + 1 * r.val = r.val; rw [hi.1]; omega
  | ⟨1, _⟩ => show win0_0.index t 1 * 512 + 1 * p.val = 512 * (t.val / 8) + p.val; rw [hi.2.1]; omega
  | ⟨2, _⟩ => show win0_0.index t 2 * 512 + 1 * kk.val = 512 * (t.val % 8) + kk.val; rw [hi.2.2]; omega

/-- The embedding table's window holds the whole table at every point. -/
theorem iblk0_1_eq (c : Dev nD) (t : Fin cfg0.N) :
    (iblk0 V c 1 t : Vec F S4096x32 .f32) = (V c (Pipeline.arrRef spec0 1) : S4096x32.Idx → Elt F .f32) := by
  have hi := idx0_1 t
  refine funext fun (j : S4096x32.Idx) => ?_
  unfold iblk0
  rw [View.read_apply]
  show (V c (Pipeline.arrRef spec0 1) : S4096x32.Idx → Elt F .f32) _ = (V c (Pipeline.arrRef spec0 1) : S4096x32.Idx → Elt F .f32) j
  refine congrArg (V c (Pipeline.arrRef spec0 1) : S4096x32.Idx → Elt F .f32) ?_
  funext a
  apply Fin.ext
  match a with
  | ⟨0, _⟩ => show win0_1.index t 0 * 4096 + 1 * (j 0).val = (j 0).val; rw [hi.1]; omega
  | ⟨1, _⟩ => show win0_1.index t 1 * 32 + 1 * (j 1).val = (j 1).val; rw [hi.2]; omega

/-- The relation matrices' window holds all four at every point. -/
theorem iblk0_2_eq (c : Dev nD) (t : Fin cfg0.N) :
    (iblk0 V c 2 t : Vec F S4x32x32 .f32) = (V c (Pipeline.arrRef spec0 2) : S4x32x32.Idx → Elt F .f32) := by
  have hi := idx0_2 t
  refine funext fun (j : S4x32x32.Idx) => ?_
  unfold iblk0
  rw [View.read_apply]
  show (V c (Pipeline.arrRef spec0 2) : S4x32x32.Idx → Elt F .f32) _ = (V c (Pipeline.arrRef spec0 2) : S4x32x32.Idx → Elt F .f32) j
  refine congrArg (V c (Pipeline.arrRef spec0 2) : S4x32x32.Idx → Elt F .f32) ?_
  funext a
  apply Fin.ext
  match a with
  | ⟨0, _⟩ => show win0_2.index t 0 * 4 + 1 * (j 0).val = (j 0).val; rw [hi.1]; omega
  | ⟨1, _⟩ => show win0_2.index t 1 * 32 + 1 * (j 1).val = (j 1).val; rw [hi.2.1]; omega
  | ⟨2, _⟩ => show win0_2.index t 2 * 32 + 1 * (j 2).val = (j 2).val; rw [hi.2.2]; omega

end Blocks0

end Cert.KernelIdeal.Hand.Blocks0

end
-- ==== Proof.SpecArr.lean ====
/-
  The programs' arrays (functions of a shape's index) read as functions of their coordinates.
-/
import proofs.«147766_g40561671143680_cont_8to1_b_159_3_alg».proof.Proof.Spec
import Idealize.ShloMosaic.Lib.ValueIdx

noncomputable section

namespace Cert.Spec

open Idealize.ShloMosaic Idealize.ShloMosaic.ValueIdx

/-- The adjacency tensor by (relation, row, column). -/
def adjOf (x0 : (⟨3, ![4, 4096, 4096]⟩ : Shape).Idx → EReal) : Adj := fun r x e => x0 (ix3 r x e)
/-- The embedding table by (entity, feature). -/
def embOf (x1 : (⟨2, ![4096, 32]⟩ : Shape).Idx → EReal) : Emb := fun x j => x1 (ix2 x j)
/-- The relation matrices by (relation, output feature, input feature). -/
def relOf (x2 : (⟨3, ![4, 32, 32]⟩ : Shape).Idx → EReal) : Rel := fun r i j => x2 (ix3 r i j)
/-- And back: a function of (entity, feature) as an array. -/
def arrOf (a : Emb) : (⟨2, ![4096, 32]⟩ : Shape).Idx → EReal := fun i => a (i 0) (i 1)

theorem arrOf_ix2 (a : Emb) (x : Fin 4096) (d : Fin 32) : arrOf a (ix2 x d) = a x d := rfl
theorem embOf_arrOf (a : Emb) : embOf (arrOf a) = a := rfl

end Cert.Spec

end
-- ==== Proof.R0Acc.lean ====
/-
  Region 0 over the extended reals: the first scratch holds the projected embeddings from the first point on, and the
  second, after point t = 8·n + e, the partial products of row tile n summed over the column tiles 0 … e.
-/
import proofs.«147766_g40561671143680_cont_8to1_b_159_3_alg».proof.Proof.R0Frame
import proofs.«147766_g40561671143680_cont_8to1_b_159_3_alg».proof.Proof.R0Pieces
import proofs.«147766_g40561671143680_cont_8to1_b_159_3_alg».proof.Proof.R0PieceA
import proofs.«147766_g40561671143680_cont_8to1_b_159_3_alg».proof.Proof.R0Index
import proofs.«147766_g40561671143680_cont_8to1_b_159_3_alg».proof.Proof.R0Blocks
import proofs.«147766_g40561671143680_cont_8to1_b_159_3_alg».proof.Proof.SpecArr

set_option maxRecDepth 16384

noncomputable section

namespace Cert.KernelIdeal.Hand.Blocks0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx
open scoped BigOperators

section Acc0

variable (V : (c : Dev nD) → (b : Ref sig .tc) → Buf (Elt Ideal) ((c : Thread nD τ).loc b))

/-- The region's three input arrays, by coordinates: the adjacency tensor, the embedding table, the relation matrices. -/
def adj0 (c : Dev nD) : Cert.Spec.Adj := Cert.Spec.adjOf (V c (Pipeline.arrRef spec0 0) : S4x4096x4096.Idx → EReal)
def emb0 (c : Dev nD) : Cert.Spec.Emb := Cert.Spec.embOf (V c (Pipeline.arrRef spec0 1) : S4096x32.Idx → EReal)
def rel0 (c : Dev nD) : Cert.Spec.Rel := Cert.Spec.relOf (V c (Pipeline.arrRef spec0 2) : S4x32x32.Idx → EReal)

/-! ## The spec's accumulation, step by step -/

/-- The first column tile's partial product starts the accumulation. -/
theorem accK_start (A : Cert.Spec.Adj) (B : Cert.Spec.Prj) (d : Fin 32) (x : Fin 4096) (e : ℕ) (he : e < 8) (h0 : e = 0) :
    Cert.Spec.tilePart A B x d ⟨e, he⟩ = Cert.Spec.accK A B x d e he := by
  subst h0; rfl

/-- A later column tile's partial product is added to the accumulation so far. -/
theorem accK_step (A : Cert.Spec.Adj) (B : Cert.Spec.Prj) (d : Fin 32) (x x' : Fin 4096) (hx : x.val = x'.val)
    (e e' : ℕ) (he : e < 8) (he' : e' < 8) (hee : e' = e + 1) :
    Cert.Spec.accK A B x d e he + Cert.Spec.tilePart A B x' d ⟨e', he'⟩ = Cert.Spec.accK A B x' d e' he' := by
  obtain rfl : x = x' := Fin.ext hx
  subst hee
  rfl

/-! ## What each case leaves, as the body's arithmetic -/

theorem sB0_A_val (c : Dev nD) (t : Fin cfg0.N) (h : t.val = 0) (x0 : Vec Ideal S4x512x512 .f32) (x1 : Vec Ideal S4096x32 .f32) (x2 : Vec Ideal S4x32x32 .f32) :
    sB0_A (F := Ideal) c t h x0 x1 x2 = proj0 x1 x2 := by
  unfold sB0_A
  exact sB0_A_eq (F := Ideal) VS0_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ x0 x1 x2

theorem sA0_A_val (c : Dev nD) (t : Fin cfg0.N) (h : t.val = 0) (x0 : Vec Ideal S4x512x512 .f32) (x1 : Vec Ideal S4096x32 .f32) (x2 : Vec Ideal S4x32x32 .f32) :
    sA0_A (F := Ideal) c t h x0 x1 x2 = part0 (grid0.coords t) x0 (proj0 x1 x2) := by
  unfold sA0_A
  exact sA0_A_eq (F := Ideal) VS0_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ x0 x1 x2

theorem sA0_D_val (c : Dev nD) (t : Fin cfg0.N) (h0 : t.val ≠ 0) (hb : t.val % 8 = 0) (x0 : Vec Ideal S4x512x512 .f32) (xB : Vec Ideal S4x4096x32 .bf16) :
    sA0_D (F := Ideal) c t h0 hb x0 xB = part0 (grid0.coords t) x0 xB := by
  unfold sA0_D
  exact sA0_D_eq (F := Ideal) VS0_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ x0 xB

theorem sA0_B_val (c : Dev nD) (t : Fin cfg0.N) (hb : ¬ t.val % 8 = 0) (hd : ¬ t.val % 8 = 7) (x0 : Vec Ideal S4x512x512 .f32) (xB : Vec Ideal S4x4096x32 .bf16) (xA : Vec Ideal S512x32 .f32) :
    sA0_B (F := Ideal) c t hb hd x0 xB xA = addf xA (part0 (grid0.coords t) x0 xB) := by
  unfold sA0_B
  exact sA0_B_eq (F := Ideal) VS0_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ x0 xB xA

theorem sA0_C_val (c : Dev nD) (t : Fin cfg0.N) (hd : t.val % 8 = 7) (x0 : Vec Ideal S4x512x512 .f32) (xB : Vec Ideal S4x4096x32 .bf16) (xA : Vec Ideal S512x32 .f32) :
    sA0_C (F := Ideal) c t hd x0 xB xA = addf xA (part0 (grid0.coords t) x0 xB) := by
  unfold sA0_C
  exact sA0_C_eq (F := Ideal) VS0_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ x0 xB xA

theorem out0_C_val (c : Dev nD) (t : Fin cfg0.N) (hd : t.val % 8 = 7) (x0 : Vec Ideal S4x512x512 .f32) (xB : Vec Ideal S4x4096x32 .bf16) (xA : Vec Ideal S512x32 .f32) :
    out0_C (F := Ideal) c t hd x0 xB xA = k0_pay4 (addf xA (part0 (grid0.coords t) x0 xB)) := by
  unfold out0_C
  exact out0_C_eq (F := Ideal) VO0_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ x0 xB xA

/-! ## From one point to the next -/

/-- The first scratch is not touched after the first point. -/
theorem outsAt0_succ_B (c : Dev nD) (n : ℕ) (hn : n + 1 < cfg0.N) :
    (outsAt0 V c (n + 1) hn).2.1 = (outsAt0 V c n (Nat.lt_of_succ_lt hn)).2.1 := by
  rw [outsAt0]
  split_ifs <;> rfl

theorem outsAt0_zero_B (c : Dev nD) (hn : 0 < cfg0.N) :
    (outsAt0 V c 0 hn).2.1 = sB0_A c ⟨0, hn⟩ rfl (iblk0 V c 0 ⟨0, hn⟩) (iblk0 V c 1 ⟨0, hn⟩) (iblk0 V c 2 ⟨0, hn⟩) := by
  rw [outsAt0]

theorem outsAt0_zero_A (c : Dev nD) (hn : 0 < cfg0.N) :
    (outsAt0 V c 0 hn).2.2 = sA0_A c ⟨0, hn⟩ rfl (iblk0 V c 0 ⟨0, hn⟩) (iblk0 V c 1 ⟨0, hn⟩) (iblk0 V c 2 ⟨0, hn⟩) := by
  rw [outsAt0]

theorem outsAt0_succ_A_first (c : Dev nD) (n : ℕ) (hn : n + 1 < cfg0.N) (hb : (n + 1) % 8 = 0) :
    (outsAt0 V c (n + 1) hn).2.2
      = sA0_D c ⟨n + 1, hn⟩ (Nat.succ_ne_zero n) hb (iblk0 V c 0 ⟨n + 1, hn⟩) (outsAt0 V c n (Nat.lt_of_succ_lt hn)).2.1 := by
  rw [outsAt0, dif_pos hb]

theorem outsAt0_succ_A_last (c : Dev nD) (n : ℕ) (hn : n + 1 < cfg0.N) (hb : ¬ (n + 1) % 8 = 0) (hd : (n + 1) % 8 = 7) :
    (outsAt0 V c (n + 1) hn).2.2
      = sA0_C c ⟨n + 1, hn⟩ hd (iblk0 V c 0 ⟨n + 1, hn⟩) (outsAt0 V c n (Nat.lt_of_succ_lt hn)).2.1 (outsAt0 V c n (Nat.lt_of_succ_lt hn)).2.2 := by
  rw [outsAt0, dif_neg hb, dif_pos hd]

theorem outsAt0_succ_A_mid (c : Dev nD) (n : ℕ) (hn : n + 1 < cfg0.N) (hb : ¬ (n + 1) % 8 = 0) (hd : ¬ (n + 1) % 8 = 7) :
    (outsAt0 V c (n + 1) hn).2.2
      = sA0_B c ⟨n + 1, hn⟩ hb hd (iblk0 V c 0 ⟨n + 1, hn⟩) (outsAt0 V c n (Nat.lt_of_succ_lt hn)).2.1 (outsAt0 V c n (Nat.lt_of_succ_lt hn)).2.2 := by
  rw [outsAt0, dif_neg hb, dif_neg hd]

/-! ## The projected embeddings -/

/-- The stored projected embeddings are the spec's, entry by entry. -/
theorem proj0_spec (c : Dev nD) (t : Fin cfg0.N) (r : Fin 4) (x : Fin 4096) (d : Fin 32) :
    proj0 (F := Ideal) (iblk0 V c 1 t) (iblk0 V c 2 t) (ix3 r x d) = Cert.Spec.proj (emb0 V c) (rel0 V c) r x d := by
  rw [proj0_apply, iblk0_1_eq, iblk0_2_eq]
  rfl

/-- After every point the first scratch holds what the first point stored. -/
theorem scratchB0_eq (c : Dev nD) (h0 : 0 < cfg0.N) : ∀ (n : ℕ) (hn : n < cfg0.N),
    (outsAt0 V c n hn).2.1 = proj0 (F := Ideal) (iblk0 V c 1 ⟨0, h0⟩) (iblk0 V c 2 ⟨0, h0⟩)
  | 0, hn => (outsAt0_zero_B V c hn).trans (sB0_A_val c ⟨0, hn⟩ rfl _ _ _)
  | n + 1, hn => (outsAt0_succ_B V c n hn).trans (scratchB0_eq c h0 n (Nat.lt_of_succ_lt hn))

/-- After every point the first scratch holds the projected embeddings. -/
theorem scratchB0 (c : Dev nD) (n : ℕ) (hn : n < cfg0.N) (r : Fin 4) (x : Fin 4096) (d : Fin 32) :
    ((outsAt0 V c n hn).2.1 : S4x4096x32.Idx → EReal) (ix3 r x d) = Cert.Spec.proj (emb0 V c) (rel0 V c) r x d := by
  have h0 : 0 < cfg0.N := Nat.lt_of_le_of_lt (Nat.zero_le n) hn
  rw [scratchB0_eq V c h0 n hn]
  exact proj0_spec V c ⟨0, h0⟩ r x d

/-! ## The tile's partial product is the spec's -/

/-- The adjacency block at point t, entry by entry: rows 512·(t / 8) … and columns 512·(t % 8) … of each relation's matrix. -/
theorem iblk0_adj (c : Dev nD) (t : Fin cfg0.N) (r : Fin 4) (p kk : Fin 512)
    (h1 : 512 * (t.val / 8) + p.val < 4096) (h2 : 512 * (t.val % 8) + kk.val < 4096) :
    (iblk0 V c 0 t : Vec Ideal S4x512x512 .f32) (ix3 r p kk)
      = adj0 V c r ⟨512 * (t.val / 8) + p.val, h1⟩ ⟨512 * (t.val % 8) + kk.val, h2⟩ :=
  iblk0_0_apply V c t r p kk

/-- At point t the body's partial product, over an adjacency block and projected embeddings that are the spec's, is the
    spec's partial product of row 512·(t / 8) + p over column tile t % 8. -/
theorem part_at (c : Dev nD) (t : Fin cfg0.N) (x0 : Vec Ideal S4x512x512 .f32)
    (hx0 : ∀ (r : Fin 4) (p kk : Fin 512) (h1 : 512 * (t.val / 8) + p.val < 4096) (h2 : 512 * (t.val % 8) + kk.val < 4096),
      x0 (ix3 r p kk) = adj0 V c r ⟨512 * (t.val / 8) + p.val, h1⟩ ⟨512 * (t.val % 8) + kk.val, h2⟩)
    (xB : Vec Ideal S4x4096x32 .bf16)
    (hxB : ∀ (r : Fin 4) (x : Fin 4096) (d : Fin 32), xB (ix3 r x d) = Cert.Spec.proj (emb0 V c) (rel0 V c) r x d)
    (p : Fin 512) (d : Fin 32) (hlt : 512 * (t.val / 8) + p.val < 4096) (he : t.val % 8 < 8) :
    part0 (F := Ideal) (grid0.coords t) x0 xB (ix2 p d)
      = Cert.Spec.tilePart (adj0 V c) (Cert.Spec.proj (emb0 V c) (rel0 V c)) ⟨512 * (t.val / 8) + p.val, hlt⟩ d ⟨t.val % 8, he⟩ := by
  have hc := coords0 t
  have hterm : ∀ (r : Fin 4) (kk : Fin 512),
      x0 (ix3 r p kk)
          * xB (ix3 r (⟨512 * (grid0.coords t 1).val + kk.val, by have : (grid0.coords t 1).val < 8 := (grid0.coords t 1).isLt; have := kk.isLt; omega⟩ : Fin 4096) d)
        = adj0 V c r ⟨512 * (t.val / 8) + p.val, hlt⟩ (Cert.Spec.col ⟨t.val % 8, he⟩ kk)
          * Cert.Spec.proj (emb0 V c) (rel0 V c) r (Cert.Spec.col ⟨t.val % 8, he⟩ kk) d := by
    intro r kk
    have hcol : (⟨512 * (grid0.coords t 1).val + kk.val, by have : (grid0.coords t 1).val < 8 := (grid0.coords t 1).isLt; have := kk.isLt; omega⟩ : Fin 4096)
        = Cert.Spec.col ⟨t.val % 8, he⟩ kk := Fin.ext (by
      show 512 * (grid0.coords t 1).val + kk.val = 512 * (t.val % 8) + kk.val
      rw [hc.2])
    rw [hx0 r p kk hlt (by have := kk.isLt; omega), hxB, hcol]
    rfl
  rw [part0_apply]
  unfold Cert.Spec.tilePart Cert.Spec.tileDot
  refine congrArg₂ (· + ·) (congrArg₂ (· + ·) (congrArg₂ (· + ·) ?_ ?_) ?_) ?_
  · exact Finset.sum_congr rfl fun kk _ => hterm 0 kk
  · exact Finset.sum_congr rfl fun kk _ => hterm 1 kk
  · exact Finset.sum_congr rfl fun kk _ => hterm 2 kk
  · exact Finset.sum_congr rfl fun kk _ => hterm 3 kk

/-! ## The accumulator -/

/-- After position n the accumulator holds row tile n / 8's partial products summed over the column tiles 0 … n % 8. -/
theorem acc0_at (c : Dev nD) : ∀ (n : ℕ) (hn : n < cfg0.N) (p : Fin 512) (d : Fin 32) (hlt : 512 * (n / 8) + p.val < 4096) (he : n % 8 < 8),
    ((outsAt0 V c n hn).2.2 : S512x32.Idx → EReal) (ix2 p d)
      = Cert.Spec.accK (adj0 V c) (Cert.Spec.proj (emb0 V c) (rel0 V c)) ⟨512 * (n / 8) + p.val, hlt⟩ d (n % 8) he
  | 0, hn, p, d, hlt, he => by
    rw [outsAt0_zero_A V c hn, sA0_A_val]
    refine (part_at V c ⟨0, hn⟩ _ (iblk0_adj V c ⟨0, hn⟩) _ (proj0_spec V c ⟨0, hn⟩) p d hlt he).trans ?_
    exact accK_start _ _ d _ _ he rfl
  | n + 1, hn, p, d, hlt, he => by
    have hN : cfg0.N = 64 := N_0
    have hxB := scratchB0 V c n (Nat.lt_of_succ_lt hn)
    by_cases hb : (n + 1) % 8 = 0
    · rw [outsAt0_succ_A_first V c n hn hb, sA0_D_val]
      refine (part_at V c ⟨n + 1, hn⟩ _ (iblk0_adj V c ⟨n + 1, hn⟩) _ hxB p d hlt he).trans ?_
      exact accK_start _ _ d _ _ he hb
    · have hlt' : 512 * (n / 8) + p.val < 4096 := by have := p.isLt; omega
      have he' : n % 8 < 8 := Nat.mod_lt _ (by decide)
      have ih := acc0_at c n (Nat.lt_of_succ_lt hn) p d hlt' he'
      have hstep := accK_step (adj0 V c) (Cert.Spec.proj (emb0 V c) (rel0 V c)) d
        ⟨512 * (n / 8) + p.val, hlt'⟩ ⟨512 * ((n + 1) / 8) + p.val, hlt⟩ (by show 512 * (n / 8) + p.val = 512 * ((n + 1) / 8) + p.val; omega)
        (n % 8) ((n + 1) % 8) he' he (by omega)
      have hpart := part_at V c ⟨n + 1, hn⟩ _ (iblk0_adj V c ⟨n + 1, hn⟩) _ hxB p d hlt he
      by_cases hd : (n + 1) % 8 = 7
      · rw [outsAt0_succ_A_last V c n hn hb hd, sA0_C_val]
        refine (addf_apply (φ := .f32) _ _ _).trans ?_
        rw [ih, hpart]
        exact hstep
      · rw [outsAt0_succ_A_mid V c n hn hb hd, sA0_B_val]
        refine (addf_apply (φ := .f32) _ _ _).trans ?_
        rw [ih, hpart]
        exact hstep

/-- After point t = 8·n + e the accumulator holds row tile n's partial products summed over the column tiles 0 … e. -/
theorem acc0 (c : Dev nD) (t : Fin cfg0.N) (p : Fin 512) (d : Fin 32) :
    ((outsAt0 V c t.val t.isLt).2.2 : S512x32.Idx → EReal) (ix2 p d)
      = Cert.Spec.accK (adj0 V c) (Cert.Spec.proj (emb0 V c) (rel0 V c))
          (⟨512 * (t.val / 8) + p.val, by have := t.isLt; have := p.isLt; have h : cfg0.N = 64 := N_0; omega⟩ : Fin 4096) d (t.val % 8) (Nat.mod_lt _ (by decide)) := by
  exact acc0_at V c t.val t.isLt p d _ _

/-- At the last column tile the output block holds the body's epilogue of the accumulator. -/
theorem outBlock0 (c : Dev nD) (t : Fin cfg0.N) (hd : t.val % 8 = 7) :
    (outsAt0 V c t.val t.isLt).1 = k0_pay4 (F := Ideal) (outsAt0 V c t.val t.isLt).2.2 := by
  rw [outsAt0_C V c t hd]
  dsimp only
  rw [out0_C_val, sA0_C_val]

end Acc0

end Cert.KernelIdeal.Hand.Blocks0

end
-- ==== Proof.R1Pieces.lean ====
/-
  Region 1: what the accumulator and the output block hold after the cases that read the projected embeddings back
  (every point but the first), as the body's arithmetic over the loaded blocks: the adjacency block's four slabs, the
  matching four blocks of rows of the projected embeddings, and the accumulator.
-/
import proofs.«147766_g40561671143680_cont_8to1_b_159_3_alg».proof.Proof.R1RunB
import proofs.«147766_g40561671143680_cont_8to1_b_159_3_alg».proof.Proof.R1RunC
import proofs.«147766_g40561671143680_cont_8to1_b_159_3_alg».proof.Proof.R1RunD
import Idealize.ShloMosaic.Lib.Pipeline.Value

set_option maxRecDepth 16384

noncomputable section

namespace Cert.KernelIdeal.Hand.Blocks1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column tile's partial product from the adjacency block `x0` and the projected embeddings `xB`. -/
def part1 (i : grid1.Coords) (x0 : Vec F S4x512x512 .f32) (xB : Vec F S4x4096x32 .bf16) : FVec F S512x32 .f32 :=
  k1_pay1 (k1_pay11 (View.ld x0 (Rect.unit (s := S4x512x512) ![0, 0, 0] S1x512x512.size inb_S4x512x512_S1x512x512_0_0_0)) (View.ld xB (Rect.unit (s := S4x4096x32) (k1_off1 i) S1x512x32.size (k1_off1_inb i))) (View.ld x0 (Rect.unit (s := S4x512x512) ![1, 0, 0] S1x512x512.size inb_S4x512x512_S1x512x512_1_0_0)) (View.ld xB (Rect.unit (s := S4x4096x32) (k1_off2 i) S1x512x32.size (k1_off2_inb i))) (View.ld x0 (Rect.unit (s := S4x512x512) ![2, 0, 0] S1x512x512.size inb_S4x512x512_S1x512x512_2_0_0)) (View.ld xB (Rect.unit (s := S4x4096x32) (k1_off3 i) S1x512x32.size (k1_off3_inb i)))) (View.ld x0 (Rect.unit (s := S4x512x512) ![3, 0, 0] S1x512x512.size inb_S4x512x512_S1x512x512_3_0_0)) (View.ld xB (Rect.unit (s := S4x4096x32) (k1_off4 i) S1x512x32.size (k1_off4_inb i)))

/-- Setting the accumulator stores the partial product itself: the cast to the same shape is the identity. -/
theorem pay2_eq_pay1 (v30 : FVec F S512x32 .f32) (a : Vec F S1x512x512 .f32) (b : Vec F S1x512x32 .bf16) :
    k1_pay2 v30 a b = k1_pay1 v30 a b := by
  unfold k1_pay2
  exact shapeCast_self _ _

/-- Adding to the accumulator stores the accumulator plus the partial product. -/
theorem pay3_eq_addf (v30 : FVec F S512x32 .f32) (a : Vec F S1x512x512 .f32) (b : Vec F S1x512x32 .bf16) (acc : Vec F S512x32 .f32) :
    k1_pay3 v30 a b acc = addf acc (k1_pay1 v30 a b) := by
  unfold k1_pay3
  exact shapeCast_self _ _

/-- The first column tile of a later row tile leaves the partial product in the accumulator. -/
theorem sA1_D_eq (v : View sig .tc .vmem S512x32 .f32) (c : Dev nD) (i : grid1.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : ¬cond1_a i) (hb : cond1_b i) (hc : ¬cond1_c i) (hd : ¬cond1_d i)
    (x0 : Vec F S4x512x512 .f32) (xB : Vec F S4x4096x32 .bf16) :
    v.read (Elt F) (v.writes (Elt F) v.junk (kernelRun1_D c i arg2 harg2 arg3 harg3 arg4 harg4 arg5 harg5 arg6 harg6 arg7 harg7 ha hb hc hd x0 xB).1) = part1 i x0 xB := by
  have hz : (![0, 0] : Fin 2 → ℕ) = fun _ => 0 := by funext a; fin_cases a <;> rfl
  unfold part1
  rw [View.read_writes_eq_canon _ _ _ (View.cover_of_tiledL _ S512x32.size (by sl_kernel_rfl))]
  unfold kernelRun1_D
  dsimp only
  sl_unfold_words
  rw [View.canon_unit_zero hz]
  simp only [View.readAt_eq_ld, harg2.read_unread, harg6.read_unread, harg7.read_unread, View.ld_unit_zero (S := S512x32) hz, View.readCov_unit_zero (S := S512x32) _ hz]
  rw [pay2_eq_pay1]

/-- A middle column tile leaves the accumulator plus the partial product. -/
theorem sA1_B_eq (v : View sig .tc .vmem S512x32 .f32) (c : Dev nD) (i : grid1.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : ¬cond1_a i) (hb : ¬cond1_b i) (hc : cond1_c i) (hd : ¬cond1_d i)
    (x0 : Vec F S4x512x512 .f32) (xB : Vec F S4x4096x32 .bf16) (xA : Vec F S512x32 .f32) :
    v.read (Elt F) (v.writes (Elt F) v.junk (kernelRun1_B c i arg2 harg2 arg3 harg3 arg4 harg4 arg5 harg5 arg6 harg6 arg7 harg7 ha hb hc hd x0 xB xA).1) = addf xA (part1 i x0 xB) := by
  have hz : (![0, 0] : Fin 2 → ℕ) = fun _ => 0 := by funext a; fin_cases a <;> rfl
  unfold part1
  rw [View.read_writes_eq_canon _ _ _ (View.cover_of_tiledL _ S512x32.size (by sl_kernel_rfl))]
  unfold kernelRun1_B
  dsimp only
  sl_unfold_words
  rw [View.canon_unit_zero hz]
  simp only [View.readAt_eq_ld, harg2.read_unread, harg6.read_unread, harg7.read_unread, View.ld_unit_zero (S := S512x32) hz, View.readCov_unit_zero (S := S512x32) _ hz]
  rw [pay3_eq_addf]

/-- The last column tile leaves the accumulator plus the partial product, -/
theorem sA1_C_eq (v : View sig .tc .vmem S512x32 .f32) (c : Dev nD) (i : grid1.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : ¬cond1_a i) (hb : ¬cond1_b i) (hc : cond1_c i) (hd : cond1_d i)
    (x0 : Vec F S4x512x512 .f32) (xB : Vec F S4x4096x32 .bf16) (xA : Vec F S512x32 .f32) :
    v.read (Elt F) (v.writes (Elt F) v.junk (kernelRun1_C c i arg2 harg2 arg3 harg3 arg4 harg4 arg5 harg5 arg6 harg6 arg7 harg7 ha hb hc hd x0 xB xA).2.1) = addf xA (part1 i x0 xB) := by
  have hz : (![0, 0] : Fin 2 → ℕ) = fun _ => 0 := by funext a; fin_cases a <;> rfl
  unfold part1
  rw [View.read_writes_eq_canon _ _ _ (View.cover_of_tiledL _ S512x32.size (by sl_kernel_rfl))]
  unfold kernelRun1_C
  dsimp only
  sl_unfold_words
  rw [View.canon_unit_zero hz]
  simp only [View.readAt_eq_ld, harg2.read_unread, harg6.read_unread, harg7.read_unread, View.ld_unit_zero (S := S512x32) hz, View.readCov_unit_zero (S := S512x32) _ hz]
  rw [pay3_eq_addf]

/-- and in the output block the epilogue of that sum. -/
theorem out1_C_eq (v : View sig .tc .vmem S512x32 .f32) (c : Dev nD) (i : grid1.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : ¬cond1_a i) (hb : ¬cond1_b i) (hc : cond1_c i) (hd : cond1_d i)
    (x0 : Vec F S4x512x512 .f32) (xB : Vec F S4x4096x32 .bf16) (xA : Vec F S512x32 .f32) :
    v.read (Elt F) (v.writes (Elt F) v.junk (kernelRun1_C c i arg2 harg2 arg3 harg3 arg4 harg4 arg5 harg5 arg6 harg6 arg7 harg7 ha hb hc hd x0 xB xA).1) = k1_pay4 (addf xA (part1 i x0 xB)) := by
  have hz : (![0, 0] : Fin 2 → ℕ) = fun _ => 0 := by funext a; fin_cases a <;> rfl
  unfold part1
  rw [View.read_writes_eq_canon _ _ _ (View.cover_of_tiledL _ S512x32.size (by sl_kernel_rfl))]
  unfold kernelRun1_C
  dsimp only
  sl_unfold_words
  rw [View.canon_unit_zero hz]
  simp only [View.readAt_eq_ld, harg2.read_unread, harg6.read_unread, harg7.read_unread, View.ld_unit_zero (S := S512x32) hz, View.readCov_unit_zero (S := S512x32) _ hz]
  rw [pay3_eq_addf]

end Cert.KernelIdeal.Hand.Blocks1

end
-- ==== Proof.R1PieceA.lean ====
/-
  Region 1, the first point: the projected embeddings as the four slabs the body stores (relation r's slab is the
  embedding table times relation r's matrix transposed), and the accumulator as the first tile's partial product over
  them.
-/
import proofs.«147766_g40561671143680_cont_8to1_b_159_3_alg».proof.Proof.R1RunA
import proofs.«147766_g40561671143680_cont_8to1_b_159_3_alg».proof.Proof.R1Pieces
import Idealize.ShloMosaic.Lib.Pipeline.Value

set_option maxRecDepth 16384

noncomputable section

namespace Cert.KernelIdeal.Hand.Blocks1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four slab stores of the first point, last first, over the embedding table `x1` and the relation matrices `x2`. -/
def projL1 (x1 : Vec F S4096x32 .f32) (x2 : Vec F S4x32x32 .f32) : List (View.Piece (Elt F) S4x4096x32 .bf16) :=
  [⟨(Rect.unit (s := S4x4096x32) ![3, 0, 0] S1x4096x32.size inb_S4x4096x32_S1x4096x32_3_0_0), k1_pay10 (k1_pay9 x1 (View.ld x2 (Rect.unit (s := S4x32x32) ![3, 0, 0] S1x32x32.size inb_S4x32x32_S1x32x32_3_0_0)))⟩,
   ⟨(Rect.unit (s := S4x4096x32) ![2, 0, 0] S1x4096x32.size inb_S4x4096x32_S1x4096x32_2_0_0), k1_pay8 x1 (View.ld x2 (Rect.unit (s := S4x32x32) ![2, 0, 0] S1x32x32.size inb_S4x32x32_S1x32x32_2_0_0))⟩,
   ⟨(Rect.unit (s := S4x4096x32) ![1, 0, 0] S1x4096x32.size inb_S4x4096x32_S1x4096x32_1_0_0), k1_pay7 x1 (View.ld x2 (Rect.unit (s := S4x32x32) ![1, 0, 0] S1x32x32.size inb_S4x32x32_S1x32x32_1_0_0))⟩,
   ⟨(Rect.unit (s := S4x4096x32) ![0, 0, 0] S1x4096x32.size inb_S4x4096x32_S1x4096x32_0_0_0), k1_pay6 x1 (View.ld x2 (Rect.unit (s := S4x32x32) ![0, 0, 0] S1x32x32.size inb_S4x32x32_S1x32x32_0_0_0))⟩]

/-- The projected embeddings: what the four stores leave in the scratch. -/
def proj1 (x1 : Vec F S4096x32 .f32) (x2 : Vec F S4x32x32 .f32) : Vec F S4x4096x32 .bf16 := View.canon (projL1 x1 x2)

/-- The four slabs tile the scratch. -/
theorem projL1_cover (x1 : Vec F S4096x32 .f32) (x2 : Vec F S4x32x32 .f32) (y : S4x4096x32.Idx) :
    ∃ pc ∈ projL1 x1 x2, y ∈ pc.1.set := by
  unfold projL1
  exact View.cover_of_tiledL (s := S4x4096x32) _ S1x4096x32.size (by sl_kernel_rfl) y

/-- The first point leaves the projected embeddings in the first scratch, -/
theorem sB1_A_eq (v : View sig .tc .vmem S4x4096x32 .bf16) (c : Dev nD) (i : grid1.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : cond1_a i) (hb : cond1_b i) (hc : ¬cond1_c i) (hd : ¬cond1_d i)
    (x0 : Vec F S4x512x512 .f32) (x1 : Vec F S4096x32 .f32) (x2 : Vec F S4x32x32 .f32) :
    v.read (Elt F) (v.writes (Elt F) v.junk (kernelRun1_A c i arg2 harg2 arg3 harg3 arg4 harg4 arg5 harg5 arg6 harg6 arg7 harg7 ha hb hc hd x0 x1 x2).1) = proj1 x1 x2 := by
  have hz2 : (![0, 0] : Fin 2 → ℕ) = fun _ => 0 := by funext a; fin_cases a <;> rfl
  have hcov := projL1_cover x1 x2
  unfold proj1
  unfold projL1 at hcov ⊢
  unfold kernelRun1_A
  dsimp only
  sl_unfold_words
  simp only [View.readAt_eq_ld, harg3.read_unread, harg4.read_unread, View.ld_unit_zero (S := S4096x32) hz2]
  rw [View.read_writes_eq_canon _ _ _ hcov]

/-- and the first tile's partial product over them in the accumulator. -/
theorem sA1_A_eq (v : View sig .tc .vmem S512x32 .f32) (c : Dev nD) (i : grid1.Coords) (arg2 : Memref sig .tc .vmem S4x512x512 .f32) (harg2 : arg2.IsWhole) (arg3 : Memref sig .tc .vmem S4096x32 .f32) (harg3 : arg3.IsWhole) (arg4 : Memref sig .tc .vmem S4x32x32 .f32) (harg4 : arg4.IsWhole) (arg5 : Memref sig .tc .vmem S512x32 .f32) (harg5 : arg5.IsWhole) (arg6 : Memref sig .tc .vmem S4x4096x32 .bf16) (harg6 : arg6.IsWhole) (arg7 : Memref sig .tc .vmem S512x32 .f32) (harg7 : arg7.IsWhole)
    (ha : cond1_a i) (hb : cond1_b i) (hc : ¬cond1_c i) (hd : ¬cond1_d i)
    (x0 : Vec F S4x512x512 .f32) (x1 : Vec F S4096x32 .f32) (x2 : Vec F S4x32x32 .f32) :
    v.read (Elt F) (v.writes (Elt F) v.junk (kernelRun1_A c i arg2 harg2 arg3 harg3 arg4 harg4 arg5 harg5 arg6 harg6 arg7 harg7 ha hb hc hd x0 x1 x2).2.1) = part1 i x0 (proj1 x1 x2) := by
  have hz2 : (![0, 0] : Fin 2 → ℕ) = fun _ => 0 := by funext a; fin_cases a <;> rfl
  have hz : (![0, 0] : Fin 2 → ℕ) = fun _ => 0 := hz2
  have hcov := projL1_cover x1 x2
  unfold part1 proj1
  unfold projL1 at hcov ⊢
  rw [View.read_writes_eq_canon _ _ _ (View.cover_of_tiledL _ S512x32.size (by sl_kernel_rfl))]
  unfold kernelRun1_A
  dsimp only
  sl_unfold_words
  rw [View.canon_unit_zero hz]
  simp only [View.readAt_eq_ld, harg2.read_unread, harg3.read_unread, harg4.read_unread, View.ld_unit_zero (S := S4096x32) hz2]
  simp only [View.read_writes_eq_canon _ _ _ hcov]
  rw [pay2_eq_pay1]

end Cert.KernelIdeal.Hand.Blocks1

end
-- ==== Proof.K1Pay.lean ====
/-
  The arithmetic of region 1's kernel body, read at an index over the extended reals: each stored value as sums of
  products of the loaded values' entries.
-/
import proofs.«147766_g40561671143680_cont_8to1_b_159_3_alg».proof.Proof.Gen.KernelIdeal.Skeleton
import proofs.«147766_g40561671143680_cont_8to1_b_159_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay1

open Cert.KernelIdeal Cert.KernelIdeal.Gen
open Idealize.ShloMosaic Idealize.ShloMosaic.ValueIdx

/-! ## The two products' operand indices, axis by axis -/

/-- In the product with a relation's matrix transposed, the left operand's row is the result's row … -/
theorem lhs_proj_0 (i : S4096x32.Idx) (q : dot_S4096x32_S32x32_S4096x32_1_1_0_0_n_n.contr.Idx) :
    (dot_S4096x32_S32x32_S4096x32_1_1_0_0_n_n.lhsIdx i q 0).val = (i 0).val := by
  unfold DotDims.lhsIdx
  rw [dif_neg (show ¬(0 : Fin S4096x32.rank) ∈ dot_S4096x32_S32x32_S4096x32_1_1_0_0_n_n.lhsBatch by decide), dif_pos (show (0 : Fin S4096x32.rank) ∈ dot_S4096x32_S32x32_S4096x32_1_1_0_0_n_n.lhsNonContracting by decide)]
  rfl
/-- … its column the contracted coordinate; -/
theorem lhs_proj_1 (i : S4096x32.Idx) (q : dot_S4096x32_S32x32_S4096x32_1_1_0_0_n_n.contr.Idx) :
    (dot_S4096x32_S32x32_S4096x32_1_1_0_0_n_n.lhsIdx i q 1).val = (q ⟨0, by decide⟩).val :=
  dot_S4096x32_S32x32_S4096x32_1_1_0_0_n_n.lhsIdx_val_of_single rfl i q
/-- the right operand's row is the result's column … -/
theorem rhs_proj_0 (i : S4096x32.Idx) (q : dot_S4096x32_S32x32_S4096x32_1_1_0_0_n_n.contr.Idx) :
    (dot_S4096x32_S32x32_S4096x32_1_1_0_0_n_n.rhsIdx i q 0).val = (i 1).val := by
  unfold DotDims.rhsIdx
  rw [dif_neg (show ¬(0 : Fin S32x32.rank) ∈ dot_S4096x32_S32x32_S4096x32_1_1_0_0_n_n.rhsBatch by decide), dif_pos (show (0 : Fin S32x32.rank) ∈ dot_S4096x32_S32x32_S4096x32_1_1_0_0_n_n.rhsNonContracting by decide)]
  rfl
/-- … and its column the contracted coordinate. -/
theorem rhs_proj_1 (i : S4096x32.Idx) (q : dot_S4096x32_S32x32_S4096x32_1_1_0_0_n_n.contr.Idx) :
    (dot_S4096x32_S32x32_S4096x32_1_1_0_0_n_n.rhsIdx i q 1).val = (q ⟨0, by decide⟩).val :=
  dot_S4096x32_S32x32_S4096x32_1_1_0_0_n_n.rhsIdx_val_of_single rfl i q

/-- In the plain product of a tile, the left operand's row is the result's row … -/
theorem lhs_tile_0 (i : S512x32.Idx) (q : dot_S512x512_S512x32_S512x32_1_0_0_1_n_n.contr.Idx) :
    (dot_S512x512_S512x32_S512x32_1_0_0_1_n_n.lhsIdx i q 0).val = (i 0).val := by
  unfold DotDims.lhsIdx
  rw [dif_neg (show ¬(0 : Fin S512x512.rank) ∈ dot_S512x512_S512x32_S512x32_1_0_0_1_n_n.lhsBatch by decide), dif_pos (show (0 : Fin S512x512.rank) ∈ dot_S512x512_S512x32_S512x32_1_0_0_1_n_n.lhsNonContracting by decide)]
  rfl
/-- … its column the contracted coordinate; -/
theorem lhs_tile_1 (i : S512x32.Idx) (q : dot_S512x512_S512x32_S512x32_1_0_0_1_n_n.contr.Idx) :
    (dot_S512x512_S512x32_S512x32_1_0_0_1_n_n.lhsIdx i q 1).val = (q ⟨0, by decide⟩).val :=
  dot_S512x512_S512x32_S512x32_1_0_0_1_n_n.lhsIdx_val_of_single rfl i q
/-- the right operand's row is the contracted coordinate … -/
theorem rhs_tile_0 (i : S512x32.Idx) (q : dot_S512x512_S512x32_S512x32_1_0_0_1_n_n.contr.Idx) :
    (dot_S512x512_S512x32_S512x32_1_0_0_1_n_n.rhsIdx i q 0).val = (q ⟨0, by decide⟩).val :=
  dot_S512x512_S512x32_S512x32_1_0_0_1_n_n.rhsIdx_val_of_single rfl i q
/-- … and its column the result's column. -/
theorem rhs_tile_1 (i : S512x32.Idx) (q : dot_S512x512_S512x32_S512x32_1_0_0_1_n_n.contr.Idx) :
    (dot_S512x512_S512x32_S512x32_1_0_0_1_n_n.rhsIdx i q 1).val = (i 1).val := by
  unfold DotDims.rhsIdx
  rw [dif_neg (show ¬(1 : Fin S512x32.rank) ∈ dot_S512x512_S512x32_S512x32_1_0_0_1_n_n.rhsBatch by decide), dif_pos (show (1 : Fin S512x32.rank) ∈ dot_S512x512_S512x32_S512x32_1_0_0_1_n_n.rhsNonContracting by decide)]
  rfl

/-! ## The two products into the zero splat, at an index -/

/-- The embedding table times a matrix transposed: at (row, feature) the sum over the input features. -/
theorem proj_apply (l : FVec Ideal S4096x32 .f32) (r : FVec Ideal S32x32 .f32) (x : Fin 4096) (d : Fin 32) :
    matmul dot_S4096x32_S32x32_S4096x32_1_1_0_0_n_n none l r (constant (F := Ideal) S4096x32 .f32 0x00000000#32) (ix2 x d)
      = ∑ j : Fin 32, l (ix2 x j) * r (ix2 d j) := by
  simp only [matmul]
  rw [Ideal.matmul_constant_zero_apply, ← Equiv.sum_comp (ValueIdx.contrEquiv1 dot_S4096x32_S32x32_S4096x32_1_1_0_0_n_n 32 rfl rfl).symm]
  refine Finset.sum_congr rfl fun k _ => ?_
  have hk := ValueIdx.contrEquiv1_symm_val dot_S4096x32_S32x32_S4096x32_1_1_0_0_n_n 32 rfl rfl k
  have el : dot_S4096x32_S32x32_S4096x32_1_1_0_0_n_n.lhsIdx (ix2 x d) ((ValueIdx.contrEquiv1 dot_S4096x32_S32x32_S4096x32_1_1_0_0_n_n 32 rfl rfl).symm k) = ix2 x k := funext fun a => Fin.ext (by
    match a with
    | ⟨0, _⟩ => exact lhs_proj_0 _ _
    | ⟨1, _⟩ => exact (lhs_proj_1 _ _).trans hk)
  have er : dot_S4096x32_S32x32_S4096x32_1_1_0_0_n_n.rhsIdx (ix2 x d) ((ValueIdx.contrEquiv1 dot_S4096x32_S32x32_S4096x32_1_1_0_0_n_n 32 rfl rfl).symm k) = ix2 d k := funext fun a => Fin.ext (by
    match a with
    | ⟨0, _⟩ => exact rhs_proj_0 _ _
    | ⟨1, _⟩ => exact (rhs_proj_1 _ _).trans hk)
  rw [el, er]

/-- A 512 × 512 block times a 512 × 32 block: at (row, feature) the sum over the block's columns. -/
theorem tileDot_apply (l : FVec Ideal S512x512 .bf16) (r : FVec Ideal S512x32 .bf16) (p : Fin 512) (d : Fin 32) :
    matmul dot_S512x512_S512x32_S512x32_1_0_0_1_n_n none l r (constant (F := Ideal) S512x32 .f32 0x00000000#32) (ix2 p d)
      = ∑ k : Fin 512, l (ix2 p k) * r (ix2 k d) := by
  simp only [matmul]
  rw [Ideal.matmul_constant_zero_apply, ← Equiv.sum_comp (ValueIdx.contrEquiv1 dot_S512x512_S512x32_S512x32_1_0_0_1_n_n 512 rfl rfl).symm]
  refine Finset.sum_congr rfl fun k _ => ?_
  have hk := ValueIdx.contrEquiv1_symm_val dot_S512x512_S512x32_S512x32_1_0_0_1_n_n 512 rfl rfl k
  have el : dot_S512x512_S512x32_S512x32_1_0_0_1_n_n.lhsIdx (ix2 p d) ((ValueIdx.contrEquiv1 dot_S512x512_S512x32_S512x32_1_0_0_1_n_n 512 rfl rfl).symm k) = ix2 p k := funext fun a => Fin.ext (by
    match a with
    | ⟨0, _⟩ => exact lhs_tile_0 _ _
    | ⟨1, _⟩ => exact (lhs_tile_1 _ _).trans hk)
  have er : dot_S512x512_S512x32_S512x32_1_0_0_1_n_n.rhsIdx (ix2 p d) ((ValueIdx.contrEquiv1 dot_S512x512_S512x32_S512x32_1_0_0_1_n_n 512 rfl rfl).symm k) = ix2 k d := funext fun a => Fin.ext (by
    match a with
    | ⟨0, _⟩ => exact (rhs_tile_0 _ _).trans hk
    | ⟨1, _⟩ => exact rhs_tile_1 _ _)
  rw [el, er]

/-! ## The epilogue's layout operations and its row sum, at an index -/

/-- A vector of 512 row values cast to a 512 × 1 column reads, at (row, 0), the row's value. -/
theorem col_apply {α : Type} (v : (⟨1, ![512]⟩ : Shape).Idx → α) (h : (⟨1, ![512]⟩ : Shape).ShapeCasts ⟨2, ![512, 1]⟩)
    (p : Fin 512) (u : Fin 1) : shapeCast ⟨2, ![512, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A 512 × 1 column broadcast along the features reads, at (row, feature), the column at (row, 0). -/
theorem bcast_col_apply {α : Type} (v : (⟨2, ![512, 1]⟩ : Shape).Idx → α)
    (h : (⟨2, ![512, 1]⟩ : Shape).Broadcasts ⟨2, ![512, 32]⟩) (p : Fin 512) (d : Fin 32) :
    broadcastTo ⟨2, ![512, 32]⟩ v h (ix2 p d) = v (ix2 p (0 : Fin 1)) := by
  refine broadcastTo_apply v h (ix2 p d) (ix2 p (0 : Fin 1)) fun ax => ?_
  match ax with
  | ⟨0, _⟩ =>
    show p.val = if (512 : ℕ) = 1 then 0 else p.val
    rw [if_neg (by decide)]
  | ⟨1, _⟩ =>
    show (0 : ℕ) = if (1 : ℕ) = 1 then 0 else d.val
    rw [if_pos rfl]

/-- The sum along the features, at a row, is the sum of the row's 32 entries. -/
theorem rowSum_apply (m : FVec Ideal S512x32 .f32) (p : Fin 512) :
    multiReduction (F := Ideal) .add [1] S512 m 0x00000000#32 Facts₀.reduces_S512x32_S512 (.inl rfl) rfl (ix1 p)
      = ∑ d' : Fin 32, m (ix2 p d') := by
  refine (Ideal.multiReduction_add_single m _ Facts₀.reduces_S512x32_S512 _ _ (ix1 p)).trans ?_
  refine Finset.sum_congr rfl fun k _ => congrArg m ?_
  exact funext fun c => Fin.ext (by match c with | ⟨0, _⟩ => rfl | ⟨1, _⟩ => rfl)

/-- The clamp at zero, at an index. -/
theorem clamp_apply (a : Vec Ideal S512x32 .f32) (i : S512x32.Idx) :
    maximumf a (broadcast S512x32 (Scalar.ofBits (F := Ideal) .f32 0x00000000#32)) i = max (a i) 0 := by
  refine (maximumf_apply _ _ _).trans ?_
  show max (a i) (Ideal.ofBits .f32 0x00000000#32) = _
  rw [Ideal.ofBits_zero_f32]

/-- One slab of the projected embeddings, whichever of the four payloads computes it: the format change and the added
    unit axis are the identity, the relation's matrix is read through its dropped unit axis. -/
theorem slab_core (v49 : Vec Ideal S4096x32 .f32) (w : Vec Ideal S1x32x32 .f32) (x : Fin 4096) (d : Fin 32) :
    shapeCast S1x4096x32 (truncf .bf16 (matmul dot_S4096x32_S32x32_S4096x32_1_1_0_0_n_n none
        (shapeCast S4096x32 v49 Facts₀.shapeCasts_S4096x32_S4096x32 : FVec Ideal S4096x32 .f32)
        (shapeCast S32x32 w Facts₀.shapeCasts_S1x32x32_S32x32 : FVec Ideal S32x32 .f32)
        (constant (F := Ideal) S4096x32 .f32 0x00000000#32)) Facts₀.bitsLt_bf16_f32 : FVec Ideal S4096x32 .bf16)
        Facts₀.shapeCasts_S4096x32_S1x4096x32 (ix3 (0 : Fin 1) x d)
      = ∑ j : Fin 32, v49 (ix2 x j) * w (ix3 (0 : Fin 1) d j) := by
  refine (shapeCast_ab_1ab_apply _ _ (0 : Fin 1) x d).trans ?_
  refine (truncf_apply (φ := .f32) (ψ := .bf16) _ _ _).trans ?_
  refine (proj_apply _ _ x d).trans ?_
  refine Finset.sum_congr rfl fun j _ => ?_
  rw [shapeCast_self]
  exact congrArg (v49 (ix2 x j) * ·) (shapeCast_1ab_ab_apply _ _ d j)

/-- One relation's product over a column tile: the adjacency block and the projected block are read through their
    dropped unit axes, the format change is the identity. -/
theorem tile_core (a : Vec Ideal S1x512x512 .f32) (b : Vec Ideal S1x512x32 .bf16) (p : Fin 512) (d : Fin 32) :
    matmul dot_S512x512_S512x32_S512x32_1_0_0_1_n_n none
        (truncf .bf16 (shapeCast S512x512 a Facts₀.shapeCasts_S1x512x512_S512x512 : FVec Ideal S512x512 .f32) Facts₀.bitsLt_bf16_f32 : FVec Ideal S512x512 .bf16)
        (shapeCast S512x32 b Facts₀.shapeCasts_S1x512x32_S512x32 : FVec Ideal S512x32 .bf16)
        (constant (F := Ideal) S512x32 .f32 0x00000000#32) (ix2 p d)
      = ∑ k : Fin 512, a (ix3 (0 : Fin 1) p k) * b (ix3 (0 : Fin 1) k d) := by
  refine (tileDot_apply _ _ p d).trans (Finset.sum_congr rfl fun k _ => ?_)
  exact congrArg₂ (· * ·) ((truncf_apply (φ := .f32) (ψ := .bf16) _ _ _).trans (shapeCast_1ab_ab_apply _ _ p k)) (shapeCast_1ab_ab_apply _ _ k d)

/-- A slab of the projected embeddings: the embedding table (4096 × 32) times one relation's matrix (a 1 × 32 × 32 slab)
    transposed; the changes of float format are the identity. -/
theorem slab0_apply (v49 : Vec Ideal S4096x32 .f32) (w : Vec Ideal S1x32x32 .f32) (x : Fin 4096) (d : Fin 32) :
    (k1_pay6 v49 w : FVec Ideal S1x4096x32 .bf16) (ix3 (0 : Fin 1) x d) = ∑ j : Fin 32, v49 (ix2 x j) * w (ix3 (0 : Fin 1) d j) := by
  unfold k1_pay6 k1_pay5
  exact slab_core v49 w x d
theorem slab1_apply (v49 : Vec Ideal S4096x32 .f32) (w : Vec Ideal S1x32x32 .f32) (x : Fin 4096) (d : Fin 32) :
    (k1_pay7 v49 w : FVec Ideal S1x4096x32 .bf16) (ix3 (0 : Fin 1) x d) = ∑ j : Fin 32, v49 (ix2 x j) * w (ix3 (0 : Fin 1) d j) := by
  unfold k1_pay7 k1_pay5
  exact slab_core v49 w x d
theorem slab2_apply (v49 : Vec Ideal S4096x32 .f32) (w : Vec Ideal S1x32x32 .f32) (x : Fin 4096) (d : Fin 32) :
    (k1_pay8 v49 w : FVec Ideal S1x4096x32 .bf16) (ix3 (0 : Fin 1) x d) = ∑ j : Fin 32, v49 (ix2 x j) * w (ix3 (0 : Fin 1) d j) := by
  unfold k1_pay8 k1_pay5
  exact slab_core v49 w x d
theorem slab3_apply (v49 : Vec Ideal S4096x32 .f32) (w : Vec Ideal S1x32x32 .f32) (x : Fin 4096) (d : Fin 32) :
    (k1_pay10 (k1_pay9 v49 w) : FVec Ideal S1x4096x32 .bf16) (ix3 (0 : Fin 1) x d) = ∑ j : Fin 32, v49 (ix2 x j) * w (ix3 (0 : Fin 1) d j) := by
  unfold k1_pay10 k1_pay9 k1_pay5
  exact slab_core v49 w x d

/-- A column tile's partial product: four relations' 512 × 512 adjacency blocks (1 × 512 × 512 slabs) times the matching
    512 × 32 blocks of the projected embeddings (1 × 512 × 32 slabs), added left to right. -/
theorem tile_apply (a0 : Vec Ideal S1x512x512 .f32) (b0 : Vec Ideal S1x512x32 .bf16) (a1 : Vec Ideal S1x512x512 .f32) (b1 : Vec Ideal S1x512x32 .bf16)
    (a2 : Vec Ideal S1x512x512 .f32) (b2 : Vec Ideal S1x512x32 .bf16) (a3 : Vec Ideal S1x512x512 .f32) (b3 : Vec Ideal S1x512x32 .bf16) (p : Fin 512) (d : Fin 32) :
    (k1_pay1 (F := Ideal) (k1_pay11 a0 b0 a1 b1 a2 b2) a3 b3) (ix2 p d)
      = (((∑ k : Fin 512, a0 (ix3 (0 : Fin 1) p k) * b0 (ix3 (0 : Fin 1) k d)) + (∑ k : Fin 512, a1 (ix3 (0 : Fin 1) p k) * b1 (ix3 (0 : Fin 1) k d)))
          + (∑ k : Fin 512, a2 (ix3 (0 : Fin 1) p k) * b2 (ix3 (0 : Fin 1) k d))) + (∑ k : Fin 512, a3 (ix3 (0 : Fin 1) p k) * b3 (ix3 (0 : Fin 1) k d)) := by
  unfold k1_pay1 k1_pay11
  dsimp only
  refine (addf_apply _ _ _).trans (congrArg₂ (· + ·) ((addf_apply _ _ _).trans (congrArg₂ (· + ·)
    ((addf_apply _ _ _).trans (congrArg₂ (· + ·) ?_ ?_)) ?_)) ?_)
  · exact tile_core a0 b0 p d
  · exact tile_core a1 b1 p d
  · exact tile_core a2 b2 p d
  · exact tile_core a3 b3 p d

/-- Setting the accumulator stores the partial product itself. -/
theorem pay2_eq (v30 : FVec Ideal S512x32 .f32) (a3 : Vec Ideal S1x512x512 .f32) (b3 : Vec Ideal S1x512x32 .bf16) :
    k1_pay2 (F := Ideal) v30 a3 b3 = k1_pay1 v30 a3 b3 := by
  unfold k1_pay2
  exact shapeCast_self _ _

/-- Adding to the accumulator stores the accumulator plus the partial product. -/
theorem pay3_apply (v30 : FVec Ideal S512x32 .f32) (a3 : Vec Ideal S1x512x512 .f32) (b3 : Vec Ideal S1x512x32 .bf16) (acc : Vec Ideal S512x32 .f32) (i : S512x32.Idx) :
    (k1_pay3 (F := Ideal) v30 a3 b3 acc) i = acc i + (k1_pay1 v30 a3 b3) i := by
  unfold k1_pay3
  exact (congrFun (shapeCast_self _ _) i).trans (addf_apply _ _ _)

/-- The epilogue: the accumulator clamped at zero, each row then divided by the larger of its Euclidean norm and the
    small constant. -/
theorem pay4_apply (a : Vec Ideal S512x32 .f32) (p : Fin 512) (d : Fin 32) :
    (k1_pay4 (F := Ideal) a) (ix2 p d)
      = Ideal.div (max (a (ix2 p d)) 0)
          (max (Ideal.sqrt (∑ d' : Fin 32, max (a (ix2 p d')) 0 * max (a (ix2 p d')) 0)) Cert.Spec.eps) := by
  unfold k1_pay4
  dsimp only
  refine (divf_apply _ _ _).trans ?_
  refine congrArg₂ Ideal.div (clamp_apply a _) ?_
  refine (bcast_col_apply _ _ p d).trans ?_
  refine (maximumf_apply _ _ _).trans ?_
  refine congrArg₂ max ?_ rfl
  refine congrArg Ideal.sqrt ?_
  refine (col_apply _ _ p 0).trans ?_
  refine (rowSum_apply _ p).trans ?_
  refine Finset.sum_congr rfl fun d' _ => ?_
  refine (mulf_apply _ _ _).trans ?_
  rw [clamp_apply]

end Cert.KernelIdeal.Pay1

end
-- ==== Proof.R1Index.lean ====
/-
  Region 1's arithmetic over whole blocks, read at an index over the extended reals: the projected embeddings as sums
  over the feature axis, the tile's partial product as sums over the tile's 512 columns.
-/
import proofs.«147766_g40561671143680_cont_8to1_b_159_3_alg».proof.Proof.R1PieceA
import proofs.«147766_g40561671143680_cont_8to1_b_159_3_alg».proof.Proof.K1Pay
import Idealize.ShloMosaic.Lib.ValueIdx

set_option maxRecDepth 16384

noncomputable section

namespace Cert.KernelIdeal.Hand.Blocks1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! ## Loads of one relation's slab, at an index -/

/-- A relation's 512 × 512 slab of the adjacency block, loaded with a unit axis in front, at (0, row, column). -/
theorem ld_adj (x0 : Vec Ideal S4x512x512 .f32) (off : Fin 3 → ℕ) (inb : ∀ a, off a + S1x512x512.size a ≤ S4x512x512.size a)
    (r : Fin 4) (h0 : off 0 = r.val) (h1 : off 1 = 0) (h2 : off 2 = 0) (p kk : Fin 512) :
    View.ld x0 (Rect.unit (s := S4x512x512) off S1x512x512.size inb) (ix3 (0 : Fin 1) p kk) = x0 (ix3 r p kk) :=
  congrArg x0 (funext fun a => Fin.ext (by
    match a with
    | ⟨0, _⟩ => show off 0 + 1 * 0 = r.val; omega
    | ⟨1, _⟩ => show off 1 + 1 * p.val = p.val; omega
    | ⟨2, _⟩ => show off 2 + 1 * kk.val = kk.val; omega))

/-- A relation's 32 × 32 matrix, loaded with a unit axis in front, at (0, output feature, input feature). -/
theorem ld_rel (x2 : Vec Ideal S4x32x32 .f32) (off : Fin 3 → ℕ) (inb : ∀ a, off a + S1x32x32.size a ≤ S4x32x32.size a)
    (r : Fin 4) (h0 : off 0 = r.val) (h1 : off 1 = 0) (h2 : off 2 = 0) (d j : Fin 32) :
    View.ld x2 (Rect.unit (s := S4x32x32) off S1x32x32.size inb) (ix3 (0 : Fin 1) d j) = x2 (ix3 r d j) :=
  congrArg x2 (funext fun a => Fin.ext (by
    match a with
    | ⟨0, _⟩ => show off 0 + 1 * 0 = r.val; omega
    | ⟨1, _⟩ => show off 1 + 1 * d.val = d.val; omega
    | ⟨2, _⟩ => show off 2 + 1 * j.val = j.val; omega))

/-- A block of 512 rows of a relation's projected embeddings, loaded with a unit axis in front, at (0, row of the block,
    feature): the block starting at row `512 * e` reads row `512 * e + kk`. -/
theorem ld_proj (xB : Vec Ideal S4x4096x32 .bf16) (off : Fin 3 → ℕ) (inb : ∀ a, off a + S1x512x32.size a ≤ S4x4096x32.size a)
    (r : Fin 4) (e : ℕ) (h0 : off 0 = r.val) (h1 : off 1 = 512 * e) (h2 : off 2 = 0) (kk : Fin 512) (d : Fin 32)
    (hlt : 512 * e + kk.val < 4096) :
    View.ld xB (Rect.unit (s := S4x4096x32) off S1x512x32.size inb) (ix3 (0 : Fin 1) kk d)
      = xB (ix3 r (⟨512 * e + kk.val, hlt⟩ : Fin 4096) d) :=
  congrArg xB (funext fun a => Fin.ext (by
    match a with
    | ⟨0, _⟩ => show off 0 + 1 * 0 = r.val; omega
    | ⟨1, _⟩ => show off 1 + 1 * kk.val = 512 * e + kk.val; omega
    | ⟨2, _⟩ => show off 2 + 1 * d.val = d.val; omega))

/-! ## One stored slab agrees with the projected embeddings as a function of the index -/

/-- A payload stored at relation `r`'s slab that is, at (0, row, feature), the row of the embedding table against the
    relation's matrix row, is at every index of the slab that sum read off the slab's place in the scratch. -/
theorem slab_piece (x1 : Vec Ideal S4096x32 .f32) (x2 : Vec Ideal S4x32x32 .f32) (r : Fin 4) (off : Fin 3 → ℕ)
    (inb : ∀ a, off a + S1x4096x32.size a ≤ S4x4096x32.size a) (h0 : off 0 = r.val) (h1 : off 1 = 0) (h2 : off 2 = 0)
    (w : Vec Ideal S1x4096x32 .bf16)
    (hw : ∀ (a : Fin 4096) (b : Fin 32), w (ix3 (0 : Fin 1) a b) = ∑ j : Fin 32, x1 (ix2 a j) * x2 (ix3 r b j))
    (x : (Rect.unit (s := S4x4096x32) off S1x4096x32.size inb).shape.Idx) :
    w x = (fun y : S4x4096x32.Idx => ∑ j : Fin 32, x1 (ix2 (y 1 : Fin 4096) j) * x2 (ix3 (y 0 : Fin 4) (y 2 : Fin 32) j))
        ((Rect.unit (s := S4x4096x32) off S1x4096x32.size inb).emb x) := by
  obtain ⟨u, a, b, rfl⟩ : ∃ (u : Fin 1) (a : Fin 4096) (b : Fin 32), x = ix3 u a b := ⟨x 0, x 1, x 2, eq_ix3 x⟩
  obtain rfl : u = 0 := Subsingleton.elim _ _
  have e0 : ((Rect.unit (s := S4x4096x32) off S1x4096x32.size inb).emb (ix3 (0 : Fin 1) a b) 0 : Fin 4) = r :=
    Fin.ext (by show off 0 + 1 * 0 = r.val; omega)
  have e1 : ((Rect.unit (s := S4x4096x32) off S1x4096x32.size inb).emb (ix3 (0 : Fin 1) a b) 1 : Fin 4096) = a :=
    Fin.ext (by show off 1 + 1 * a.val = a.val; omega)
  have e2 : ((Rect.unit (s := S4x4096x32) off S1x4096x32.size inb).emb (ix3 (0 : Fin 1) a b) 2 : Fin 32) = b :=
    Fin.ext (by show off 2 + 1 * b.val = b.val; omega)
  rw [hw]
  dsimp only
  rw [e0, e1, e2]

/-- The projected embeddings at (relation, row, feature): the row of the embedding table against the relation's matrix row. -/
theorem proj1_apply (x1 : Vec Ideal S4096x32 .f32) (x2 : Vec Ideal S4x32x32 .f32) (r : Fin 4) (x : Fin 4096) (d : Fin 32) :
    proj1 (F := Ideal) x1 x2 (ix3 r x d) = ∑ j : Fin 32, x1 (ix2 x j) * x2 (ix3 r d j) := by
  unfold proj1
  exact View.canon_apply_of_pieces (fun y : S4x4096x32.Idx => ∑ j : Fin 32, x1 (ix2 (y 1 : Fin 4096) j) * x2 (ix3 (y 0 : Fin 4) (y 2 : Fin 32) j))
    (projL1 x1 x2) (fun pc hpc => by
      simp only [projL1, List.mem_cons, List.mem_singleton, List.not_mem_nil, or_false] at hpc
      rcases hpc with rfl | rfl | rfl | rfl
      · exact slab_piece x1 x2 3 _ inb_S4x4096x32_S1x4096x32_3_0_0 rfl rfl rfl _ fun a b => (Pay1.slab3_apply x1 _ a b).trans
          (Finset.sum_congr rfl fun j _ => congrArg (x1 (ix2 a j) * ·) (ld_rel x2 _ inb_S4x32x32_S1x32x32_3_0_0 3 rfl rfl rfl b j))
      · exact slab_piece x1 x2 2 _ inb_S4x4096x32_S1x4096x32_2_0_0 rfl rfl rfl _ fun a b => (Pay1.slab2_apply x1 _ a b).trans
          (Finset.sum_congr rfl fun j _ => congrArg (x1 (ix2 a j) * ·) (ld_rel x2 _ inb_S4x32x32_S1x32x32_2_0_0 2 rfl rfl rfl b j))
      · exact slab_piece x1 x2 1 _ inb_S4x4096x32_S1x4096x32_1_0_0 rfl rfl rfl _ fun a b => (Pay1.slab1_apply x1 _ a b).trans
          (Finset.sum_congr rfl fun j _ => congrArg (x1 (ix2 a j) * ·) (ld_rel x2 _ inb_S4x32x32_S1x32x32_1_0_0 1 rfl rfl rfl b j))
      · exact slab_piece x1 x2 0 _ inb_S4x4096x32_S1x4096x32_0_0_0 rfl rfl rfl _ fun a b => (Pay1.slab0_apply x1 _ a b).trans
          (Finset.sum_congr rfl fun j _ => congrArg (x1 (ix2 a j) * ·) (ld_rel x2 _ inb_S4x32x32_S1x32x32_0_0_0 0 rfl rfl rfl b j)))
    (ix3 r x d) (projL1_cover x1 x2 (ix3 r x d))

/-- The tile's partial product at (row of the tile, feature): the four relations' sums over the tile's columns, where the
    tile's column `kk` is column `512 * e + kk` of the projected embeddings (`e` the point's second coordinate). -/
theorem part0_apply (i : grid1.Coords) (x0 : Vec Ideal S4x512x512 .f32) (xB : Vec Ideal S4x4096x32 .bf16) (p : Fin 512) (d : Fin 32) :
    part1 (F := Ideal) i x0 xB (ix2 p d)
      = (((∑ kk : Fin 512, x0 (ix3 (0 : Fin 4) p kk) * xB (ix3 (0 : Fin 4) (⟨512 * (i 1).val + kk.val, by have : (i 1).val < 8 := (i 1).isLt; have := kk.isLt; omega⟩ : Fin 4096) d)) + (∑ kk : Fin 512, x0 (ix3 (1 : Fin 4) p kk) * xB (ix3 (1 : Fin 4) (⟨512 * (i 1).val + kk.val, by have : (i 1).val < 8 := (i 1).isLt; have := kk.isLt; omega⟩ : Fin 4096) d))) + (∑ kk : Fin 512, x0 (ix3 (2 : Fin 4) p kk) * xB (ix3 (2 : Fin 4) (⟨512 * (i 1).val + kk.val, by have : (i 1).val < 8 := (i 1).isLt; have := kk.isLt; omega⟩ : Fin 4096) d))) + (∑ kk : Fin 512, x0 (ix3 (3 : Fin 4) p kk) * xB (ix3 (3 : Fin 4) (⟨512 * (i 1).val + kk.val, by have : (i 1).val < 8 := (i 1).isLt; have := kk.isLt; omega⟩ : Fin 4096) d)) := by
  unfold part1
  refine (Pay1.tile_apply _ _ _ _ _ _ _ _ p d).trans ?_
  refine congrArg₂ (· + ·) (congrArg₂ (· + ·) (congrArg₂ (· + ·) ?_ ?_) ?_) ?_
  · exact Finset.sum_congr rfl fun kk _ => congrArg₂ (· * ·) (ld_adj x0 _ inb_S4x512x512_S1x512x512_0_0_0 0 rfl rfl rfl p kk)
      (ld_proj xB _ (k1_off1_inb i) 0 (i 1).val (congrFun (k1_off1_eq i) 0) (congrFun (k1_off1_eq i) 1) (congrFun (k1_off1_eq i) 2) kk d _)
  · exact Finset.sum_congr rfl fun kk _ => congrArg₂ (· * ·) (ld_adj x0 _ inb_S4x512x512_S1x512x512_1_0_0 1 rfl rfl rfl p kk)
      (ld_proj xB _ (k1_off2_inb i) 1 (i 1).val (congrFun (k1_off2_eq i) 0) (congrFun (k1_off2_eq i) 1) (congrFun (k1_off2_eq i) 2) kk d _)
  · exact Finset.sum_congr rfl fun kk _ => congrArg₂ (· * ·) (ld_adj x0 _ inb_S4x512x512_S1x512x512_2_0_0 2 rfl rfl rfl p kk)
      (ld_proj xB _ (k1_off3_inb i) 2 (i 1).val (congrFun (k1_off3_eq i) 0) (congrFun (k1_off3_eq i) 1) (congrFun (k1_off3_eq i) 2) kk d _)
  · exact Finset.sum_congr rfl fun kk _ => congrArg₂ (· * ·) (ld_adj x0 _ inb_S4x512x512_S1x512x512_3_0_0 3 rfl rfl rfl p kk)
      (ld_proj xB _ (k1_off4_inb i) 3 (i 1).val (congrFun (k1_off4_eq i) 0) (congrFun (k1_off4_eq i) 1) (congrFun (k1_off4_eq i) 2) kk d _)

end Cert.KernelIdeal.Hand.Blocks1

end
-- ==== Proof.R1Blocks.lean ====
/-
  Region 1: each input window's block at a grid point, read at an index, is an entry of the window's array: the
  adjacency block at point t = 8·n + e is rows 512·n … and columns 512·e … of each relation's matrix; the embedding
  table's and the relation matrices' blocks are the whole arrays.
-/
import proofs.«147766_g40561671143680_cont_8to1_b_159_3_alg».proof.Proof.R1Frame
import Idealize.ShloMosaic.Lib.Pipeline.Value
import Idealize.ShloMosaic.Lib.ValueIdx

set_option maxRecDepth 16384

noncomputable section

namespace Cert.KernelIdeal.Hand.Blocks1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Blocks1

variable (V : (c : Dev nD) → (b : Ref sig .tc) → Buf (Elt F) ((c : Thread nD τ).loc b))

/-- The adjacency window's index map: point t reads block (0, t / 8, t % 8). -/
theorem idx0_0 : ∀ t : Fin cfg1.N, win1_0.index t 0 = 0 ∧ win1_0.index t 1 = t.val / 8 ∧ win1_0.index t 2 = t.val % 8 :=
  (by decide +kernel : ∀ t : Fin grid1.N, _)
/-- The embedding table's window reads block (0, 0) at every point. -/
theorem idx0_1 : ∀ t : Fin cfg1.N, win1_1.index t 0 = 0 ∧ win1_1.index t 1 = 0 :=
  (by decide +kernel : ∀ t : Fin grid1.N, _)
/-- The relation matrices' window reads block (0, 0, 0) at every point. -/
theorem idx0_2 : ∀ t : Fin cfg1.N, win1_2.index t 0 = 0 ∧ win1_2.index t 1 = 0 ∧ win1_2.index t 2 = 0 :=
  (by decide +kernel : ∀ t : Fin grid1.N, _)

/-- The grid is walked row tile by row tile: point t has coordinates (t / 8, t % 8). -/
theorem coords1 (t : Fin cfg1.N) : (grid1.coords t 0).val = t.val / 8 ∧ (grid1.coords t 1).val = t.val % 8 := by
  exact (by decide +kernel : ∀ t : Fin grid1.N, (grid1.coords t 0).val = t.val / 8 ∧ (grid1.coords t 1).val = t.val % 8) t

/-- The adjacency window's block. -/
theorem iblk1_0_apply (c : Dev nD) (t : Fin cfg1.N) (r : Fin 4) (p : Fin 512) (kk : Fin 512) :
    (iblk1 V c 0 t : Vec F S4x512x512 .f32) (ix3 r p kk)
      = (V c (Pipeline.arrRef spec1 0) : S4x4096x4096.Idx → Elt F .f32)
          (ix3 r (⟨512 * (t.val / 8) + p.val, by have := t.isLt; have := p.isLt; have h : cfg1.N = 64 := N_1; omega⟩ : Fin 4096)
            (⟨512 * (t.val % 8) + kk.val, by have := kk.isLt; omega⟩ : Fin 4096)) := by
  have hi := idx0_0 t
  unfold iblk1
  rw [View.read_apply]
  show (V c (Pipeline.arrRef spec1 0) : S4x4096x4096.Idx → Elt F .f32) _ = (V c (Pipeline.arrRef spec1 0) : S4x4096x4096.Idx → Elt F .f32) _
  refine congrArg (V c (Pipeline.arrRef spec1 0) : S4x4096x4096.Idx → Elt F .f32) ?_
  funext a
  apply Fin.ext
  match a with
  | ⟨0, _⟩ => show win1_0.index t 0 * 4 + 1 * r.val = r.val; rw [hi.1]; omega
  | ⟨1, _⟩ => show win1_0.index t 1 * 512 + 1 * p.val = 512 * (t.val / 8) + p.val; rw [hi.2.1]; omega
  | ⟨2, _⟩ => show win1_0.index t 2 * 512 + 1 * kk.val = 512 * (t.val % 8) + kk.val; rw [hi.2.2]; omega

/-- The embedding table's window holds the whole table at every point. -/
theorem iblk1_1_eq (c : Dev nD) (t : Fin cfg1.N) :
    (iblk1 V c 1 t : Vec F S4096x32 .f32) = (V c (Pipeline.arrRef spec1 1) : S4096x32.Idx → Elt F .f32) := by
  have hi := idx0_1 t
  refine funext fun (j : S4096x32.Idx) => ?_
  unfold iblk1
  rw [View.read_apply]
  show (V c (Pipeline.arrRef spec1 1) : S4096x32.Idx → Elt F .f32) _ = (V c (Pipeline.arrRef spec1 1) : S4096x32.Idx → Elt F .f32) j
  refine congrArg (V c (Pipeline.arrRef spec1 1) : S4096x32.Idx → Elt F .f32) ?_
  funext a
  apply Fin.ext
  match a with
  | ⟨0, _⟩ => show win1_1.index t 0 * 4096 + 1 * (j 0).val = (j 0).val; rw [hi.1]; omega
  | ⟨1, _⟩ => show win1_1.index t 1 * 32 + 1 * (j 1).val = (j 1).val; rw [hi.2]; omega

/-- The relation matrices' window holds all four at every point. -/
theorem iblk1_2_eq (c : Dev nD) (t : Fin cfg1.N) :
    (iblk1 V c 2 t : Vec F S4x32x32 .f32) = (V c (Pipeline.arrRef spec1 2) : S4x32x32.Idx → Elt F .f32) := by
  have hi := idx0_2 t
  refine funext fun (j : S4x32x32.Idx) => ?_
  unfold iblk1
  rw [View.read_apply]
  show (V c (Pipeline.arrRef spec1 2) : S4x32x32.Idx → Elt F .f32) _ = (V c (Pipeline.arrRef spec1 2) : S4x32x32.Idx → Elt F .f32) j
  refine congrArg (V c (Pipeline.arrRef spec1 2) : S4x32x32.Idx → Elt F .f32) ?_
  funext a
  apply Fin.ext
  match a with
  | ⟨0, _⟩ => show win1_2.index t 0 * 4 + 1 * (j 0).val = (j 0).val; rw [hi.1]; omega
  | ⟨1, _⟩ => show win1_2.index t 1 * 32 + 1 * (j 1).val = (j 1).val; rw [hi.2.1]; omega
  | ⟨2, _⟩ => show win1_2.index t 2 * 32 + 1 * (j 2).val = (j 2).val; rw [hi.2.2]; omega

end Blocks1

end Cert.KernelIdeal.Hand.Blocks1

end
-- ==== Proof.R1Acc.lean ====
/-
  Region 1 over the extended reals: the first scratch holds the projected embeddings from the first point on, and the
  second, after point t = 8·n + e, the partial products of row tile n summed over the column tiles 0 … e.
-/
import proofs.«147766_g40561671143680_cont_8to1_b_159_3_alg».proof.Proof.R1Frame
import proofs.«147766_g40561671143680_cont_8to1_b_159_3_alg».proof.Proof.R1Pieces
import proofs.«147766_g40561671143680_cont_8to1_b_159_3_alg».proof.Proof.R1PieceA
import proofs.«147766_g40561671143680_cont_8to1_b_159_3_alg».proof.Proof.R1Index
import proofs.«147766_g40561671143680_cont_8to1_b_159_3_alg».proof.Proof.R1Blocks
import proofs.«147766_g40561671143680_cont_8to1_b_159_3_alg».proof.Proof.SpecArr

set_option maxRecDepth 16384

noncomputable section

namespace Cert.KernelIdeal.Hand.Blocks1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx
open scoped BigOperators

section Acc0

variable (V : (c : Dev nD) → (b : Ref sig .tc) → Buf (Elt Ideal) ((c : Thread nD τ).loc b))

/-- The region's three input arrays, by coordinates: the adjacency tensor, the embedding table, the relation matrices. -/
def adj1 (c : Dev nD) : Cert.Spec.Adj := Cert.Spec.adjOf (V c (Pipeline.arrRef spec1 0) : S4x4096x4096.Idx → EReal)
def emb1 (c : Dev nD) : Cert.Spec.Emb := Cert.Spec.embOf (V c (Pipeline.arrRef spec1 1) : S4096x32.Idx → EReal)
def rel1 (c : Dev nD) : Cert.Spec.Rel := Cert.Spec.relOf (V c (Pipeline.arrRef spec1 2) : S4x32x32.Idx → EReal)

/-! ## The spec's accumulation, step by step -/

/-- The first column tile's partial product starts the accumulation. -/
theorem accK_start (A : Cert.Spec.Adj) (B : Cert.Spec.Prj) (d : Fin 32) (x : Fin 4096) (e : ℕ) (he : e < 8) (h0 : e = 0) :
    Cert.Spec.tilePart A B x d ⟨e, he⟩ = Cert.Spec.accK A B x d e he := by
  subst h0; rfl

/-- A later column tile's partial product is added to the accumulation so far. -/
theorem accK_step (A : Cert.Spec.Adj) (B : Cert.Spec.Prj) (d : Fin 32) (x x' : Fin 4096) (hx : x.val = x'.val)
    (e e' : ℕ) (he : e < 8) (he' : e' < 8) (hee : e' = e + 1) :
    Cert.Spec.accK A B x d e he + Cert.Spec.tilePart A B x' d ⟨e', he'⟩ = Cert.Spec.accK A B x' d e' he' := by
  obtain rfl : x = x' := Fin.ext hx
  subst hee
  rfl

/-! ## What each case leaves, as the body's arithmetic -/

theorem sB1_A_val (c : Dev nD) (t : Fin cfg1.N) (h : t.val = 0) (x0 : Vec Ideal S4x512x512 .f32) (x1 : Vec Ideal S4096x32 .f32) (x2 : Vec Ideal S4x32x32 .f32) :
    sB1_A (F := Ideal) c t h x0 x1 x2 = proj1 x1 x2 := by
  unfold sB1_A
  exact sB1_A_eq (F := Ideal) VS1_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) _ _ _ _ x0 x1 x2

theorem sA1_A_val (c : Dev nD) (t : Fin cfg1.N) (h : t.val = 0) (x0 : Vec Ideal S4x512x512 .f32) (x1 : Vec Ideal S4096x32 .f32) (x2 : Vec Ideal S4x32x32 .f32) :
    sA1_A (F := Ideal) c t h x0 x1 x2 = part1 (grid1.coords t) x0 (proj1 x1 x2) := by
  unfold sA1_A
  exact sA1_A_eq (F := Ideal) VS1_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) _ _ _ _ x0 x1 x2

theorem sA1_D_val (c : Dev nD) (t : Fin cfg1.N) (h0 : t.val ≠ 0) (hb : t.val % 8 = 0) (x0 : Vec Ideal S4x512x512 .f32) (xB : Vec Ideal S4x4096x32 .bf16) :
    sA1_D (F := Ideal) c t h0 hb x0 xB = part1 (grid1.coords t) x0 xB := by
  unfold sA1_D
  exact sA1_D_eq (F := Ideal) VS1_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) _ _ _ _ x0 xB

theorem sA1_B_val (c : Dev nD) (t : Fin cfg1.N) (hb : ¬ t.val % 8 = 0) (hd : ¬ t.val % 8 = 7) (x0 : Vec Ideal S4x512x512 .f32) (xB : Vec Ideal S4x4096x32 .bf16) (xA : Vec Ideal S512x32 .f32) :
    sA1_B (F := Ideal) c t hb hd x0 xB xA = addf xA (part1 (grid1.coords t) x0 xB) := by
  unfold sA1_B
  exact sA1_B_eq (F := Ideal) VS1_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) _ _ _ _ x0 xB xA

theorem sA1_C_val (c : Dev nD) (t : Fin cfg1.N) (hd : t.val % 8 = 7) (x0 : Vec Ideal S4x512x512 .f32) (xB : Vec Ideal S4x4096x32 .bf16) (xA : Vec Ideal S512x32 .f32) :
    sA1_C (F := Ideal) c t hd x0 xB xA = addf xA (part1 (grid1.coords t) x0 xB) := by
  unfold sA1_C
  exact sA1_C_eq (F := Ideal) VS1_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) _ _ _ _ x0 xB xA

theorem out1_C_val (c : Dev nD) (t : Fin cfg1.N) (hd : t.val % 8 = 7) (x0 : Vec Ideal S4x512x512 .f32) (xB : Vec Ideal S4x4096x32 .bf16) (xA : Vec Ideal S512x32 .f32) :
    out1_C (F := Ideal) c t hd x0 xB xA = k1_pay4 (addf xA (part1 (grid1.coords t) x0 xB)) := by
  unfold out1_C
  exact out1_C_eq (F := Ideal) VO1_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) _ _ _ _ x0 xB xA

/-! ## From one point to the next -/

/-- The first scratch is not touched after the first point. -/
theorem outsAt1_succ_B (c : Dev nD) (n : ℕ) (hn : n + 1 < cfg1.N) :
    (outsAt1 V c (n + 1) hn).2.1 = (outsAt1 V c n (Nat.lt_of_succ_lt hn)).2.1 := by
  rw [outsAt1]
  split_ifs <;> rfl

theorem outsAt1_zero_B (c : Dev nD) (hn : 0 < cfg1.N) :
    (outsAt1 V c 0 hn).2.1 = sB1_A c ⟨0, hn⟩ rfl (iblk1 V c 0 ⟨0, hn⟩) (iblk1 V c 1 ⟨0, hn⟩) (iblk1 V c 2 ⟨0, hn⟩) := by
  rw [outsAt1]

theorem outsAt1_zero_A (c : Dev nD) (hn : 0 < cfg1.N) :
    (outsAt1 V c 0 hn).2.2 = sA1_A c ⟨0, hn⟩ rfl (iblk1 V c 0 ⟨0, hn⟩) (iblk1 V c 1 ⟨0, hn⟩) (iblk1 V c 2 ⟨0, hn⟩) := by
  rw [outsAt1]

theorem outsAt1_succ_A_first (c : Dev nD) (n : ℕ) (hn : n + 1 < cfg1.N) (hb : (n + 1) % 8 = 0) :
    (outsAt1 V c (n + 1) hn).2.2
      = sA1_D c ⟨n + 1, hn⟩ (Nat.succ_ne_zero n) hb (iblk1 V c 0 ⟨n + 1, hn⟩) (outsAt1 V c n (Nat.lt_of_succ_lt hn)).2.1 := by
  rw [outsAt1, dif_pos hb]

theorem outsAt1_succ_A_last (c : Dev nD) (n : ℕ) (hn : n + 1 < cfg1.N) (hb : ¬ (n + 1) % 8 = 0) (hd : (n + 1) % 8 = 7) :
    (outsAt1 V c (n + 1) hn).2.2
      = sA1_C c ⟨n + 1, hn⟩ hd (iblk1 V c 0 ⟨n + 1, hn⟩) (outsAt1 V c n (Nat.lt_of_succ_lt hn)).2.1 (outsAt1 V c n (Nat.lt_of_succ_lt hn)).2.2 := by
  rw [outsAt1, dif_neg hb, dif_pos hd]

theorem outsAt1_succ_A_mid (c : Dev nD) (n : ℕ) (hn : n + 1 < cfg1.N) (hb : ¬ (n + 1) % 8 = 0) (hd : ¬ (n + 1) % 8 = 7) :
    (outsAt1 V c (n + 1) hn).2.2
      = sA1_B c ⟨n + 1, hn⟩ hb hd (iblk1 V c 0 ⟨n + 1, hn⟩) (outsAt1 V c n (Nat.lt_of_succ_lt hn)).2.1 (outsAt1 V c n (Nat.lt_of_succ_lt hn)).2.2 := by
  rw [outsAt1, dif_neg hb, dif_neg hd]

/-! ## The projected embeddings -/

/-- The stored projected embeddings are the spec's, entry by entry. -/
theorem proj1_spec (c : Dev nD) (t : Fin cfg1.N) (r : Fin 4) (x : Fin 4096) (d : Fin 32) :
    proj1 (F := Ideal) (iblk1 V c 1 t) (iblk1 V c 2 t) (ix3 r x d) = Cert.Spec.proj (emb1 V c) (rel1 V c) r x d := by
  rw [proj1_apply, iblk1_1_eq, iblk1_2_eq]
  rfl

/-- After every point the first scratch holds what the first point stored. -/
theorem scratchB0_eq (c : Dev nD) (h0 : 0 < cfg1.N) : ∀ (n : ℕ) (hn : n < cfg1.N),
    (outsAt1 V c n hn).2.1 = proj1 (F := Ideal) (iblk1 V c 1 ⟨0, h0⟩) (iblk1 V c 2 ⟨0, h0⟩)
  | 0, hn => (outsAt1_zero_B V c hn).trans (sB1_A_val c ⟨0, hn⟩ rfl _ _ _)
  | n + 1, hn => (outsAt1_succ_B V c n hn).trans (scratchB0_eq c h0 n (Nat.lt_of_succ_lt hn))

/-- After every point the first scratch holds the projected embeddings. -/
theorem scratchB1 (c : Dev nD) (n : ℕ) (hn : n < cfg1.N) (r : Fin 4) (x : Fin 4096) (d : Fin 32) :
    ((outsAt1 V c n hn).2.1 : S4x4096x32.Idx → EReal) (ix3 r x d) = Cert.Spec.proj (emb1 V c) (rel1 V c) r x d := by
  have h0 : 0 < cfg1.N := Nat.lt_of_le_of_lt (Nat.zero_le n) hn
  rw [scratchB0_eq V c h0 n hn]
  exact proj1_spec V c ⟨0, h0⟩ r x d

/-! ## The tile's partial product is the spec's -/

/-- The adjacency block at point t, entry by entry: rows 512·(t / 8) … and columns 512·(t % 8) … of each relation's matrix. -/
theorem iblk1_adj (c : Dev nD) (t : Fin cfg1.N) (r : Fin 4) (p kk : Fin 512)
    (h1 : 512 * (t.val / 8) + p.val < 4096) (h2 : 512 * (t.val % 8) + kk.val < 4096) :
    (iblk1 V c 0 t : Vec Ideal S4x512x512 .f32) (ix3 r p kk)
      = adj1 V c r ⟨512 * (t.val / 8) + p.val, h1⟩ ⟨512 * (t.val % 8) + kk.val, h2⟩ :=
  iblk1_0_apply V c t r p kk

/-- At point t the body's partial product, over an adjacency block and projected embeddings that are the spec's, is the
    spec's partial product of row 512·(t / 8) + p over column tile t % 8. -/
theorem part_at (c : Dev nD) (t : Fin cfg1.N) (x0 : Vec Ideal S4x512x512 .f32)
    (hx0 : ∀ (r : Fin 4) (p kk : Fin 512) (h1 : 512 * (t.val / 8) + p.val < 4096) (h2 : 512 * (t.val % 8) + kk.val < 4096),
      x0 (ix3 r p kk) = adj1 V c r ⟨512 * (t.val / 8) + p.val, h1⟩ ⟨512 * (t.val % 8) + kk.val, h2⟩)
    (xB : Vec Ideal S4x4096x32 .bf16)
    (hxB : ∀ (r : Fin 4) (x : Fin 4096) (d : Fin 32), xB (ix3 r x d) = Cert.Spec.proj (emb1 V c) (rel1 V c) r x d)
    (p : Fin 512) (d : Fin 32) (hlt : 512 * (t.val / 8) + p.val < 4096) (he : t.val % 8 < 8) :
    part1 (F := Ideal) (grid1.coords t) x0 xB (ix2 p d)
      = Cert.Spec.tilePart (adj1 V c) (Cert.Spec.proj (emb1 V c) (rel1 V c)) ⟨512 * (t.val / 8) + p.val, hlt⟩ d ⟨t.val % 8, he⟩ := by
  have hc := coords1 t
  have hterm : ∀ (r : Fin 4) (kk : Fin 512),
      x0 (ix3 r p kk)
          * xB (ix3 r (⟨512 * (grid1.coords t 1).val + kk.val, by have : (grid1.coords t 1).val < 8 := (grid1.coords t 1).isLt; have := kk.isLt; omega⟩ : Fin 4096) d)
        = adj1 V c r ⟨512 * (t.val / 8) + p.val, hlt⟩ (Cert.Spec.col ⟨t.val % 8, he⟩ kk)
          * Cert.Spec.proj (emb1 V c) (rel1 V c) r (Cert.Spec.col ⟨t.val % 8, he⟩ kk) d := by
    intro r kk
    have hcol : (⟨512 * (grid1.coords t 1).val + kk.val, by have : (grid1.coords t 1).val < 8 := (grid1.coords t 1).isLt; have := kk.isLt; omega⟩ : Fin 4096)
        = Cert.Spec.col ⟨t.val % 8, he⟩ kk := Fin.ext (by
      show 512 * (grid1.coords t 1).val + kk.val = 512 * (t.val % 8) + kk.val
      rw [hc.2])
    rw [hx0 r p kk hlt (by have := kk.isLt; omega), hxB, hcol]
    rfl
  rw [part0_apply]
  unfold Cert.Spec.tilePart Cert.Spec.tileDot
  refine congrArg₂ (· + ·) (congrArg₂ (· + ·) (congrArg₂ (· + ·) ?_ ?_) ?_) ?_
  · exact Finset.sum_congr rfl fun kk _ => hterm 0 kk
  · exact Finset.sum_congr rfl fun kk _ => hterm 1 kk
  · exact Finset.sum_congr rfl fun kk _ => hterm 2 kk
  · exact Finset.sum_congr rfl fun kk _ => hterm 3 kk

/-! ## The accumulator -/

/-- After position n the accumulator holds row tile n / 8's partial products summed over the column tiles 0 … n % 8. -/
theorem acc1_at (c : Dev nD) : ∀ (n : ℕ) (hn : n < cfg1.N) (p : Fin 512) (d : Fin 32) (hlt : 512 * (n / 8) + p.val < 4096) (he : n % 8 < 8),
    ((outsAt1 V c n hn).2.2 : S512x32.Idx → EReal) (ix2 p d)
      = Cert.Spec.accK (adj1 V c) (Cert.Spec.proj (emb1 V c) (rel1 V c)) ⟨512 * (n / 8) + p.val, hlt⟩ d (n % 8) he
  | 0, hn, p, d, hlt, he => by
    rw [outsAt1_zero_A V c hn, sA1_A_val]
    refine (part_at V c ⟨0, hn⟩ _ (iblk1_adj V c ⟨0, hn⟩) _ (proj1_spec V c ⟨0, hn⟩) p d hlt he).trans ?_
    exact accK_start _ _ d _ _ he rfl
  | n + 1, hn, p, d, hlt, he => by
    have hN : cfg1.N = 64 := N_1
    have hxB := scratchB1 V c n (Nat.lt_of_succ_lt hn)
    by_cases hb : (n + 1) % 8 = 0
    · rw [outsAt1_succ_A_first V c n hn hb, sA1_D_val]
      refine (part_at V c ⟨n + 1, hn⟩ _ (iblk1_adj V c ⟨n + 1, hn⟩) _ hxB p d hlt he).trans ?_
      exact accK_start _ _ d _ _ he hb
    · have hlt' : 512 * (n / 8) + p.val < 4096 := by have := p.isLt; omega
      have he' : n % 8 < 8 := Nat.mod_lt _ (by decide)
      have ih := acc1_at c n (Nat.lt_of_succ_lt hn) p d hlt' he'
      have hstep := accK_step (adj1 V c) (Cert.Spec.proj (emb1 V c) (rel1 V c)) d
        ⟨512 * (n / 8) + p.val, hlt'⟩ ⟨512 * ((n + 1) / 8) + p.val, hlt⟩ (by show 512 * (n / 8) + p.val = 512 * ((n + 1) / 8) + p.val; omega)
        (n % 8) ((n + 1) % 8) he' he (by omega)
      have hpart := part_at V c ⟨n + 1, hn⟩ _ (iblk1_adj V c ⟨n + 1, hn⟩) _ hxB p d hlt he
      by_cases hd : (n + 1) % 8 = 7
      · rw [outsAt1_succ_A_last V c n hn hb hd, sA1_C_val]
        refine (addf_apply (φ := .f32) _ _ _).trans ?_
        rw [ih, hpart]
        exact hstep
      · rw [outsAt1_succ_A_mid V c n hn hb hd, sA1_B_val]
        refine (addf_apply (φ := .f32) _ _ _).trans ?_
        rw [ih, hpart]
        exact hstep

/-- After point t = 8·n + e the accumulator holds row tile n's partial products summed over the column tiles 0 … e. -/
theorem acc1 (c : Dev nD) (t : Fin cfg1.N) (p : Fin 512) (d : Fin 32) :
    ((outsAt1 V c t.val t.isLt).2.2 : S512x32.Idx → EReal) (ix2 p d)
      = Cert.Spec.accK (adj1 V c) (Cert.Spec.proj (emb1 V c) (rel1 V c))
          (⟨512 * (t.val / 8) + p.val, by have := t.isLt; have := p.isLt; have h : cfg1.N = 64 := N_1; omega⟩ : Fin 4096) d (t.val % 8) (Nat.mod_lt _ (by decide)) := by
  exact acc1_at V c t.val t.isLt p d _ _

/-- At the last column tile the output block holds the body's epilogue of the accumulator. -/
theorem outBlock0 (c : Dev nD) (t : Fin cfg1.N) (hd : t.val % 8 = 7) :
    (outsAt1 V c t.val t.isLt).1 = k1_pay4 (F := Ideal) (outsAt1 V c t.val t.isLt).2.2 := by
  rw [outsAt1_C V c t hd]
  dsimp only
  rw [out1_C_val, sA1_C_val]

end Acc0

end Cert.KernelIdeal.Hand.Blocks1

end
-- ==== Proof.R0Arr.lean ====
/-
  Region 0: the output array after the run. The output block of row tile n is written back once, after the last
  column tile; the eight row tiles' blocks tile the array, so the array ends holding, row by row, what those points
  left in the output block.
-/
import proofs.«147766_g40561671143680_cont_8to1_b_159_3_alg».proof.Proof.R0Frame
import proofs.«147766_g40561671143680_cont_8to1_b_159_3_alg».proof.Proof.SpecArr
import Idealize.ShloMosaic.Lib.Pipeline.Value
import Idealize.ShloMosaic.Lib.ValueIdx

set_option maxRecDepth 16384

noncomputable section

namespace Cert.KernelIdeal.Hand.Blocks0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx

/-- The output window's index map, decided over the grid: the block of row tile `t / 8`, the one block of features. -/
theorem out_idx : ∀ t : Fin cfg0.N, win0_3.index t (0 : Fin 2) = t.val / 8 ∧ win0_3.index t (1 : Fin 2) = 0 :=
  (by decide +kernel : ∀ t : Fin grid0.N, _)

/-- An index of the output array is in point `t`'s block iff each coordinate is in the block's range on its axis. -/
theorem out_mem_blk (t : Fin cfg0.N) (i : S4096x32.Idx) :
    i ∈ ((cfg0.win 3).blk t).view.set ↔ ∀ a : Fin 2, win0_3.index t a * S512x32.size a ≤ (i a).val ∧ (i a).val < win0_3.index t a * S512x32.size a + S512x32.size a := by
  show i ∈ ((View.whole main_v0).slice (win0_3.rect t)).set ↔ _
  rw [View.set_slice_whole, Rect.mem_set_unit]
  exact Iff.rfl

/-- Every index of the output array is in the block of a point that writes its block back: row `x` in that of the last
    column tile of row tile `x / 512`. -/
theorem out_cover (i : S4096x32.Idx) :
    ∃ t : Fin cfg0.N, (cfg0.win 3).flush t = true ∧ i ∈ ((cfg0.win 3).blk t).view.set := by
  have hN : cfg0.N = 64 := N_0
  have hi0 : (i 0).val < 4096 := (i 0).isLt
  have hi1 : (i 1).val < 32 := (i 1).isLt
  have ht : 8 * ((i 0).val / 512) + 7 < cfg0.N := by omega
  obtain ⟨e0, e1⟩ := out_idx ⟨8 * ((i 0).val / 512) + 7, ht⟩
  have e0' : win0_3.index ⟨8 * ((i 0).val / 512) + 7, ht⟩ (0 : Fin 2) = (8 * ((i 0).val / 512) + 7) / 8 := e0
  refine ⟨⟨8 * ((i 0).val / 512) + 7, ht⟩, (flush0_3 _).mpr (by show (8 * ((i 0).val / 512) + 7) % 8 = 7; omega), ?_⟩
  rw [out_mem_blk]
  intro a
  match a with
  | ⟨0, _⟩ =>
    show win0_3.index ⟨8 * ((i 0).val / 512) + 7, ht⟩ (0 : Fin 2) * 512 ≤ (i 0).val ∧ (i 0).val < win0_3.index ⟨8 * ((i 0).val / 512) + 7, ht⟩ (0 : Fin 2) * 512 + 512
    omega
  | ⟨1, _⟩ =>
    show win0_3.index ⟨8 * ((i 0).val / 512) + 7, ht⟩ (1 : Fin 2) * 32 ≤ (i 1).val ∧ (i 1).val < win0_3.index ⟨8 * ((i 0).val / 512) + 7, ht⟩ (1 : Fin 2) * 32 + 32
    omega

section Flushed

variable (V : (c : Dev nD) → (b : Ref sig .tc) → Buf (Elt Ideal) ((c : Thread nD τ).loc b))

/-- What a point that writes the output block back writes is its block of `G`, given that its output block holds those
    rows of `G`. -/
theorem out_flushed (c : Dev nD) (G : Cert.Spec.Emb)
    (hout : ∀ (t : Fin cfg0.N) (hd : t.val % 8 = 7) (p : Fin 512) (d : Fin 32),
      ((outsAt0 V c t.val t.isLt).1 : S512x32.Idx → EReal) (ix2 p d) = G (⟨512 * (t.val / 8) + p.val, by have := t.isLt; have := p.isLt; have h : cfg0.N = 64 := N_0; omega⟩ : Fin 4096) d)
    (t : Fin cfg0.N) (hf : (cfg0.win 3).flush t = true) :
    (dat0 V c).flushed 3 t = ((cfg0.win 3).blk t).view.read (Elt Ideal) (Cert.Spec.arrOf G) := by
  have hd : t.val % 8 = 7 := (flush0_3 t).mp hf
  show (cfg0.win 3).cut (grid0.coords t) ((dat0 V c).after 3 t) = _
  rw [after0_3]
  obtain ⟨e0, e1⟩ := out_idx t
  funext y
  obtain ⟨p, d, rfl⟩ : ∃ (p : Fin 512) (d : Fin 32), y = ix2 p d := ⟨y 0, y 1, eq_ix2 y⟩
  refine (hout t hd p d).trans ?_
  show G _ d = G ((((cfg0.win 3).blk t).view.emb (ix2 p d)) 0) ((((cfg0.win 3).blk t).view.emb (ix2 p d)) 1)
  congr 1 <;> apply Fin.ext
  · show 512 * (t.val / 8) + p.val = win0_3.index t (0 : Fin 2) * 512 + 1 * p.val
    omega
  · show d.val = win0_3.index t (1 : Fin 2) * 32 + 1 * d.val
    omega

end Flushed

section Arr0

variable (V : (c : Dev nD) → (b : Ref sig .tc) → Buf (Elt Ideal) ((c : Thread nD τ).loc b))

/-- If at every last-column-tile point t = 8·n + 7 the output block holds rows 512·n … of one function `G` of
    (row, feature), the output array ends holding `G`. -/
theorem arrOut0 (c : Dev nD) (G : Cert.Spec.Emb)
    (hout : ∀ (t : Fin cfg0.N) (hd : t.val % 8 = 7) (p : Fin 512) (d : Fin 32),
      ((outsAt0 V c t.val t.isLt).1 : S512x32.Idx → EReal) (ix2 p d) = G (⟨512 * (t.val / 8) + p.val, by have := t.isLt; have := p.isLt; have h : cfg0.N = 64 := N_0; omega⟩ : Fin 4096) d) :
    ((dat0 V c).arrAt 3 cfg0.N : S4096x32.Idx → EReal) = Cert.Spec.arrOf G := by
  exact (dat0 V c).arrAt_eq_of_cover 3 (Cert.Spec.arrOf G) (out_flushed V c G hout) out_cover

end Arr0

end Cert.KernelIdeal.Hand.Blocks0

end
-- ==== Proof.R1Arr.lean ====
/-
  Region 1: the output array after the run. The output block of row tile n is written back once, after the last
  column tile; the eight row tiles' blocks tile the array, so the array ends holding, row by row, what those points
  left in the output block.
-/
import proofs.«147766_g40561671143680_cont_8to1_b_159_3_alg».proof.Proof.R1Frame
import proofs.«147766_g40561671143680_cont_8to1_b_159_3_alg».proof.Proof.SpecArr
import Idealize.ShloMosaic.Lib.Pipeline.Value
import Idealize.ShloMosaic.Lib.ValueIdx

set_option maxRecDepth 16384

noncomputable section

namespace Cert.KernelIdeal.Hand.Blocks1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx

/-- The output window's index map, decided over the grid: the block of row tile `t / 8`, the one block of features. -/
theorem out_idx : ∀ t : Fin cfg1.N, win1_3.index t (0 : Fin 2) = t.val / 8 ∧ win1_3.index t (1 : Fin 2) = 0 :=
  (by decide +kernel : ∀ t : Fin grid1.N, _)

/-- An index of the output array is in point `t`'s block iff each coordinate is in the block's range on its axis. -/
theorem out_mem_blk (t : Fin cfg1.N) (i : S4096x32.Idx) :
    i ∈ ((cfg1.win 3).blk t).view.set ↔ ∀ a : Fin 2, win1_3.index t a * S512x32.size a ≤ (i a).val ∧ (i a).val < win1_3.index t a * S512x32.size a + S512x32.size a := by
  show i ∈ ((View.whole main_v0).slice (win1_3.rect t)).set ↔ _
  rw [View.set_slice_whole, Rect.mem_set_unit]
  exact Iff.rfl

/-- Every index of the output array is in the block of a point that writes its block back: row `x` in that of the last
    column tile of row tile `x / 512`. -/
theorem out_cover (i : S4096x32.Idx) :
    ∃ t : Fin cfg1.N, (cfg1.win 3).flush t = true ∧ i ∈ ((cfg1.win 3).blk t).view.set := by
  have hN : cfg1.N = 64 := N_1
  have hi0 : (i 0).val < 4096 := (i 0).isLt
  have hi1 : (i 1).val < 32 := (i 1).isLt
  have ht : 8 * ((i 0).val / 512) + 7 < cfg1.N := by omega
  obtain ⟨e0, e1⟩ := out_idx ⟨8 * ((i 0).val / 512) + 7, ht⟩
  have e0' : win1_3.index ⟨8 * ((i 0).val / 512) + 7, ht⟩ (0 : Fin 2) = (8 * ((i 0).val / 512) + 7) / 8 := e0
  refine ⟨⟨8 * ((i 0).val / 512) + 7, ht⟩, (flush0_3 _).mpr (by show (8 * ((i 0).val / 512) + 7) % 8 = 7; omega), ?_⟩
  rw [out_mem_blk]
  intro a
  match a with
  | ⟨0, _⟩ =>
    show win1_3.index ⟨8 * ((i 0).val / 512) + 7, ht⟩ (0 : Fin 2) * 512 ≤ (i 0).val ∧ (i 0).val < win1_3.index ⟨8 * ((i 0).val / 512) + 7, ht⟩ (0 : Fin 2) * 512 + 512
    omega
  | ⟨1, _⟩ =>
    show win1_3.index ⟨8 * ((i 0).val / 512) + 7, ht⟩ (1 : Fin 2) * 32 ≤ (i 1).val ∧ (i 1).val < win1_3.index ⟨8 * ((i 0).val / 512) + 7, ht⟩ (1 : Fin 2) * 32 + 32
    omega

section Flushed

variable (V : (c : Dev nD) → (b : Ref sig .tc) → Buf (Elt Ideal) ((c : Thread nD τ).loc b))

/-- What a point that writes the output block back writes is its block of `G`, given that its output block holds those
    rows of `G`. -/
theorem out_flushed (c : Dev nD) (G : Cert.Spec.Emb)
    (hout : ∀ (t : Fin cfg1.N) (hd : t.val % 8 = 7) (p : Fin 512) (d : Fin 32),
      ((outsAt1 V c t.val t.isLt).1 : S512x32.Idx → EReal) (ix2 p d) = G (⟨512 * (t.val / 8) + p.val, by have := t.isLt; have := p.isLt; have h : cfg1.N = 64 := N_1; omega⟩ : Fin 4096) d)
    (t : Fin cfg1.N) (hf : (cfg1.win 3).flush t = true) :
    (dat1 V c).flushed 3 t = ((cfg1.win 3).blk t).view.read (Elt Ideal) (Cert.Spec.arrOf G) := by
  have hd : t.val % 8 = 7 := (flush0_3 t).mp hf
  show (cfg1.win 3).cut (grid1.coords t) ((dat1 V c).after 3 t) = _
  rw [after1_3]
  obtain ⟨e0, e1⟩ := out_idx t
  funext y
  obtain ⟨p, d, rfl⟩ : ∃ (p : Fin 512) (d : Fin 32), y = ix2 p d := ⟨y 0, y 1, eq_ix2 y⟩
  refine (hout t hd p d).trans ?_
  show G _ d = G ((((cfg1.win 3).blk t).view.emb (ix2 p d)) 0) ((((cfg1.win 3).blk t).view.emb (ix2 p d)) 1)
  congr 1 <;> apply Fin.ext
  · show 512 * (t.val / 8) + p.val = win1_3.index t (0 : Fin 2) * 512 + 1 * p.val
    omega
  · show d.val = win1_3.index t (1 : Fin 2) * 32 + 1 * d.val
    omega

end Flushed

section Arr0

variable (V : (c : Dev nD) → (b : Ref sig .tc) → Buf (Elt Ideal) ((c : Thread nD τ).loc b))

/-- If at every last-column-tile point t = 8·n + 7 the output block holds rows 512·n … of one function `G` of
    (row, feature), the output array ends holding `G`. -/
theorem arrOut1 (c : Dev nD) (G : Cert.Spec.Emb)
    (hout : ∀ (t : Fin cfg1.N) (hd : t.val % 8 = 7) (p : Fin 512) (d : Fin 32),
      ((outsAt1 V c t.val t.isLt).1 : S512x32.Idx → EReal) (ix2 p d) = G (⟨512 * (t.val / 8) + p.val, by have := t.isLt; have := p.isLt; have h : cfg1.N = 64 := N_1; omega⟩ : Fin 4096) d) :
    ((dat1 V c).arrAt 3 cfg1.N : S4096x32.Idx → EReal) = Cert.Spec.arrOf G := by
  exact (dat1 V c).arrAt_eq_of_cover 3 (Cert.Spec.arrOf G) (out_flushed V c G hout) out_cover

end Arr0

end Cert.KernelIdeal.Hand.Blocks1

end
-- ==== Proof.Value.lean ====
/-
  The kernel's result over the extended reals: the second layer's output array after the run is the kernel's function of
  the specification — two layers in the kernel's grouping, then each row divided by the larger of its norm and the small
  constant — of the three argument arrays.
-/
import proofs.«147766_g40561671143680_cont_8to1_b_159_3_alg».proof.Proof.Run
import proofs.«147766_g40561671143680_cont_8to1_b_159_3_alg».proof.Proof.R0Acc
import proofs.«147766_g40561671143680_cont_8to1_b_159_3_alg».proof.Proof.R1Acc
import proofs.«147766_g40561671143680_cont_8to1_b_159_3_alg».proof.Proof.R0Arr
import proofs.«147766_g40561671143680_cont_8to1_b_159_3_alg».proof.Proof.R1Arr
import proofs.«147766_g40561671143680_cont_8to1_b_159_3_alg».proof.Proof.K0Pay
import proofs.«147766_g40561671143680_cont_8to1_b_159_3_alg».proof.Proof.K1Pay
import proofs.«147766_g40561671143680_cont_8to1_b_159_3_alg».proof.Proof.SpecArr

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx Cert.Spec
open Cert.KernelIdeal.Hand.Blocks0 Cert.KernelIdeal.Hand.Blocks1
open scoped BigOperators

/-- The sum over the column tiles at a tile count that is seven. -/
theorem accK_at_seven (a : Adj) (B : Prj) (x : Fin 4096) (d : Fin 32) :
    ∀ (e : ℕ) (he : e < 8), e = 7 → accK a B x d e he = accK a B x d 7 (by decide) := by
  intro e he h; subst h; rfl

section Layers

variable (V : (c : Dev nD) → (b : Ref sig .tc) → Buf (Elt Ideal) ((c : Thread nD τ).loc b))

/-- Region 0 leaves one layer of its inputs in its output array. -/
theorem layer0_value (c : Dev nD) :
    ((dat0 V c).arrAt 3 cfg0.N : S4096x32.Idx → EReal) = arrOf (layerK (adj0 V c) (emb0 V c) (rel0 V c)) :=
  arrOut0 V c _ fun t hd p d => by
    rw [Blocks0.outBlock0 V c t hd]
    refine (Cert.KernelIdeal.Pay0.pay4_apply _ p d).trans ?_
    rw [acc0 V c t p d, accK_at_seven _ _ _ _ _ _ hd]
    rfl

/-- Region 1 leaves one layer of its inputs, each row divided by the larger of its norm and the small constant. -/
theorem layer1_value (c : Dev nD) :
    ((dat1 V c).arrAt 3 cfg1.N : S4096x32.Idx → EReal) = arrOf (nrm (layerK (adj1 V c) (emb1 V c) (rel1 V c))) :=
  arrOut1 V c _ fun t hd p d => by
    rw [Blocks1.outBlock0 V c t hd]
    refine (Cert.KernelIdeal.Pay1.pay4_apply _ p d).trans ?_
    simp only [acc1 V c t, accK_at_seven _ _ _ _ _ _ hd]
    rfl

end Layers

variable (m : (ℓ : Loc nD τ sig) → Buf (Elt Ideal) ℓ)

/-- The result array after the run is the kernel's function of the argument arrays. -/
theorem kernel_value (c : Dev nD) :
    ((dat1 (V2 m) c).arrAt 3 cfg1.N : S4096x32.Idx → EReal)
      = arrOf (kernelFn (adjOf (m ((c : Thread nD τ).loc main_arg0) : S4x4096x4096.Idx → EReal))
          (embOf (m ((c : Thread nD τ).loc main_arg1) : S4096x32.Idx → EReal))
          (relOf (m ((c : Thread nD τ).loc main_arg2) : S4x32x32.Idx → EReal))) := by
  rw [layer1_value]
  have hadj : adj1 (V2 m) c = adjOf (m ((c : Thread nD τ).loc main_arg0) : S4x4096x4096.Idx → EReal) := by
    unfold adj1; exact congrArg adjOf (V2_main_arg0 m c)
  have hrel : rel1 (V2 m) c = relOf (m ((c : Thread nD τ).loc main_arg2) : S4x32x32.Idx → EReal) := by
    unfold rel1; exact congrArg relOf (V2_main_arg2 m c)
  have hemb : emb1 (V2 m) c = layerK (adj0 (V0 m) c) (emb0 (V0 m) c) (rel0 (V0 m) c) := by
    unfold emb1
    rw [show (V2 m c (Pipeline.arrRef spec1 1) : S4096x32.Idx → EReal) = ((dat0 (V0 m) c).arrAt 3 cfg0.N : S4096x32.Idx → EReal) from V2_main_v0 m c,
      layer0_value]
    rfl
  rw [hadj, hrel, hemb]
  rfl

end Cert.KernelIdeal.Hand

end
-- ==== Proof.RefValue.lean ====
/-
  The reference's result, read index by index, is the reference's function of the specification.
-/
import proofs.«147766_g40561671143680_cont_8to1_b_159_3_alg».proof.Proof.SpecArr
import proofs.«147766_g40561671143680_cont_8to1_b_159_3_alg».proof.Proof.Gen.ReferenceIdeal.Read

noncomputable section

open scoped BigOperators

namespace Cert.RefValue

open Cert.ReferenceIdeal Cert.ReferenceIdeal.Read Cert.Spec
open Idealize.ShloMosaic Idealize.ShloMosaic.ValueIdx

/-- One layer of the reference at a row and a feature, written out. -/
theorem layerR_apply (adj : Adj) (emb : Emb) (w : Rel) (x : Fin 4096) (i : Fin 32) :
    layerR adj emb w x i = max (∑ r : Fin 4, ∑ j : Fin 32, (∑ e : Fin 4096, adj r x e * emb e j) * w r i j) 0 := rfl

/-! The index functions of the reference's stages, at indices given by their coordinates. -/

/-- The sum over the relations reads the batched product at (relation, row, feature). -/
theorem idx_sum (x : Fin 4096) (i : Fin 32) (r : Fin 4) : idx_main_v2 (ix2 x i) r = ix3 r x i :=
  funext fun a => by match a with | ⟨0, _⟩ => rfl | ⟨1, _⟩ => rfl | ⟨2, _⟩ => rfl
theorem idx_sum' (x : Fin 4096) (i : Fin 32) (r : Fin 4) : idx_main_v6 (ix2 x i) r = ix3 r x i :=
  funext fun a => by match a with | ⟨0, _⟩ => rfl | ⟨1, _⟩ => rfl | ⟨2, _⟩ => rfl

/-- The second product contracts the input feature: its left operand at (relation, row, input feature) … -/
theorem lidx_rel (r : Fin 4) (x : Fin 4096) (i j : Fin 32) : lidx_main_v1 (ix3 r x i) j = ix3 r x j :=
  funext fun a => by match a with | ⟨0, _⟩ => rfl | ⟨1, _⟩ => rfl | ⟨2, _⟩ => rfl
theorem lidx_rel' (r : Fin 4) (x : Fin 4096) (i j : Fin 32) : lidx_main_v5 (ix3 r x i) j = ix3 r x j :=
  funext fun a => by match a with | ⟨0, _⟩ => rfl | ⟨1, _⟩ => rfl | ⟨2, _⟩ => rfl
/-- … and the relation matrix at (relation, output feature, input feature). -/
theorem ridx_rel (r : Fin 4) (x : Fin 4096) (i j : Fin 32) : ridx_main_v1 (ix3 r x i) j = ix3 r i j :=
  funext fun a => by match a with | ⟨0, _⟩ => rfl | ⟨1, _⟩ => rfl | ⟨2, _⟩ => rfl
theorem ridx_rel' (r : Fin 4) (x : Fin 4096) (i j : Fin 32) : ridx_main_v5 (ix3 r x i) j = ix3 r i j :=
  funext fun a => by match a with | ⟨0, _⟩ => rfl | ⟨1, _⟩ => rfl | ⟨2, _⟩ => rfl

/-- The first product contracts the column: the adjacency at (relation, row, column) … -/
theorem lidx_adj (r : Fin 4) (x : Fin 4096) (j : Fin 32) (e : Fin 4096) : lidx_main_v0 (ix3 r x j) e = ix3 r x e :=
  funext fun a => by match a with | ⟨0, _⟩ => rfl | ⟨1, _⟩ => rfl | ⟨2, _⟩ => rfl
theorem lidx_adj' (r : Fin 4) (x : Fin 4096) (j : Fin 32) (e : Fin 4096) : lidx_main_v4 (ix3 r x j) e = ix3 r x e :=
  funext fun a => by match a with | ⟨0, _⟩ => rfl | ⟨1, _⟩ => rfl | ⟨2, _⟩ => rfl
/-- … and the embedding at (column, feature). -/
theorem ridx_adj (r : Fin 4) (x : Fin 4096) (j : Fin 32) (e : Fin 4096) : ridx_main_v0 (ix3 r x j) e = ix2 e j :=
  funext fun a => by match a with | ⟨0, _⟩ => rfl | ⟨1, _⟩ => rfl
theorem ridx_adj' (r : Fin 4) (x : Fin 4096) (j : Fin 32) (e : Fin 4096) : ridx_main_v4 (ix3 r x j) e = ix2 e j :=
  funext fun a => by match a with | ⟨0, _⟩ => rfl | ⟨1, _⟩ => rfl

/-- The row's sum of squares is read at (row, feature), whatever feature the result's index has. -/
theorem idx_norm (x : Fin 4096) (d k : Fin 32) :
    idx_main_call2_v1 (idx_main_call2_v2 (idx_main_v11 (ix2 x d))) k = ix2 x k :=
  funext fun a => by match a with | ⟨0, _⟩ => rfl | ⟨1, _⟩ => rfl

/-- The first layer: the stage after the first clamp is `layerR` of the three arguments. -/
theorem layer_one (x0 : (⟨S4x4096x4096, .f32⟩ : BufTy).Contents (Elt Ideal)) (x1 : (⟨S4096x32, .f32⟩ : BufTy).Contents (Elt Ideal))
    (x2 : (⟨S4x32x32, .f32⟩ : BufTy).Contents (Elt Ideal)) (x : Fin 4096) (i : Fin 32) :
    val_main_v3 (F := Ideal) x0 x1 x2 (ix2 x i) = layerR (adjOf x0) (embOf x1) (relOf x2) x i := by
  rw [val_main_v3_apply, val_main_v2_apply, val_main_call0_v0_apply, val_main_call0_cst_apply, val_main_cst_apply,
    layerR_apply]
  simp only [val_main_v1_apply, val_main_v0_apply, Ideal.maximumf_def, Ideal.ofBits_def, Ideal.ofBits_zero_f32, zero_add]
  refine congrArg (max · 0) ?_
  refine Finset.sum_congr rfl fun r _ => Finset.sum_congr rfl fun j _ => ?_
  rw [idx_sum, lidx_rel, ridx_rel]
  refine congrArg (· * _) (Finset.sum_congr rfl fun e _ => ?_)
  rw [lidx_adj, ridx_adj]
  rfl

/-- The second layer: the same stages again, reading the first layer's result in place of the embedding table. -/
theorem layer_two (x0 : (⟨S4x4096x4096, .f32⟩ : BufTy).Contents (Elt Ideal)) (x1 : (⟨S4096x32, .f32⟩ : BufTy).Contents (Elt Ideal))
    (x2 : (⟨S4x32x32, .f32⟩ : BufTy).Contents (Elt Ideal)) (x : Fin 4096) (i : Fin 32) :
    val_main_v7 (F := Ideal) x0 x1 x2 (ix2 x i)
      = layerR (adjOf x0) (layerR (adjOf x0) (embOf x1) (relOf x2)) (relOf x2) x i := by
  rw [val_main_v7_apply, val_main_v6_apply, val_main_call1_v0_apply, val_main_call1_cst_apply, val_main_cst_0_apply,
    layerR_apply]
  simp only [val_main_v5_apply, val_main_v4_apply, Ideal.maximumf_def, Ideal.ofBits_def, Ideal.ofBits_zero_f32, zero_add]
  refine congrArg (max · 0) ?_
  refine Finset.sum_congr rfl fun r _ => Finset.sum_congr rfl fun j _ => ?_
  rw [idx_sum', lidx_rel', ridx_rel']
  refine congrArg (· * _) (Finset.sum_congr rfl fun e _ => ?_)
  rw [lidx_adj', ridx_adj', layer_one]
  rfl

/-- The last stage of the reference, at an index, is `referenceFn` of the three argument arrays. -/
theorem reference_value (x0 : (⟨S4x4096x4096, .f32⟩ : BufTy).Contents (Elt Ideal)) (x1 : (⟨S4096x32, .f32⟩ : BufTy).Contents (Elt Ideal))
    (x2 : (⟨S4x32x32, .f32⟩ : BufTy).Contents (Elt Ideal)) (x : Fin 4096) (d : Fin 32) :
    val_main_v12 (F := Ideal) x0 x1 x2 (ix2 x d) = referenceFn (adjOf x0) (embOf x1) (relOf x2) x d := by
  rw [val_main_v12_apply, val_main_v11_apply, val_main_v10_apply, val_main_v8_apply, val_main_call2_v2_apply,
    val_main_call2_v1_apply, val_main_v9_apply, val_main_cst_1_apply, val_main_call2_cst_apply]
  simp only [val_main_call2_v0_apply, idx_norm, layer_two, Ideal.maximumf_def, Ideal.mulf_def, Ideal.hostDivf_def,
    Ideal.hostUnary_sqrt_def, Ideal.ofBits_def, Ideal.ofBits_zero_f32, zero_add]
  rfl

/-- The same as one equation of arrays. -/
theorem reference_value_arr (x0 : (⟨S4x4096x4096, .f32⟩ : BufTy).Contents (Elt Ideal)) (x1 : (⟨S4096x32, .f32⟩ : BufTy).Contents (Elt Ideal))
    (x2 : (⟨S4x32x32, .f32⟩ : BufTy).Contents (Elt Ideal)) :
    val_main_v12 (F := Ideal) x0 x1 x2 = arrOf (referenceFn (adjOf x0) (embOf x1) (relOf x2)) := by
  funext i
  obtain ⟨x, d, rfl⟩ : ∃ (x : Fin 4096) (d : Fin 32), i = ix2 x d := ⟨i 0, i 1, eq_ix2 i⟩
  exact reference_value x0 x1 x2 x d

end Cert.RefValue

end
-- ==== Proof.SpecLaw.lean ====
/-
  On finite inputs the two groupings of a layer agree, and so do the two programs.

  The extended reals are not a ring, so the argument runs over the reals: finite arrays are coercions of real
  arrays, each grouping of the layer is the coercion of the corresponding real expression, and the two real
  expressions are equal by distributivity, exchanging the order of summation, and splitting the sum over the
  4096 columns into eight tiles of 512.
-/
import proofs.«147766_g40561671143680_cont_8to1_b_159_3_alg».proof.Proof.Spec
import Mathlib.Data.EReal.Basic
import Mathlib.Data.EReal.Operations
import Mathlib.Algebra.BigOperators.Fin
import Mathlib.Algebra.BigOperators.Ring.Finset
import Mathlib.Logic.Equiv.Fin.Basic

noncomputable section

open scoped BigOperators

namespace Cert.Spec

open Idealize.ShloMosaic

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- The coercion commutes with clamping at zero. -/
theorem coe_max_zero (a : ℝ) : ((max a 0 : ℝ) : EReal) = max (a : EReal) 0 := by
  rcases le_total a 0 with h | h
  · rw [max_eq_right h, max_eq_right (by rw [← EReal.coe_zero]; exact EReal.coe_le_coe_iff.2 h)]
    rfl
  · rw [max_eq_left h, max_eq_left (by rw [← EReal.coe_zero]; exact EReal.coe_le_coe_iff.2 h)]

/-- Column `k` of tile `e` is the image of `(e, k)` under the standard bijection. -/
theorem col_eq (e : Fin 8) (k : Fin 512) :
    col e k = (finProdFinEquiv (m := 8) (n := 512) (e, k) : Fin 4096) := by
  apply Fin.ext
  show 512 * e.val + k.val = k.val + 512 * e.val
  omega

/-- A sum over the 4096 columns is the sum over the eight tiles of the sums over a tile's 512 columns. -/
theorem sum_tiles (f : Fin 4096 → ℝ) :
    ∑ e : Fin 8, ∑ k : Fin 512, f (col e k) = ∑ c : Fin 4096, f c := by
  rw [← Fintype.sum_prod_type']
  exact Fintype.sum_equiv (finProdFinEquiv (m := 8) (n := 512)) _ _ (fun p => by rw [col_eq])

/-- The real value of one layer before clamping. -/
def coreR (a : Fin 4 → Fin 4096 → Fin 4096 → ℝ) (m : Fin 4096 → Fin 32 → ℝ) (v : Fin 4 → Fin 32 → Fin 32 → ℝ)
    (x : Fin 4096) (i : Fin 32) : ℝ :=
  ∑ r : Fin 4, ∑ j : Fin 32, (∑ e : Fin 4096, a r x e * m e j) * v r i j

/-- The kernel's grouping, over the reals, is the reference's. -/
theorem real_regroup (a : Fin 4 → Fin 4096 → Fin 4096 → ℝ) (m : Fin 4096 → Fin 32 → ℝ)
    (v : Fin 4 → Fin 32 → Fin 32 → ℝ) (x : Fin 4096) (i : Fin 32) :
    ∑ e : Fin 8, ∑ r : Fin 4, ∑ k : Fin 512, a r x (col e k) * ∑ j : Fin 32, m (col e k) j * v r i j
      = coreR a m v x i := by
  unfold coreR
  rw [Finset.sum_comm]
  refine Finset.sum_congr rfl (fun r _ => ?_)
  rw [sum_tiles (fun c => a r x c * ∑ j : Fin 32, m c j * v r i j)]
  simp only [Finset.mul_sum, Finset.sum_mul]
  rw [Finset.sum_comm]
  refine Finset.sum_congr rfl (fun j _ => Finset.sum_congr rfl (fun c _ => ?_))
  ring

/-- The eight tiles, added left to right. -/
theorem accK_seven (adj : Adj) (B : Prj) (x : Fin 4096) (d : Fin 32) (h : 7 < 8) :
    accK adj B x d 7 h
      = ((((((tilePart adj B x d 0 + tilePart adj B x d 1) + tilePart adj B x d 2) + tilePart adj B x d 3)
          + tilePart adj B x d 4) + tilePart adj B x d 5) + tilePart adj B x d 6) + tilePart adj B x d 7 := rfl

/-- The kernel's grouping of a layer of coerced real arrays is the coercion of the real layer. -/
theorem layerK_coe (a : Fin 4 → Fin 4096 → Fin 4096 → ℝ) (m : Fin 4096 → Fin 32 → ℝ)
    (v : Fin 4 → Fin 32 → Fin 32 → ℝ) (x : Fin 4096) (i : Fin 32) :
    layerK (fun r x e => (a r x e : EReal)) (fun x j => (m x j : EReal)) (fun r i j => (v r i j : EReal)) x i
      = ((max (coreR a m v x i) 0 : ℝ) : EReal) := by
  have hproj : proj (fun x j => (m x j : EReal)) (fun r i j => (v r i j : EReal))
      = fun r x d => ((∑ j : Fin 32, m x j * v r d j : ℝ) : EReal) := by
    funext r x d
    unfold proj
    rw [coe_sum]
    exact Finset.sum_congr rfl (fun j _ => (EReal.coe_mul _ _).symm)
  have htile : ∀ r e, tileDot (fun r x e => (a r x e : EReal))
        (fun r x d => ((∑ j : Fin 32, m x j * v r d j : ℝ) : EReal)) r x i e
      = ((∑ k : Fin 512, a r x (col e k) * ∑ j : Fin 32, m (col e k) j * v r i j : ℝ) : EReal) := by
    intro r e
    unfold tileDot
    rw [coe_sum]
    exact Finset.sum_congr rfl (fun k _ => (EReal.coe_mul _ _).symm)
  have hpart : ∀ e, tilePart (fun r x e => (a r x e : EReal))
        (fun r x d => ((∑ j : Fin 32, m x j * v r d j : ℝ) : EReal)) x i e
      = ((∑ r : Fin 4, ∑ k : Fin 512, a r x (col e k) * ∑ j : Fin 32, m (col e k) j * v r i j : ℝ) : EReal) := by
    intro e
    unfold tilePart
    rw [htile, htile, htile, htile, Fin.sum_univ_four, EReal.coe_add, EReal.coe_add, EReal.coe_add]
  unfold layerK
  rw [hproj, accK_seven, hpart, hpart, hpart, hpart, hpart, hpart, hpart, hpart, coe_max_zero,
    ← real_regroup, Fin.sum_univ_eight]
  simp only [EReal.coe_add]

/-- The reference's grouping of a layer of coerced real arrays is the coercion of the real layer. -/
theorem layerR_coe (a : Fin 4 → Fin 4096 → Fin 4096 → ℝ) (m : Fin 4096 → Fin 32 → ℝ)
    (v : Fin 4 → Fin 32 → Fin 32 → ℝ) (x : Fin 4096) (i : Fin 32) :
    layerR (fun r x e => (a r x e : EReal)) (fun x j => (m x j : EReal)) (fun r i j => (v r i j : EReal)) x i
      = ((max (coreR a m v x i) 0 : ℝ) : EReal) := by
  unfold layerR coreR
  rw [coe_max_zero]
  simp only [coe_sum, EReal.coe_mul]

/-- On finite inputs one layer is the same function in both groupings, and its values are finite. -/
theorem layer_eq (adj : Adj) (emb : Emb) (w : Rel)
    (hadj : ∀ r x e, ∃ v : ℝ, adj r x e = (v : EReal)) (hemb : ∀ x j, ∃ v : ℝ, emb x j = (v : EReal))
    (hw : ∀ r i j, ∃ v : ℝ, w r i j = (v : EReal)) :
    layerK adj emb w = layerR adj emb w ∧ ∀ x d, ∃ v : ℝ, layerK adj emb w x d = (v : EReal) := by
  choose a ha using hadj
  choose m hm using hemb
  choose v hv using hw
  obtain rfl : adj = fun r x e => (a r x e : EReal) := by funext r x e; exact ha r x e
  obtain rfl : emb = fun x j => (m x j : EReal) := by funext x j; exact hm x j
  obtain rfl : w = fun r i j => (v r i j : EReal) := by funext r i j; exact hv r i j
  refine ⟨?_, fun x d => ⟨_, layerK_coe a m v x d⟩⟩
  funext x i
  rw [layerK_coe, layerR_coe]

/-- On finite inputs the kernel's function is the reference's. -/
theorem kernel_eq_reference (adj : Adj) (emb : Emb) (w : Rel)
    (hadj : ∀ r x e, ∃ v : ℝ, adj r x e = (v : EReal)) (hemb : ∀ x j, ∃ v : ℝ, emb x j = (v : EReal))
    (hw : ∀ r i j, ∃ v : ℝ, w r i j = (v : EReal)) :
    kernelFn adj emb w = referenceFn adj emb w := by
  obtain ⟨h1, hfin⟩ := layer_eq adj emb w hadj hemb hw
  obtain ⟨h2, _⟩ := layer_eq adj (layerK adj emb w) w hadj hfin hw
  unfold kernelFn referenceFn
  rw [h2, h1]

end Cert.Spec

end
-- ==== Proof.Finite.lean ====
/-
  The precondition, decoded: where it holds, every entry of the three argument arrays is a real number.
-/
import proofs.«147766_g40561671143680_cont_8to1_b_159_3_alg».proof.Proof.Gen.Pre_finite_inputs
import Idealize.ShloMosaic.Lib.ReduceAll
import Idealize.ShloMosaic.Lib.ValueIdx

noncomputable section

namespace Cert.Finite

open Idealize.ShloMosaic Cert.Pre_finite_inputs

/-- The scalar shape has one index. -/
instance : Subsingleton S_.Idx := ⟨fun _ _ => funext fun d => d.elim0⟩

/-- An extended real whose absolute value compares below the pattern of +∞ is a real number: the pattern denotes ⊤,
    the absolute value of either infinity is ⊤, and ⊤ is not below ⊤. -/
theorem real_of_abs_lt_inf (x : EReal)
    (hx : FloatOps.cmpf (F := Ideal) (φ := .f32) .olt (FloatOps.hostAbsf x) (FloatOps.ofBits .f32 0x7F800000#32) = 1#1) :
    ∃ v : ℝ, x = (v : EReal) := by
  have htop : Ideal.ofBits .f32 0x7F800000#32 = ⊤ := by simp [Ideal.ofBits, Ideal.ieee]
  have h1 : Ideal.cmp .olt (max x (-x)) (Ideal.ofBits .f32 0x7F800000#32) = 1#1 := hx
  rw [htop] at h1
  have h2 : max x (-x) < ⊤ := by
    by_contra hn
    simp [Ideal.cmp, hn] at h1
  induction x using EReal.rec with
  | bot => simp at h2
  | coe v => exact ⟨v, rfl⟩
  | top => simp at h2

/-- If the printed precondition evaluates to true on three arrays of extended reals, each entry of each is finite. -/
theorem finite_of_pre [hP : Cert.Pre_finite_inputs.Facts] (x0 : FVec Ideal S4x4096x4096 .f32) (x1 : FVec Ideal S4096x32 .f32) (x2 : FVec Ideal S4x32x32 .f32)
    (h : Cert.Pre_finite_inputs.fn (F := Ideal) x0 x1 x2 = (fun _ => 1#1)) :
    (∀ i, ∃ v : ℝ, x0 i = (v : EReal)) ∧ (∀ i, ∃ v : ℝ, x1 i = (v : EReal)) ∧ (∀ i, ∃ v : ℝ, x2 i = (v : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨fun i => real_of_abs_lt_inf _ (Host.reduce_andi_all _ _ _ _ _ h0' i),
    fun i => real_of_abs_lt_inf _ (Host.reduce_andi_all _ _ _ _ _ h1 i),
    fun i => real_of_abs_lt_inf _ (Host.reduce_andi_all _ _ _ _ _ h2 i)⟩

end Cert.Finite

end
-- ==== Proof.lean ====
/-
  The certificate's claims.

  The kernel applies the encoder layer relu(Σ_r adj_r · emb · w_rᵀ) twice and divides each row of the result by the
  larger of its Euclidean norm and a small constant; it groups a layer as adj_r · (emb · w_rᵀ), walking the adjacency
  in 512 × 512 tiles and accumulating over the column tiles, where the reference groups it as (adj_r · emb) · w_rᵀ.
  Each program's run terminates without a fault and leaves its arguments unchanged (the three frames). At the ideal
  values the kernel's result array is `Cert.Spec.kernelFn` of the arguments and the reference's is
  `Cert.Spec.referenceFn`; on finite inputs, which the precondition gives, the two are one function: the sums are
  finite sums of reals, so the two groupings agree by distributivity and reordering.
-/
import proofs.«147766_g40561671143680_cont_8to1_b_159_3_alg».proof.Defs
import proofs.«147766_g40561671143680_cont_8to1_b_159_3_alg».proof.Proof.Gen.Kernel
import proofs.«147766_g40561671143680_cont_8to1_b_159_3_alg».proof.Proof.Gen.KernelIdeal
import proofs.«147766_g40561671143680_cont_8to1_b_159_3_alg».proof.Proof.Gen.ReferenceIdeal
import proofs.«147766_g40561671143680_cont_8to1_b_159_3_alg».proof.Proof.Gen.Pre_finite_inputs
import proofs.«147766_g40561671143680_cont_8to1_b_159_3_alg».proof.Proof.Gen.ReferenceIdeal.Run
import proofs.«147766_g40561671143680_cont_8to1_b_159_3_alg».proof.Proof.Gen.ReferenceIdeal.Read
import proofs.«147766_g40561671143680_cont_8to1_b_159_3_alg».proof.Proof.KRun
import proofs.«147766_g40561671143680_cont_8to1_b_159_3_alg».proof.Proof.Run
import proofs.«147766_g40561671143680_cont_8to1_b_159_3_alg».proof.Proof.Value
import proofs.«147766_g40561671143680_cont_8to1_b_159_3_alg».proof.Proof.RefValue
import proofs.«147766_g40561671143680_cont_8to1_b_159_3_alg».proof.Proof.SpecLaw
import proofs.«147766_g40561671143680_cont_8to1_b_159_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves its arguments unchanged. -/
theorem frame_k : Cert.frame_Kernel := fun m ρ _ => Cert.Kernel.Hand.frame (F := Bits) m ρ

/-- So does the kernel read at the ideal values. -/
theorem frame_ki : Cert.frame_KernelIdeal := fun m ρ _ => Cert.KernelIdeal.Hand.frame (F := Ideal) m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories agreeing on the arguments both programs end at the kernel's function of them. -/
theorem algebraic : Cert.algebraic_KernelIdeal_ReferenceIdeal := by
  intro m ρ m' ρ' hpre hagree
  refine ⟨fun c => (Cert.Spec.arrOf (Cert.Spec.kernelFn
      (Cert.Spec.adjOf (m ((c.tc : Thread Cert.KernelIdeal.nD Cert.KernelIdeal.τ).loc Cert.KernelIdeal.main_arg0)))
      (Cert.Spec.embOf (m ((c.tc : Thread Cert.KernelIdeal.nD Cert.KernelIdeal.τ).loc Cert.KernelIdeal.main_arg1)))
      (Cert.Spec.relOf (m ((c.tc : Thread Cert.KernelIdeal.nD Cert.KernelIdeal.τ).loc Cert.KernelIdeal.main_arg2))))), ?_, ?_⟩
  · refine (θ_run Cert.KernelIdeal.defs _ _).mono (fun _ h c => ⟨(h c).1.trans ?_, (h c).2⟩)
      (Cert.KernelIdeal.Hand.run_value (F := Ideal) m ρ)
    exact Cert.KernelIdeal.Hand.kernel_value m c
  · refine (θ_run Cert.ReferenceIdeal.defs _ _).mono (fun _ h c => ⟨(h c).1.trans ?_, (h c).2⟩)
      (Cert.ReferenceIdeal.Value.run (F := Ideal) m' ρ')
    obtain ⟨h0, h1, h2⟩ := Cert.Finite.finite_of_pre _ _ _ (hpre c)
    rw [Cert.ReferenceIdeal.Read.val_main_v12_eq, Cert.RefValue.reference_value_arr, (hagree c).1, (hagree c).2.1, (hagree c).2.2]
    refine congrArg Cert.Spec.arrOf (Cert.Spec.kernel_eq_reference _ _ _ ?_ ?_ ?_).symm
    · intro r x e; exact h0 _
    · intro x j; exact h1 _
    · intro r i j; exact h2 _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
